-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x6 : Shape := ⟨2, ![16384, 6]⟩
abbrev S16384x8 : Shape := ⟨2, ![16384, 8]⟩
abbrev S1000000x1 : Shape := ⟨2, ![1000000, 1]⟩
abbrev S100000x1 : Shape := ⟨2, ![100000, 1]⟩
abbrev S2x1 : Shape := ⟨2, ![2, 1]⟩
abbrev S7x1 : Shape := ⟨2, ![7, 1]⟩
abbrev S21x1 : Shape := ⟨2, ![21, 1]⟩
abbrev S19x1 : Shape := ⟨2, ![19, 1]⟩
abbrev S1000000x32 : Shape := ⟨2, ![1000000, 32]⟩
abbrev S100000x32 : Shape := ⟨2, ![100000, 32]⟩
abbrev S2x32 : Shape := ⟨2, ![2, 32]⟩
abbrev S7x32 : Shape := ⟨2, ![7, 32]⟩
abbrev S21x32 : Shape := ⟨2, ![21, 32]⟩
abbrev S19x32 : Shape := ⟨2, ![19, 32]⟩
abbrev S1x8 : Shape := ⟨2, ![1, 8]⟩
abbrev S1 : Shape := ⟨1, ![1]⟩
abbrev S128x200 : Shape := ⟨2, ![128, 200]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S2x1 : S_.BroadcastsInDim S2x1 (![] : Fin 0 → Fin S2x1.rank)
  reducesTo_S2x1_S_d0_1 : S2x1.ReducesTo [0, 1] S_
  bcast_S_S7x1 : S_.BroadcastsInDim S7x1 (![] : Fin 0 → Fin S7x1.rank)
  reducesTo_S7x1_S_d0_1 : S7x1.ReducesTo [0, 1] S_
  bcast_S_S21x1 : S_.BroadcastsInDim S21x1 (![] : Fin 0 → Fin S21x1.rank)
  reducesTo_S21x1_S_d0_1 : S21x1.ReducesTo [0, 1] S_
  bcast_S_S19x1 : S_.BroadcastsInDim S19x1 (![] : Fin 0 → Fin S19x1.rank)
  reducesTo_S19x1_S_d0_1 : S19x1.ReducesTo [0, 1] S_
  bcast_S_S1000000x32 : S_.BroadcastsInDim S1000000x32 (![] : Fin 0 → Fin S1000000x32.rank)
  reducesTo_S1000000x32_S_d0_1 : S1000000x32.ReducesTo [0, 1] S_
  bcast_S_S100000x32 : S_.BroadcastsInDim S100000x32 (![] : Fin 0 → Fin S100000x32.rank)
  reducesTo_S100000x32_S_d0_1 : S100000x32.ReducesTo [0, 1] S_
  bcast_S_S2x32 : S_.BroadcastsInDim S2x32 (![] : Fin 0 → Fin S2x32.rank)
  reducesTo_S2x32_S_d0_1 : S2x32.ReducesTo [0, 1] S_
  bcast_S_S7x32 : S_.BroadcastsInDim S7x32 (![] : Fin 0 → Fin S7x32.rank)
  reducesTo_S7x32_S_d0_1 : S7x32.ReducesTo [0, 1] S_
  bcast_S_S21x32 : S_.BroadcastsInDim S21x32 (![] : Fin 0 → Fin S21x32.rank)
  reducesTo_S21x32_S_d0_1 : S21x32.ReducesTo [0, 1] S_
  bcast_S_S19x32 : S_.BroadcastsInDim S19x32 (![] : Fin 0 → Fin S19x32.rank)
  reducesTo_S19x32_S_d0_1 : S19x32.ReducesTo [0, 1] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_
  bcast_S_S128x200 : S_.BroadcastsInDim S128x200 (![] : Fin 0 → Fin S128x200.rank)
  reducesTo_S128x200_S_d0_1 : S128x200.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S16384 : S_.BroadcastsInDim S16384 (![] : Fin 0 → Fin S16384.rank)
  reducesTo_S16384_S_d0 : S16384.ReducesTo [0] S_

variable [Facts]

def fn_part9 {F : FTy → Type} [FloatOps F] (main_arg5 : IVec S16384x6 32) (main_v148 : IVec S_ 1) (main_v150 : IVec S16384x6 1) : IVec S_ 1 :=
  let main_c_63 : IVec S_ 1 := constantI S_ 1 1#1
  let main_v151 : IVec S_ 1 := (fun x v => Host.reduce IntOp.andi x v reducesTo_S16384x6_S_d0_1 h_S_) main_v150 main_c_63
  let main_v152 : IVec S_ 1 := andi main_v148 main_v151
  let main_c_64 : IVec S_ 32 := constantI S_ 32 19#32
  let main_v153 : IVec S16384x6 32 := broadcastInDim S16384x6 ![] bcast_S_S16384x6 main_c_64
  let main_v154 : IVec S16384x6 1 := cmpi .slt main_arg5 main_v153
  let main_c_65 : IVec S_ 1 := constantI S_ 1 1#1
  let main_v155 : IVec S_ 1 := (fun x v => Host.reduce IntOp.andi x v reducesTo_S16384x6_S_d0_1 h_S_) main_v154 main_c_65
  let main_v156 : IVec S_ 1 := andi main_v152 main_v155
  main_v156

def fn_part8 {F : FTy → Type} [FloatOps F] (main_arg3 : IVec S16384 32) (main_arg4 : IVec S16384 32) (main_arg5 : IVec S16384x6 32) (main_v132 : IVec S_ 1) (main_v134 : IVec S16384 1) : IVec S_ 1 :=
  let main_c_55 : IVec S_ 1 := constantI S_ 1 1#1
  let main_v135 : IVec S_ 1 := (fun x v => Host.reduce IntOp.andi x v reducesTo_S16384_S_d0 h_S_) main_v134 main_c_55
  let main_v136 : IVec S_ 1 := andi main_v132 main_v135
  let main_c_56 : IVec S_ 32 := constantI S_ 32 7#32
  let main_v137 : IVec S16384 32 := broadcastInDim S16384 ![] bcast_S_S16384 main_c_56
  let main_v138 : IVec S16384 1 := cmpi .slt main_arg3 main_v137
  let main_c_57 : IVec S_ 1 := constantI S_ 1 1#1
  let main_v139 : IVec S_ 1 := (fun x v => Host.reduce IntOp.andi x v reducesTo_S16384_S_d0 h_S_) main_v138 main_c_57
  let main_v140 : IVec S_ 1 := andi main_v136 main_v139
  let main_c_58 : IVec S_ 32 := constantI S_ 32 0#32
  let main_v141 : IVec S16384 32 := broadcastInDim S16384 ![] bcast_S_S16384 main_c_58
  let main_v142 : IVec S16384 1 := cmpi .sge main_arg4 main_v141
  let main_c_59 : IVec S_ 1 := constantI S_ 1 1#1
  let main_v143 : IVec S_ 1 := (fun x v => Host.reduce IntOp.andi x v reducesTo_S16384_S_d0 h_S_) main_v142 main_c_59
  let main_v144 : IVec S_ 1 := andi main_v140 main_v143
  let main_c_60 : IVec S_ 32 := constantI S_ 32 21#32
  let main_v145 : IVec S16384 32 := broadcastInDim S16384 ![] bcast_S_S16384 main_c_60
  let main_v146 : IVec S16384 1 := cmpi .slt main_arg4 main_v145
  let main_c_61 : IVec S_ 1 := constantI S_ 1 1#1
  let main_v147 : IVec S_ 1 := (fun x v => Host.reduce IntOp.andi x v reducesTo_S16384_S_d0 h_S_) main_v146 main_c_61
  let main_v148 : IVec S_ 1 := andi main_v144 main_v147
  let main_c_62 : IVec S_ 32 := constantI S_ 32 0#32
  let main_v149 : IVec S16384x6 32 := broadcastInDim S16384x6 ![] bcast_S_S16384x6 main_c_62
  let main_v150 : IVec S16384x6 1 := cmpi .sge main_arg5 main_v149
  fn_part9 (F := F) main_arg5 main_v148 main_v150

def fn_part7 {F : FTy → Type} [FloatOps F] (main_arg1 : IVec S16384 32) (main_arg2 : IVec S16384 32) (main_arg3 : IVec S16384 32) (main_arg4 : IVec S16384 32) (main_arg5 : IVec S16384x6 32) (main_v116 : IVec S_ 1) (main_v118 : IVec S16384 1) : IVec S_ 1 :=
  let main_c_47 : IVec S_ 1 := constantI S_ 1 1#1
  let main_v119 : IVec S_ 1 := (fun x v => Host.reduce IntOp.andi x v reducesTo_S16384_S_d0 h_S_) main_v118 main_c_47
  let main_v120 : IVec S_ 1 := andi main_v116 main_v119
  let main_c_48 : IVec S_ 32 := constantI S_ 32 100000#32
  let main_v121 : IVec S16384 32 := broadcastInDim S16384 ![] bcast_S_S16384 main_c_48
  let main_v122 : IVec S16384 1 := cmpi .slt main_arg1 main_v121
  let main_c_49 : IVec S_ 1 := constantI S_ 1 1#1
  let main_v123 : IVec S_ 1 := (fun x v => Host.reduce IntOp.andi x v reducesTo_S16384_S_d0 h_S_) main_v122 main_c_49
  let main_v124 : IVec S_ 1 := andi main_v120 main_v123
  let main_c_50 : IVec S_ 32 := constantI S_ 32 0#32
  let main_v125 : IVec S16384 32 := broadcastInDim S16384 ![] bcast_S_S16384 main_c_50
  let main_v126 : IVec S16384 1 := cmpi .sge main_arg2 main_v125
  let main_c_51 : IVec S_ 1 := constantI S_ 1 1#1
  let main_v127 : IVec S_ 1 := (fun x v => Host.reduce IntOp.andi x v reducesTo_S16384_S_d0 h_S_) main_v126 main_c_51
  let main_v128 : IVec S_ 1 := andi main_v124 main_v127
  let main_c_52 : IVec S_ 32 := constantI S_ 32 2#32
  let main_v129 : IVec S16384 32 := broadcastInDim S16384 ![] bcast_S_S16384 main_c_52
  let main_v130 : IVec S16384 1 := cmpi .slt main_arg2 main_v129
  let main_c_53 : IVec S_ 1 := constantI S_ 1 1#1
  let main_v131 : IVec S_ 1 := (fun x v => Host.reduce IntOp.andi x v reducesTo_S16384_S_d0 h_S_) main_v130 main_c_53
  let main_v132 : IVec S_ 1 := andi main_v128 main_v131
  let main_c_54 : IVec S_ 32 := constantI S_ 32 0#32
  let main_v133 : IVec S16384 32 := broadcastInDim S16384 ![] bcast_S_S16384 main_c_54
  let main_v134 : IVec S16384 1 := cmpi .sge main_arg3 main_v133
  fn_part8 (F := F) main_arg3 main_arg4 main_arg5 main_v132 main_v134

def fn_part6 {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg27 : FVec F S1 .f32) (main_v98 : IVec S_ 1) (main_v101 : IVec S1x64 1) (main_c_39 : IVec S_ 1) : IVec S_ 1 :=
  let main_v102 : IVec S_ 1 := (fun x v => Host.reduce IntOp.andi x v reducesTo_S1x64_S_d0_1 h_S_) main_v101 main_c_39
  let main_v103 : IVec S_ 1 := andi main_v98 main_v102
  let main_v104 : FVec F S1 .f32 := Host.absf main_arg27
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S16384 32 := broadcastInDim S16384 ![] bcast_S_S16384 main_c_42
  let main_v110 : IVec S16384 1 := cmpi .sge main_arg0 main_v109
  let main_c_43 : IVec S_ 1 := constantI S_ 1 1#1
  let main_v111 : IVec S_ 1 := (fun x v => Host.reduce IntOp.andi x v reducesTo_S16384_S_d0 h_S_) main_v110 main_c_43
  let main_v112 : IVec S_ 1 := andi main_v108 main_v111
  let main_c_44 : IVec S_ 32 := constantI S_ 32 1000000#32
  let main_v113 : IVec S16384 32 := broadcastInDim S16384 ![] bcast_S_S16384 main_c_44
  let main_v114 : IVec S16384 1 := cmpi .slt main_arg0 main_v113
  let main_c_45 : IVec S_ 1 := constantI S_ 1 1#1
  let main_v115 : IVec S_ 1 := (fun x v => Host.reduce IntOp.andi x v reducesTo_S16384_S_d0 h_S_) main_v114 main_c_45
  let main_v116 : IVec S_ 1 := andi main_v112 main_v115
  let main_c_46 : IVec S_ 32 := constantI S_ 32 0#32
  let main_v117 : IVec S16384 32 := broadcastInDim S16384 ![] bcast_S_S16384 main_c_46
  let main_v118 : IVec S16384 1 := cmpi .sge main_arg1 main_v117
  fn_part7 (F := F) main_arg1 main_arg2 main_arg3 main_arg4 main_arg5 main_v116 main_v118

def fn_part5 {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg24 : FVec F S64x128 .f32) (main_arg25 : FVec F S64 .f32) (main_arg26 : FVec F S1x64 .f32) (main_arg27 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S64x128 .f32 := Host.absf main_arg24
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S64 .f32 := Host.absf main_arg25
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S1x64 .f32 := Host.absf main_arg26
  let main_cst_38 : FVec F S_ .f32 := constant S_ .f32 0x7F800000#32
  let main_v100 : FVec F S1x64 .f32 := broadcastInDim S1x64 ![] bcast_S_S1x64 main_cst_38
  let main_v101 : IVec S1x64 1 := cmpf .olt main_v99 main_v100
  let main_c_39 : IVec S_ 1 := constantI S_ 1 1#1
  fn_part6 (F := F) main_arg0 main_arg1 main_arg2 main_arg3 main_arg4 main_arg5 main_arg27 main_v98 main_v101 main_c_39

def fn_part4 {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg20 : FVec F S1x8 .f32) (main_arg21 : FVec F S1 .f32) (main_arg22 : FVec F S128x200 .f32) (main_arg23 : FVec F S128 .f32) (main_arg24 : FVec F S64x128 .f32) (main_arg25 : FVec F S64 .f32) (main_arg26 : FVec F S1x64 .f32) (main_arg27 : FVec F S1 .f32) (main_v63 : IVec S_ 1) (main_v67 : IVec S_ 1) : IVec S_ 1 :=
  let main_v68 : IVec S_ 1 := andi main_v63 main_v67
  let main_v69 : FVec F S1x8 .f32 := Host.absf main_arg20
  let main_cst_26 : FVec F S_ .f32 := constant S_ .f32 0x7F800000#32
  let main_v70 : FVec F S1x8 .f32 := broadcastInDim S1x8 ![] bcast_S_S1x8 main_cst_26
  let main_v71 : IVec S1x8 1 := cmpf .olt main_v69 main_v70
  let main_c_27 : IVec S_ 1 := constantI S_ 1 1#1
  let main_v72 : IVec S_ 1 := (fun x v => Host.reduce IntOp.andi x v reducesTo_S1x8_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S128x200 .f32 := Host.absf main_arg22
  let main_cst_30 : FVec F S_ .f32 := constant S_ .f32 0x7F800000#32
  let main_v80 : FVec F S128x200 .f32 := broadcastInDim S128x200 ![] bcast_S_S128x200 main_cst_30
  let main_v81 : IVec S128x200 1 := cmpf .olt main_v79 main_v80
  let main_c_31 : IVec S_ 1 := constantI S_ 1 1#1
  let main_v82 : IVec S_ 1 := (fun x v => Host.reduce IntOp.andi x v reducesTo_S128x200_S_d0_1 h_S_) main_v81 main_c_31
  let main_v83 : IVec S_ 1 := andi main_v78 main_v82
  let main_v84 : FVec F S128 .f32 := Host.absf main_arg23
  let main_cst_32 : FVec F S_ .f32 := constant S_ .f32 0x7F800000#32
  fn_part5 (F := F) main_arg0 main_arg1 main_arg2 main_arg3 main_arg4 main_arg5 main_arg24 main_arg25 main_arg26 main_arg27 main_v83 main_v84 main_cst_32

def fn_part3 {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg17 : FVec F S7x32 .f32) (main_arg18 : FVec F S21x32 .f32) (main_arg19 : FVec F S19x32 .f32) (main_arg20 : FVec F S1x8 .f32) (main_arg21 : FVec F S1 .f32) (main_arg22 : FVec F S128x200 .f32) (main_arg23 : FVec F S128 .f32) (main_arg24 : FVec F S64x128 .f32) (main_arg25 : FVec F S64 .f32) (main_arg26 : FVec F S1x64 .f32) (main_arg27 : FVec F S1 .f32) (main_v48 : IVec S_ 1) (main_v49 : FVec F S2x32 .f32) (main_v50 : FVec F S2x32 .f32) : IVec S_ 1 :=
  let main_v51 : IVec S2x32 1 := cmpf .olt main_v49 main_v50
  let main_c_19 : IVec S_ 1 := constantI S_ 1 1#1
  let main_v52 : IVec S_ 1 := (fun x v => Host.reduce IntOp.andi x v reducesTo_S2x32_S_d0_1 h_S_) main_v51 main_c_19
  let main_v53 : IVec S_ 1 := andi main_v48 main_v52
  let main_v54 : FVec F S7x32 .f32 := Host.absf main_arg17
  let main_cst_20 : FVec F S_ .f32 := constant S_ .f32 0x7F800000#32
  let main_v55 : FVec F S7x32 .f32 := broadcastInDim S7x32 ![] bcast_S_S7x32 main_cst_20
  let main_v56 : IVec S7x32 1 := cmpf .olt main_v54 main_v55
  let main_c_21 : IVec S_ 1 := constantI S_ 1 1#1
  let main_v57 : IVec S_ 1 := (fun x v => Host.reduce IntOp.andi x v reducesTo_S7x32_S_d0_1 h_S_) main_v56 main_c_21
  let main_v58 : IVec S_ 1 := andi main_v53 main_v57
  let main_v59 : FVec F S21x32 .f32 := Host.absf main_arg18
  let main_cst_22 : FVec F S_ .f32 := constant S_ .f32 0x7F800000#32
  let main_v60 : FVec F S21x32 .f32 := broadcastInDim S21x32 ![] bcast_S_S21x32 main_cst_22
  let main_v61 : IVec S21x32 1 := cmpf .olt main_v59 main_v60
  let main_c_23 : IVec S_ 1 := constantI S_ 1 1#1
  let main_v62 : IVec S_ 1 := (fun x v => Host.reduce IntOp.andi x v reducesTo_S21x32_S_d0_1 h_S_) main_v61 main_c_23
  let main_v63 : IVec S_ 1 := andi main_v58 main_v62
  let main_v64 : FVec F S19x32 .f32 := Host.absf main_arg19
  let main_cst_24 : FVec F S_ .f32 := constant S_ .f32 0x7F800000#32
  let main_v65 : FVec F S19x32 .f32 := broadcastInDim S19x32 ![] bcast_S_S19x32 main_cst_24
  let main_v66 : IVec S19x32 1 := cmpf .olt main_v64 main_v65
  let main_c_25 : IVec S_ 1 := constantI S_ 1 1#1
  let main_v67 : IVec S_ 1 := (fun x v => Host.reduce IntOp.andi x v reducesTo_S19x32_S_d0_1 h_S_) main_v66 main_c_25
  fn_part4 (F := F) main_arg0 main_arg1 main_arg2 main_arg3 main_arg4 main_arg5 main_arg20 main_arg21 main_arg22 main_arg23 main_arg24 main_arg25 main_arg26 main_arg27 main_v63 main_v67

def fn_part2 {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg13 : FVec F S19x1 .f32) (main_arg14 : FVec F S1000000x32 .f32) (main_arg15 : FVec F S100000x32 .f32) (main_arg16 : FVec F S2x32 .f32) (main_arg17 : FVec F S7x32 .f32) (main_arg18 : FVec F S21x32 .f32) (main_arg19 : FVec F S19x32 .f32) (main_arg20 : FVec F S1x8 .f32) (main_arg21 : FVec F S1 .f32) (main_arg22 : FVec F S128x200 .f32) (main_arg23 : FVec F S128 .f32) (main_arg24 : FVec F S64x128 .f32) (main_arg25 : FVec F S64 .f32) (main_arg26 : FVec F S1x64 .f32) (main_arg27 : FVec F S1 .f32) (main_v33 : IVec S_ 1) : IVec S_ 1 :=
  let main_v34 : FVec F S19x1 .f32 := Host.absf main_arg13
  let main_cst_12 : FVec F S_ .f32 := constant S_ .f32 0x7F800000#32
  let main_v35 : FVec F S19x1 .f32 := broadcastInDim S19x1 ![] bcast_S_S19x1 main_cst_12
  let main_v36 : IVec S19x1 1 := cmpf .olt main_v34 main_v35
  let main_c_13 : IVec S_ 1 := constantI S_ 1 1#1
  let main_v37 : IVec S_ 1 := (fun x v => Host.reduce IntOp.andi x v reducesTo_S19x1_S_d0_1 h_S_) main_v36 main_c_13
  let main_v38 : IVec S_ 1 := andi main_v33 main_v37
  let main_v39 : FVec F S1000000x32 .f32 := Host.absf main_arg14
  let main_cst_14 : FVec F S_ .f32 := constant S_ .f32 0x7F800000#32
  let main_v40 : FVec F S1000000x32 .f32 := broadcastInDim S1000000x32 ![] bcast_S_S1000000x32 main_cst_14
  let main_v41 : IVec S1000000x32 1 := cmpf .olt main_v39 main_v40
  let main_c_15 : IVec S_ 1 := constantI S_ 1 1#1
  let main_v42 : IVec S_ 1 := (fun x v => Host.reduce IntOp.andi x v reducesTo_S1000000x32_S_d0_1 h_S_) main_v41 main_c_15
  let main_v43 : IVec S_ 1 := andi main_v38 main_v42
  let main_v44 : FVec F S100000x32 .f32 := Host.absf main_arg15
  let main_cst_16 : FVec F S_ .f32 := constant S_ .f32 0x7F800000#32
  let main_v45 : FVec F S100000x32 .f32 := broadcastInDim S100000x32 ![] bcast_S_S100000x32 main_cst_16
  let main_v46 : IVec S100000x32 1 := cmpf .olt main_v44 main_v45
  let main_c_17 : IVec S_ 1 := constantI S_ 1 1#1
  let main_v47 : IVec S_ 1 := (fun x v => Host.reduce IntOp.andi x v reducesTo_S100000x32_S_d0_1 h_S_) main_v46 main_c_17
  let main_v48 : IVec S_ 1 := andi main_v43 main_v47
  let main_v49 : FVec F S2x32 .f32 := Host.absf main_arg16
  let main_cst_18 : FVec F S_ .f32 := constant S_ .f32 0x7F800000#32
  let main_v50 : FVec F S2x32 .f32 := broadcastInDim S2x32 ![] bcast_S_S2x32 main_cst_18
  fn_part3 (F := F) main_arg0 main_arg1 main_arg2 main_arg3 main_arg4 main_arg5 main_arg17 main_arg18 main_arg19 main_arg20 main_arg21 main_arg22 main_arg23 main_arg24 main_arg25 main_arg26 main_arg27 main_v48 main_v49 main_v50

def fn_part1 {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg10 : FVec F S2x1 .f32) (main_arg11 : FVec F S7x1 .f32) (main_arg12 : FVec F S21x1 .f32) (main_arg13 : FVec F S19x1 .f32) (main_arg14 : FVec F S1000000x32 .f32) (main_arg15 : FVec F S100000x32 .f32) (main_arg16 : FVec F S2x32 .f32) (main_arg17 : FVec F S7x32 .f32) (main_arg18 : FVec F S21x32 .f32) (main_arg19 : FVec F S19x32 .f32) (main_arg20 : FVec F S1x8 .f32) (main_arg21 : FVec F S1 .f32) (main_arg22 : FVec F S128x200 .f32) (main_arg23 : FVec F S128 .f32) (main_arg24 : FVec F S64x128 .f32) (main_arg25 : FVec F S64 .f32) (main_arg26 : FVec F S1x64 .f32) (main_arg27 : FVec F S1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S2x1 .f32 := Host.absf main_arg10
  let main_cst_6 : FVec F S_ .f32 := constant S_ .f32 0x7F800000#32
  let main_v20 : FVec F S2x1 .f32 := broadcastInDim S2x1 ![] bcast_S_S2x1 main_cst_6
  let main_v21 : IVec S2x1 1 := cmpf .olt main_v19 main_v20
  let main_c_7 : IVec S_ 1 := constantI S_ 1 1#1
  let main_v22 : IVec S_ 1 := (fun x v => Host.reduce IntOp.andi x v reducesTo_S2x1_S_d0_1 h_S_) main_v21 main_c_7
  let main_v23 : IVec S_ 1 := andi main_v18 main_v22
  let main_v24 : FVec F S7x1 .f32 := Host.absf main_arg11
  let main_cst_8 : FVec F S_ .f32 := constant S_ .f32 0x7F800000#32
  let main_v25 : FVec F S7x1 .f32 := broadcastInDim S7x1 ![] bcast_S_S7x1 main_cst_8
  let main_v26 : IVec S7x1 1 := cmpf .olt main_v24 main_v25
  let main_c_9 : IVec S_ 1 := constantI S_ 1 1#1
  let main_v27 : IVec S_ 1 := (fun x v => Host.reduce IntOp.andi x v reducesTo_S7x1_S_d0_1 h_S_) main_v26 main_c_9
  let main_v28 : IVec S_ 1 := andi main_v23 main_v27
  let main_v29 : FVec F S21x1 .f32 := Host.absf main_arg12
  let main_cst_10 : FVec F S_ .f32 := constant S_ .f32 0x7F800000#32
  let main_v30 : FVec F S21x1 .f32 := broadcastInDim S21x1 ![] bcast_S_S21x1 main_cst_10
  let main_v31 : IVec S21x1 1 := cmpf .olt main_v29 main_v30
  let main_c_11 : IVec S_ 1 := constantI S_ 1 1#1
  let main_v32 : IVec S_ 1 := (fun x v => Host.reduce IntOp.andi x v reducesTo_S21x1_S_d0_1 h_S_) main_v31 main_c_11
  let main_v33 : IVec S_ 1 := andi main_v28 main_v32
  fn_part2 (F := F) main_arg0 main_arg1 main_arg2 main_arg3 main_arg4 main_arg5 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : IVec S16384 32) (main_arg1 : IVec S16384 32) (main_arg2 : IVec S16384 32) (main_arg3 : IVec S16384 32) (main_arg4 : IVec S16384 32) (main_arg5 : IVec S16384x6 32) (main_arg6 : FVec F S16384x6 .f32) (main_arg7 : FVec F S16384x8 .f32) (main_arg8 : FVec F S1000000x1 .f32) (main_arg9 : FVec F S100000x1 .f32) (main_arg10 : FVec F S2x1 .f32) (main_arg11 : FVec F S7x1 .f32) (main_arg12 : FVec F S21x1 .f32) (main_arg13 : FVec F S19x1 .f32) (main_arg14 : FVec F S1000000x32 .f32) (main_arg15 : FVec F S100000x32 .f32) (main_arg16 : FVec F S2x32 .f32) (main_arg17 : FVec F S7x32 .f32) (main_arg18 : FVec F S21x32 .f32) (main_arg19 : FVec F S19x32 .f32) (main_arg20 : FVec F S1x8 .f32) (main_arg21 : FVec F S1 .f32) (main_arg22 : FVec F S128x200 .f32) (main_arg23 : FVec F S128 .f32) (main_arg24 : FVec F S64x128 .f32) (main_arg25 : FVec F S64 .f32) (main_arg26 : FVec F S1x64 .f32) (main_arg27 : FVec F S1 .f32) : IVec S_ 1 :=
  let main_v0 : FVec F S16384x6 .f32 := Host.absf main_arg6
  let main_cst : FVec F S_ .f32 := constant S_ .f32 0x7F800000#32
  let main_v1 : FVec F S16384x6 .f32 := broadcastInDim S16384x6 ![] bcast_S_S16384x6 main_cst
  let main_v2 : IVec S16384x6 1 := cmpf .olt main_v0 main_v1
  let main_c : IVec S_ 1 := constantI S_ 1 1#1
  let main_v3 : IVec S_ 1 := (fun x v => Host.reduce IntOp.andi x v reducesTo_S16384x6_S_d0_1 h_S_) main_v2 main_c
  let main_v4 : FVec F S16384x8 .f32 := Host.absf main_arg7
  let main_cst_0 : FVec F S_ .f32 := constant S_ .f32 0x7F800000#32
  let main_v5 : FVec F S16384x8 .f32 := broadcastInDim S16384x8 ![] bcast_S_S16384x8 main_cst_0
  let main_v6 : IVec S16384x8 1 := cmpf .olt main_v4 main_v5
  let main_c_1 : IVec S_ 1 := constantI S_ 1 1#1
  let main_v7 : IVec S_ 1 := (fun x v => Host.reduce IntOp.andi x v reducesTo_S16384x8_S_d0_1 h_S_) main_v6 main_c_1
  let main_v8 : IVec S_ 1 := andi main_v3 main_v7
  let main_v9 : FVec F S1000000x1 .f32 := Host.absf main_arg8
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S100000x1 .f32 := Host.absf main_arg9
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg0 main_arg1 main_arg2 main_arg3 main_arg4 main_arg5 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S16384 : Shape := ⟨1, ![16384]⟩
abbrev S16384x6 : Shape := ⟨2, ![16384, 6]⟩
abbrev S16384x8 : Shape := ⟨2, ![16384, 8]⟩
abbrev S1000000x1 : Shape := ⟨2, ![1000000, 1]⟩
abbrev S100000x1 : Shape := ⟨2, ![100000, 1]⟩
abbrev S2x1 : Shape := ⟨2, ![2, 1]⟩
abbrev S7x1 : Shape := ⟨2, ![7, 1]⟩
abbrev S21x1 : Shape := ⟨2, ![21, 1]⟩
abbrev S19x1 : Shape := ⟨2, ![19, 1]⟩
abbrev S1000000x32 : Shape := ⟨2, ![1000000, 32]⟩
abbrev S100000x32 : Shape := ⟨2, ![100000, 32]⟩
abbrev S2x32 : Shape := ⟨2, ![2, 32]⟩
abbrev S7x32 : Shape := ⟨2, ![7, 32]⟩
abbrev S21x32 : Shape := ⟨2, ![21, 32]⟩
abbrev S19x32 : Shape := ⟨2, ![19, 32]⟩
abbrev S1x8 : Shape := ⟨2, ![1, 8]⟩
abbrev S1 : Shape := ⟨1, ![1]⟩
abbrev S128x200 : Shape := ⟨2, ![128, 200]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S1x128 : Shape := ⟨2, ![1, 128]⟩
abbrev S2048x32 : Shape := ⟨2, ![2048, 32]⟩
abbrev S2048x1 : Shape := ⟨2, ![2048, 1]⟩
abbrev S2048 : Shape := ⟨1, ![2048]⟩
abbrev S2048x6 : Shape := ⟨2, ![2048, 6]⟩
abbrev S2048x8 : Shape := ⟨2, ![2048, 8]⟩
abbrev S1x2 : Shape := ⟨2, ![1, 2]⟩
abbrev S2048x2 : Shape := ⟨2, ![2048, 2]⟩
abbrev S1x7 : Shape := ⟨2, ![1, 7]⟩
abbrev S2048x7 : Shape := ⟨2, ![2048, 7]⟩
abbrev S1x21 : Shape := ⟨2, ![1, 21]⟩
abbrev S2048x21 : Shape := ⟨2, ![2048, 21]⟩
abbrev S1x19 : Shape := ⟨2, ![1, 19]⟩
abbrev S2048x19 : Shape := ⟨2, ![2048, 19]⟩
abbrev S2048x200 : Shape := ⟨2, ![2048, 200]⟩
abbrev S200x128 : Shape := ⟨2, ![200, 128]⟩
abbrev S2048x128 : Shape := ⟨2, ![2048, 128]⟩
abbrev S128x64 : Shape := ⟨2, ![128, 64]⟩
abbrev S2048x64 : Shape := ⟨2, ![2048, 64]⟩

abbrev nBuf : Space → Nat
  | .hbm => 126
  | .vmem => 38
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384x6, .i32⟩
  | .hbm, ⟨6, _⟩ => ⟨S16384x6, .f32⟩
  | .hbm, ⟨7, _⟩ => ⟨S16384x8, .f32⟩
  | .hbm, ⟨8, _⟩ => ⟨S1000000x1, .f32⟩
  | .hbm, ⟨9, _⟩ => ⟨S100000x1, .f32⟩
  | .hbm, ⟨10, _⟩ => ⟨S2x1, .f32⟩
  | .hbm, ⟨11, _⟩ => ⟨S7x1, .f32⟩
  | .hbm, ⟨12, _⟩ => ⟨S21x1, .f32⟩
  | .hbm, ⟨13, _⟩ => ⟨S19x1, .f32⟩
  | .hbm, ⟨14, _⟩ => ⟨S1000000x32, .f32⟩
  | .hbm, ⟨15, _⟩ => ⟨S100000x32, .f32⟩
  | .hbm, ⟨16, _⟩ => ⟨S2x32, .f32⟩
  | .hbm, ⟨17, _⟩ => ⟨S7x32, .f32⟩
  | .hbm, ⟨18, _⟩ => ⟨S21x32, .f32⟩
  | .hbm, ⟨19, _⟩ => ⟨S19x32, .f32⟩
  | .hbm, ⟨20, _⟩ => ⟨S1x8, .f32⟩
  | .hbm, ⟨21, _⟩ => ⟨S1, .f32⟩
  | .hbm, ⟨22, _⟩ => ⟨S128x200, .f32⟩
  | .hbm, ⟨23, _⟩ => ⟨S128, .f32⟩
  | .hbm, ⟨24, _⟩ => ⟨S64x128, .f32⟩
  | .hbm, ⟨25, _⟩ => ⟨S64, .f32⟩
  | .hbm, ⟨26, _⟩ => ⟨S1x64, .f32⟩
  | .hbm, ⟨27, _⟩ => ⟨S1, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x32, .f32⟩
  | .hbm, ⟨47, _⟩ => ⟨S16384x32, .i1⟩
  | .hbm, ⟨48, _⟩ => ⟨S_, .f32⟩
  | .hbm, ⟨49, _⟩ => ⟨S16384x32, .f32⟩
  | .hbm, ⟨50, _⟩ => ⟨S16384x32, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384x32, .f32⟩
  | .hbm, ⟨70, _⟩ => ⟨S16384x32, .i1⟩
  | .hbm, ⟨71, _⟩ => ⟨S_, .f32⟩
  | .hbm, ⟨72, _⟩ => ⟨S16384x32, .f32⟩
  | .hbm, ⟨73, _⟩ => ⟨S16384x32, .f32⟩
  | .hbm, ⟨74, _⟩ => ⟨S_, .i32⟩
  | .hbm, ⟨75, _⟩ => ⟨S16384, .i32⟩
  | .hbm, ⟨76, _⟩ => ⟨S16384, .i1⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S16384, .i32⟩
  | .hbm, ⟨81, _⟩ => ⟨S16384x1, .i32⟩
  | .hbm, ⟨82, _⟩ => ⟨S1, .i32⟩
  | .hbm, ⟨83, _⟩ => ⟨S_, .i32⟩
  | .hbm, ⟨84, _⟩ => ⟨S16384x1, .i32⟩
  | .hbm, ⟨85, _⟩ => ⟨S16384x1, .i1⟩
  | .hbm, ⟨86, _⟩ => ⟨S1x1, .i32⟩
  | .hbm, ⟨87, _⟩ => ⟨S16384x1, .i32⟩
  | .hbm, ⟨88, _⟩ => ⟨S16384x1, .i1⟩
  | .hbm, ⟨89, _⟩ => ⟨S16384x1, .i1⟩
  | .hbm, ⟨90, _⟩ => ⟨S_, .i1⟩
  | .hbm, ⟨91, _⟩ => ⟨S16384, .i1⟩
  | .hbm, ⟨92, _⟩ => ⟨S16384x1, .f32⟩
  | .hbm, ⟨93, _⟩ => ⟨S16384x1, .i1⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S_, .i32⟩
  | .hbm, ⟨98, _⟩ => ⟨S16384, .i32⟩
  | .hbm, ⟨99, _⟩ => ⟨S16384, .i1⟩
  | .hbm, ⟨100, _⟩ => ⟨S_, .i32⟩
  | .hbm, ⟨101, _⟩ => ⟨S16384, .i32⟩
  | .hbm, ⟨102, _⟩ => ⟨S16384, .i32⟩
  | .hbm, ⟨103, _⟩ => ⟨S16384, .i32⟩
  | .hbm, ⟨104, _⟩ => ⟨S16384x1, .i32⟩
  | .hbm, ⟨105, _⟩ => ⟨S1, .i32⟩
  | .hbm, ⟨106, _⟩ => ⟨S_, .i32⟩
  | .hbm, ⟨107, _⟩ => ⟨S16384x1, .i32⟩
  | .hbm, ⟨108, _⟩ => ⟨S16384x1, .i1⟩
  | .hbm, ⟨109, _⟩ => ⟨S1x1, .i32⟩
  | .hbm, ⟨110, _⟩ => ⟨S16384x1, .i32⟩
  | .hbm, ⟨111, _⟩ => ⟨S16384x1, .i1⟩
  | .hbm, ⟨112, _⟩ => ⟨S16384x1, .i1⟩
  | .hbm, ⟨113, _⟩ => ⟨S_, .i1⟩
  | .hbm, ⟨114, _⟩ => ⟨S16384, .i1⟩
  | .hbm, ⟨115, _⟩ => ⟨S16384x1, .f32⟩
  | .hbm, ⟨116, _⟩ => ⟨S16384x1, .i1⟩
  | .hbm, ⟨117, _⟩ => ⟨S_, .f32⟩
  | .hbm, ⟨118, _⟩ => ⟨S16384x1, .f32⟩
  | .hbm, ⟨119, _⟩ => ⟨S16384x1, .f32⟩
  | .hbm, ⟨120, _⟩ => ⟨S1x1, .f32⟩
  | .hbm, ⟨121, _⟩ => ⟨S1x128, .f32⟩
  | .hbm, ⟨122, _⟩ => ⟨S1x64, .f32⟩
  | .hbm, ⟨123, _⟩ => ⟨S1x1, .f32⟩
  | .hbm, ⟨124, _⟩ => ⟨S16384x1, .f32⟩
  | .hbm, ⟨125, _⟩ => ⟨S16384, .f32⟩
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S2048x32, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048, .i32⟩
  | .local _ .vmem, ⟨9, _⟩ => ⟨S2048, .i32⟩
  | .local _ .vmem, ⟨10, _⟩ => ⟨S2048, .i32⟩
  | .local _ .vmem, ⟨11, _⟩ => ⟨S2048, .i32⟩
  | .local _ .vmem, ⟨12, _⟩ => ⟨S2048, .i32⟩
  | .local _ .vmem, ⟨13, _⟩ => ⟨S2048, .i32⟩
  | .local _ .vmem, ⟨14, _⟩ => ⟨S2048x6, .i32⟩
  | .local _ .vmem, ⟨15, _⟩ => ⟨S2048x6, .i32⟩
  | .local _ .vmem, ⟨16, _⟩ => ⟨S2048x6, .f32⟩
  | .local _ .vmem, ⟨17, _⟩ => ⟨S2048x6, .f32⟩
  | .local _ .vmem, ⟨18, _⟩ => ⟨S2048x8, .f32⟩
  | .local _ .vmem, ⟨19, _⟩ => ⟨S2048x8, .f32⟩
  | .local _ .vmem, ⟨20, _⟩ => ⟨S2x32, .f32⟩
  | .local _ .vmem, ⟨21, _⟩ => ⟨S7x32, .f32⟩
  | .local _ .vmem, ⟨22, _⟩ => ⟨S21x32, .f32⟩
  | .local _ .vmem, ⟨23, _⟩ => ⟨S19x32, .f32⟩
  | .local _ .vmem, ⟨24, _⟩ => ⟨S2x1, .f32⟩
  | .local _ .vmem, ⟨25, _⟩ => ⟨S7x1, .f32⟩
  | .local _ .vmem, ⟨26, _⟩ => ⟨S21x1, .f32⟩
  | .local _ .vmem, ⟨27, _⟩ => ⟨S19x1, .f32⟩
  | .local _ .vmem, ⟨28, _⟩ => ⟨S1x8, .f32⟩
  | .local _ .vmem, ⟨29, _⟩ => ⟨S1x1, .f32⟩
  | .local _ .vmem, ⟨30, _⟩ => ⟨S128x200, .f32⟩
  | .local _ .vmem, ⟨31, _⟩ => ⟨S1x128, .f32⟩
  | .local _ .vmem, ⟨32, _⟩ => ⟨S64x128, .f32⟩
  | .local _ .vmem, ⟨33, _⟩ => ⟨S1x64, .f32⟩
  | .local _ .vmem, ⟨34, _⟩ => ⟨S1x64, .f32⟩
  | .local _ .vmem, ⟨35, _⟩ => ⟨S1x1, .f32⟩
  | .local _ .vmem, ⟨36, _⟩ => ⟨S2048x1, .f32⟩
  | .local _ .vmem, ⟨37, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v0 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v1 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v2 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v3 : Ref sig .tc := ⟨.hbm, 119, rfl⟩
abbrev main_v4 : Ref sig .tc := ⟨.hbm, 120, rfl⟩
abbrev main_v5 : Ref sig .tc := ⟨.hbm, 121, rfl⟩
abbrev main_v6 : Ref sig .tc := ⟨.hbm, 122, rfl⟩
abbrev main_v7 : Ref sig .tc := ⟨.hbm, 123, rfl⟩
abbrev main_v8 : Ref sig .tc := ⟨.hbm, 124, rfl⟩
abbrev main_v9 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg26_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36
abbrev cc0_sem26_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x6 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S7x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S21x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S19x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S7x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S21x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S19x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x200 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2048x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  shapeCasts_S1_S1x1 : S1.ShapeCasts S1x1
  shapeCasts_S128_S1x128 : S128.ShapeCasts S1x128
  shapeCasts_S64_S1x64 : S64.ShapeCasts S1x64
  inb_S2048_S2048_0 : ∀ a, (![0] : Fin 1 → Nat) a + S2048.size a ≤ S2048.size a
  h_S2048 : 0 < S2048.numel
  iota_S1x2_d1_w32 : S1x2.Iotas .tc 32 [1]
  shapeCasts_S2048_S2048x1 : S2048.ShapeCasts S2048x1
  broadcasts_S2048x1_S2048x2 : S2048x1.Broadcasts S2048x2
  broadcasts_S1x2_S2048x2 : S1x2.Broadcasts S2048x2
  natLt_1_32 : 1 < 32
  inb_S2x32_S2x32_0_0 : ∀ a, (![0, 0] : Fin 2 → Nat) a + S2x32.size a ≤ S2x32.size a
  h_S2x32 : 0 < S2x32.numel
  inb_S2x1_S2x1_0_0 : ∀ a, (![0, 0] : Fin 2 → Nat) a + S2x1.size a ≤ S2x1.size a
  h_S2x1 : 0 < S2x1.numel
  iota_S1x7_d1_w32 : S1x7.Iotas .tc 32 [1]
  broadcasts_S2048x1_S2048x7 : S2048x1.Broadcasts S2048x7
  broadcasts_S1x7_S2048x7 : S1x7.Broadcasts S2048x7
  inb_S7x32_S7x32_0_0 : ∀ a, (![0, 0] : Fin 2 → Nat) a + S7x32.size a ≤ S7x32.size a
  h_S7x32 : 0 < S7x32.numel
  inb_S7x1_S7x1_0_0 : ∀ a, (![0, 0] : Fin 2 → Nat) a + S7x1.size a ≤ S7x1.size a
  h_S7x1 : 0 < S7x1.numel
  iota_S1x21_d1_w32 : S1x21.Iotas .tc 32 [1]
  broadcasts_S2048x1_S2048x21 : S2048x1.Broadcasts S2048x21
  broadcasts_S1x21_S2048x21 : S1x21.Broadcasts S2048x21
  inb_S21x32_S21x32_0_0 : ∀ a, (![0, 0] : Fin 2 → Nat) a + S21x32.size a ≤ S21x32.size a
  h_S21x32 : 0 < S21x32.numel
  inb_S21x1_S21x1_0_0 : ∀ a, (![0, 0] : Fin 2 → Nat) a + S21x1.size a ≤ S21x1.size a
  h_S21x1 : 0 < S21x1.numel
  inb_S19x32_S19x32_0_0 : ∀ a, (![0, 0] : Fin 2 → Nat) a + S19x32.size a ≤ S19x32.size a
  h_S19x32 : 0 < S19x32.numel
  inb_S19x1_S19x1_0_0 : ∀ a, (![0, 0] : Fin 2 → Nat) a + S19x1.size a ≤ S19x1.size a
  h_S19x1 : 0 < S19x1.numel
  inb_S2048x6_S2048x1_0_0 : ∀ a, (![0, 0] : Fin 2 → Nat) a + S2048x1.size a ≤ S2048x6.size a
  h_S2048x1 : 0 < S2048x1.numel
  shapeCasts_S2048x1_S2048 : S2048x1.ShapeCasts S2048
  iota_S1x19_d1_w32 : S1x19.Iotas .tc 32 [1]
  broadcasts_S2048x1_S2048x19 : S2048x1.Broadcasts S2048x19
  broadcasts_S1x19_S2048x19 : S1x19.Broadcasts S2048x19
  broadcasts_S2048x1_S2048x32 : S2048x1.Broadcasts S2048x32
  inb_S2048x6_S2048x1_0_1 : ∀ a, (![0, 1] : Fin 2 → Nat) a + S2048x1.size a ≤ S2048x6.size a
  inb_S2048x6_S2048x1_0_2 : ∀ a, (![0, 2] : Fin 2 → Nat) a + S2048x1.size a ≤ S2048x6.size a
  inb_S2048x6_S2048x1_0_3 : ∀ a, (![0, 3] : Fin 2 → Nat) a + S2048x1.size a ≤ S2048x6.size a
  inb_S2048x6_S2048x1_0_4 : ∀ a, (![0, 4] : Fin 2 → Nat) a + S2048x1.size a ≤ S2048x6.size a
  inb_S2048x6_S2048x1_0_5 : ∀ a, (![0, 5] : Fin 2 → Nat) a + S2048x1.size a ≤ S2048x6.size a
  inb_S2048x8_S2048x8_0_0 : ∀ a, (![0, 0] : Fin 2 → Nat) a + S2048x8.size a ≤ S2048x8.size a
  h_S2048x8 : 0 < S2048x8.numel
  inb_S1x8_S1x8_0_0 : ∀ a, (![0, 0] : Fin 2 → Nat) a + S1x8.size a ≤ S1x8.size a
  h_S1x8 : 0 < S1x8.numel
  broadcasts_S1x8_S2048x8 : S1x8.Broadcasts S2048x8
  reduces_S2048x8_S2048 : S2048x8.Reduces [1] S2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  shapeCasts_S2048x1_S2048x1 : S2048x1.ShapeCasts S2048x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  reduces_S2048x32_S2048 : S2048x32.Reduces [1] S2048
  concatenates_S2048x32_S2048x32_S2048x32_S2048x32_S2048x32_S2048x32_S2048x8_S2048x200_d1 : Shape.Concatenates [S2048x32, S2048x32, S2048x32, S2048x32, S2048x32, S2048x32, S2048x8] S2048x200 1
  bitsLt_bf16_f32 : FTy.bits .bf16 < FTy.bits .f32
  inb_S128x200_S128x200_0_0 : ∀ a, (![0, 0] : Fin 2 → Nat) a + S128x200.size a ≤ S128x200.size a
  h_S128x200 : 0 < S128x200.numel
  transposes_S128x200_p1_0_S200x128 : S128x200.Transposes [1, 0] S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S16384x1_S16384 : S16384x1.ShapeCasts S16384
  gather_S1000000x32_S16384x1_S16384x32_1_0_n_n_0_1_132_wf : GatherDims.WF S1000000x32 S16384x1 S16384x32 [1] [0] [] [0] [] 1 ![1, 32]
  gather_S100000x32_S16384x1_S16384x32_1_0_n_n_0_1_132_wf : GatherDims.WF S100000x32 S16384x1 S16384x32 [1] [0] [] [0] [] 1 ![1, 32]
  gather_S1000000x1_S16384x1_S16384x1_1_0_n_n_0_1_11_wf : GatherDims.WF S1000000x1 S16384x1 S16384x1 [1] [0] [] [0] [] 1 ![1, 1]
  gather_S100000x1_S16384x1_S16384x1_1_0_n_n_0_1_11_wf : GatherDims.WF S100000x1 S16384x1 S16384x1 [1] [0] [] [0] [] 1 ![1, 1]
  dot_S2048x2_S2x32_S2048x32_1_0_0_1_n_n_wf : DotDims.WF S2048x2 S2x32 S2048x32 [1] [0] [0] [1] [] []
  dot_S2048x2_S2x1_S2048x1_1_0_0_1_n_n_wf : DotDims.WF S2048x2 S2x1 S2048x1 [1] [0] [0] [1] [] []
  dot_S2048x7_S7x32_S2048x32_1_0_0_1_n_n_wf : DotDims.WF S2048x7 S7x32 S2048x32 [1] [0] [0] [1] [] []
  dot_S2048x7_S7x1_S2048x1_1_0_0_1_n_n_wf : DotDims.WF S2048x7 S7x1 S2048x1 [1] [0] [0] [1] [] []
  dot_S2048x21_S21x32_S2048x32_1_0_0_1_n_n_wf : DotDims.WF S2048x21 S21x32 S2048x32 [1] [0] [0] [1] [] []
  dot_S2048x21_S21x1_S2048x1_1_0_0_1_n_n_wf : DotDims.WF S2048x21 S21x1 S2048x1 [1] [0] [0] [1] [] []
  dot_S2048x19_S19x32_S2048x32_1_0_0_1_n_n_wf : DotDims.WF S2048x19 S19x32 S2048x32 [1] [0] [0] [1] [] []
  dot_S2048x19_S19x1_S2048x1_1_0_0_1_n_n_wf : DotDims.WF S2048x19 S19x1 S2048x1 [1] [0] [0] [1] [] []
  dot_S2048x200_S200x128_S2048x128_1_0_0_1_n_n_wf : DotDims.WF S2048x200 S200x128 S2048x128 [1] [0] [0] [1] [] []
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S16384x32.size a
  hwx0_0 : ∀ i : grid0.Coords, EltTy.bits .f32 = 32 ∨ (Rect.block (s := S16384x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S16384.size a
  hwx0_4 : ∀ i : grid0.Coords, EltTy.bits .i32 = 32 ∨ (Rect.block (s := S16384) S2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S16384.size a
  hwx0_5 : ∀ i : grid0.Coords, EltTy.bits .i32 = 32 ∨ (Rect.block (s := S16384) S2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S16384.size a
  hwx0_6 : ∀ i : grid0.Coords, EltTy.bits .i32 = 32 ∨ (Rect.block (s := S16384) S2048.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x6.size a ≤ S16384x6.size a
  hwx0_7 : ∀ i : grid0.Coords, EltTy.bits .i32 = 32 ∨ (Rect.block (s := S16384x6) S2048x6.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x6.size a ≤ S16384x6.size a
  hwx0_8 : ∀ i : grid0.Coords, EltTy.bits .f32 = 32 ∨ (Rect.block (s := S16384x6) S2048x6.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x8.size a ≤ S16384x8.size a
  hwx0_9 : ∀ i : grid0.Coords, EltTy.bits .f32 = 32 ∨ (Rect.block (s := S16384x8) S2048x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x32.size a ≤ S2x32.size a
  hwx0_10 : ∀ i : grid0.Coords, EltTy.bits .f32 = 32 ∨ (Rect.block (s := S2x32) S2x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S7x32.size a ≤ S7x32.size a
  hwx0_11 : ∀ i : grid0.Coords, EltTy.bits .f32 = 32 ∨ (Rect.block (s := S7x32) S7x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S21x32.size a ≤ S21x32.size a
  hwx0_12 : ∀ i : grid0.Coords, EltTy.bits .f32 = 32 ∨ (Rect.block (s := S21x32) S21x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S19x32.size a ≤ S19x32.size a
  hwx0_13 : ∀ i : grid0.Coords, EltTy.bits .f32 = 32 ∨ (Rect.block (s := S19x32) S19x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x1.size a ≤ S2x1.size a
  hwx0_14 : ∀ i : grid0.Coords, EltTy.bits .f32 = 32 ∨ (Rect.block (s := S2x1) S2x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S7x1.size a ≤ S7x1.size a
  hwx0_15 : ∀ i : grid0.Coords, EltTy.bits .f32 = 32 ∨ (Rect.block (s := S7x1) S7x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S21x1.size a ≤ S21x1.size a
  hwx0_16 : ∀ i : grid0.Coords, EltTy.bits .f32 = 32 ∨ (Rect.block (s := S21x1) S21x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S19x1.size a ≤ S19x1.size a
  hwx0_17 : ∀ i : grid0.Coords, EltTy.bits .f32 = 32 ∨ (Rect.block (s := S19x1) S19x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x8.size a ≤ S1x8.size a
  hwx0_18 : ∀ i : grid0.Coords, EltTy.bits .f32 = 32 ∨ (Rect.block (s := S1x8) S1x8.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x200.size a ≤ S128x200.size a
  hwx0_20 : ∀ i : grid0.Coords, EltTy.bits .f32 = 32 ∨ (Rect.block (s := S128x200) S128x200.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x128.size a ≤ S64x128.size a
  hwx0_22 : ∀ i : grid0.Coords, EltTy.bits .f32 = 32 ∨ (Rect.block (s := S64x128) S64x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x64.size a ≤ S1x64.size a
  hwx0_23 : ∀ i : grid0.Coords, EltTy.bits .f32 = 32 ∨ (Rect.block (s := S1x64) S1x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x64.size a ≤ S1x64.size a
  hwx0_24 : ∀ i : grid0.Coords, EltTy.bits .f32 = 32 ∨ (Rect.block (s := S1x64) S1x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x1.size a ≤ S1x1.size a
  hwx0_25 : ∀ i : grid0.Coords, EltTy.bits .f32 = 32 ∨ (Rect.block (s := S1x1) S1x1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S2048x1.size a ≤ S16384x1.size a
  hwx0_26 : ∀ i : grid0.Coords, EltTy.bits .f32 = 32 ∨ (Rect.block (s := S16384x1) S2048x1.size (cc0_transform_26 i) (hinb0_26 i)).WholeWords (EltTy.packing .f32)

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf
def gather_S1000000x1_S16384x1_S16384x1_1_0_n_n_0_1_11 : GatherDims S1000000x1 S16384x1 S16384x1 where
  offsetDims := [1]
  collapsedSliceDims := [0]
  operandBatchingDims := []
  startIndicesBatchingDims := []
  startIndexMap := [0]
  indexVectorDim := 1
  sliceSizes := ![1, 1]
  wf := gather_S1000000x1_S16384x1_S16384x1_1_0_n_n_0_1_11_wf
def gather_S100000x1_S16384x1_S16384x1_1_0_n_n_0_1_11 : GatherDims S100000x1 S16384x1 S16384x1 where
  offsetDims := [1]
  collapsedSliceDims := [0]
  operandBatchingDims := []
  startIndicesBatchingDims := []
  startIndexMap := [0]
  indexVectorDim := 1
  sliceSizes := ![1, 1]
  wf := gather_S100000x1_S16384x1_S16384x1_1_0_n_n_0_1_11_wf
def dot_S2048x2_S2x32_S2048x32_1_0_0_1_n_n : DotDims S2048x2 S2x32 S2048x32 where
  lhsContracting := [1]
  rhsContracting := [0]
  lhsNonContracting := [0]
  rhsNonContracting := [1]
  lhsBatch := []
  rhsBatch := []
  wf := dot_S2048x2_S2x32_S2048x32_1_0_0_1_n_n_wf
def dot_S2048x2_S2x1_S2048x1_1_0_0_1_n_n : DotDims S2048x2 S2x1 S2048x1 where
  lhsContracting := [1]
  rhsContracting := [0]
  lhsNonContracting := [0]
  rhsNonContracting := [1]
  lhsBatch := []
  rhsBatch := []
  wf := dot_S2048x2_S2x1_S2048x1_1_0_0_1_n_n_wf
def dot_S2048x7_S7x32_S2048x32_1_0_0_1_n_n : DotDims S2048x7 S7x32 S2048x32 where
  lhsContracting := [1]
  rhsContracting := [0]
  lhsNonContracting := [0]
  rhsNonContracting := [1]
  lhsBatch := []
  rhsBatch := []
  wf := dot_S2048x7_S7x32_S2048x32_1_0_0_1_n_n_wf
def dot_S2048x7_S7x1_S2048x1_1_0_0_1_n_n : DotDims S2048x7 S7x1 S2048x1 where
  lhsContracting := [1]
  rhsContracting := [0]
  lhsNonContracting := [0]
  rhsNonContracting := [1]
  lhsBatch := []
  rhsBatch := []
  wf := dot_S2048x7_S7x1_S2048x1_1_0_0_1_n_n_wf
def dot_S2048x21_S21x32_S2048x32_1_0_0_1_n_n : DotDims S2048x21 S21x32 S2048x32 where
  lhsContracting := [1]
  rhsContracting := [0]
  lhsNonContracting := [0]
  rhsNonContracting := [1]
  lhsBatch := []
  rhsBatch := []
  wf := dot_S2048x21_S21x32_S2048x32_1_0_0_1_n_n_wf
def dot_S2048x21_S21x1_S2048x1_1_0_0_1_n_n : DotDims S2048x21 S21x1 S2048x1 where
  lhsContracting := [1]
  rhsContracting := [0]
  lhsNonContracting := [0]
  rhsNonContracting := [1]
  lhsBatch := []
  rhsBatch := []
  wf := dot_S2048x21_S21x1_S2048x1_1_0_0_1_n_n_wf
def dot_S2048x19_S19x32_S2048x32_1_0_0_1_n_n : DotDims S2048x19 S19x32 S2048x32 where
  lhsContracting := [1]
  rhsContracting := [0]
  lhsNonContracting := [0]
  rhsNonContracting := [1]
  lhsBatch := []
  rhsBatch := []
  wf := dot_S2048x19_S19x32_S2048x32_1_0_0_1_n_n_wf
def dot_S2048x19_S19x1_S2048x1_1_0_0_1_n_n : DotDims S2048x19 S19x1 S2048x1 where
  lhsContracting := [1]
  rhsContracting := [0]
  lhsNonContracting := [0]
  rhsNonContracting := [1]
  lhsBatch := []
  rhsBatch := []
  wf := dot_S2048x19_S19x1_S2048x1_1_0_0_1_n_n_wf
def dot_S2048x200_S200x128_S2048x128_1_0_0_1_n_n : DotDims S2048x200 S200x128 S2048x128 where
  lhsContracting := [1]
  rhsContracting := [0]
  lhsNonContracting := [0]
  rhsNonContracting := [1]
  lhsBatch := []
  rhsBatch := []
  wf := dot_S2048x200_S200x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_v0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S2048x6.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S2048x6.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S2048x8.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S2x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S7x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg18) S21x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg19) S19x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S2x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S7x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S21x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg13) S19x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S1x8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v4) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg22) S128x200.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v5) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg24) S64x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v6) S1x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg26) S1x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v7) S1x1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v8) S2048x1.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S16384 : Shape := ⟨1, ![16384]⟩
abbrev S16384x6 : Shape := ⟨2, ![16384, 6]⟩
abbrev S16384x8 : Shape := ⟨2, ![16384, 8]⟩
abbrev S1000000x1 : Shape := ⟨2, ![1000000, 1]⟩
abbrev S100000x1 : Shape := ⟨2, ![100000, 1]⟩
abbrev S2x1 : Shape := ⟨2, ![2, 1]⟩
abbrev S7x1 : Shape := ⟨2, ![7, 1]⟩
abbrev S21x1 : Shape := ⟨2, ![21, 1]⟩
abbrev S19x1 : Shape := ⟨2, ![19, 1]⟩
abbrev S1000000x32 : Shape := ⟨2, ![1000000, 32]⟩
abbrev S100000x32 : Shape := ⟨2, ![100000, 32]⟩
abbrev S2x32 : Shape := ⟨2, ![2, 32]⟩
abbrev S7x32 : Shape := ⟨2, ![7, 32]⟩
abbrev S21x32 : Shape := ⟨2, ![21, 32]⟩
abbrev S19x32 : Shape := ⟨2, ![19, 32]⟩
abbrev S1x8 : Shape := ⟨2, ![1, 8]⟩
abbrev S1 : Shape := ⟨1, ![1]⟩
abbrev S128x200 : Shape := ⟨2, ![128, 200]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S16384x1 : Shape := ⟨2, ![16384, 1]⟩
abbrev S16384x6x1 : Shape := ⟨3, ![16384, 6, 1]⟩
abbrev S8x1 : Shape := ⟨2, ![8, 1]⟩
abbrev S1x1 : Shape := ⟨2, ![1, 1]⟩
abbrev S16384x32 : Shape := ⟨2, ![16384, 32]⟩
abbrev S16384x6x32 : Shape := ⟨3, ![16384, 6, 32]⟩
abbrev S16384x1x32 : Shape := ⟨3, ![16384, 1, 32]⟩
abbrev S16384x192 : Shape := ⟨2, ![16384, 192]⟩
abbrev S16384x200 : Shape := ⟨2, ![16384, 200]⟩
abbrev S200x128 : Shape := ⟨2, ![200, 128]⟩
abbrev S16384x128 : Shape := ⟨2, ![16384, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩

abbrev nBuf : Space → Nat
  | .hbm => 217
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384x6, .i32⟩
  | 6 => ⟨S16384x6, .f32⟩
  | 7 => ⟨S16384x8, .f32⟩
  | 8 => ⟨S1000000x1, .f32⟩
  | 9 => ⟨S100000x1, .f32⟩
  | 10 => ⟨S2x1, .f32⟩
  | 11 => ⟨S7x1, .f32⟩
  | 12 => ⟨S21x1, .f32⟩
  | 13 => ⟨S19x1, .f32⟩
  | 14 => ⟨S1000000x32, .f32⟩
  | 15 => ⟨S100000x32, .f32⟩
  | 16 => ⟨S2x32, .f32⟩
  | 17 => ⟨S7x32, .f32⟩
  | 18 => ⟨S21x32, .f32⟩
  | 19 => ⟨S19x32, .f32⟩
  | 20 => ⟨S1x8, .f32⟩
  | 21 => ⟨S1, .f32⟩
  | 22 => ⟨S128x200, .f32⟩
  | 23 => ⟨S128, .f32⟩
  | 24 => ⟨S64x128, .f32⟩
  | 25 => ⟨S64, .f32⟩
  | 26 => ⟨S1x64, .f32⟩
  | 27 => ⟨S1, .f32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x1, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S16384x1, .f32⟩
  | 46 => ⟨S16384x1, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S16384x1, .f32⟩
  | 56 => ⟨S16384x1, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x1, .f32⟩
  | 66 => ⟨S16384x1, .f32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S16384x1, .f32⟩
  | 76 => ⟨S16384x1, .f32⟩
  | 77 => ⟨S_, .i32⟩
  | 78 => ⟨S16384x6, .i32⟩
  | 79 => ⟨S16384x6, .i1⟩
  | 80 => ⟨S_, .i32⟩
  | 81 => ⟨S16384x6, .i32⟩
  | 82 => ⟨S16384x6, .i32⟩
  | 83 => ⟨S16384x6, .i32⟩
  | 84 => ⟨S16384x6x1, .i32⟩
  | 85 => ⟨S16384x6x1, .f32⟩
  | 86 => ⟨S16384x6x1, .f32⟩
  | 87 => ⟨S_, .f32⟩
  | 88 => ⟨S16384x1, .f32⟩
  | 89 => ⟨S_, .f32⟩
  | 90 => ⟨S_, .f32⟩
  | 91 => ⟨S16384x1, .f32⟩
  | 92 => ⟨S16384x1, .f32⟩
  | 93 => ⟨S16384x6x1, .f32⟩
  | 94 => ⟨S_, .f32⟩
  | 95 => ⟨S16384x1, .f32⟩
  | 96 => ⟨S16384x1, .f32⟩
  | 97 => ⟨S16384x1, .f32⟩
  | 98 => ⟨S8x1, .f32⟩
  | 99 => ⟨S16384x1, .f32⟩
  | 100 => ⟨S16384x1, .f32⟩
  | 101 => ⟨S1x1, .f32⟩
  | 102 => ⟨S16384x1, .f32⟩
  | 103 => ⟨S16384x1, .f32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S16384x32, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S16384x32, .f32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S16384, .i32⟩

abbrev hbmTy0_1 (i : Nat) : BufTy := match i % 128 with
  | 0 => ⟨S16384, .i32⟩
  | 1 => ⟨S16384x1, .i32⟩
  | 2 => ⟨S16384x32, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x32, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x32, .f32⟩
  | 21 => ⟨S_, .i32⟩
  | 22 => ⟨S16384x6, .i32⟩
  | 23 => ⟨S16384x6, .i1⟩
  | 24 => ⟨S_, .i32⟩
  | 25 => ⟨S16384x6, .i32⟩
  | 26 => ⟨S16384x6, .i32⟩
  | 27 => ⟨S16384x6, .i32⟩
  | 28 => ⟨S16384x6x1, .i32⟩
  | 29 => ⟨S16384x6x32, .f32⟩
  | 30 => ⟨S16384x6x1, .f32⟩
  | 31 => ⟨S_, .f32⟩
  | 32 => ⟨S16384x1, .f32⟩
  | 33 => ⟨S_, .f32⟩
  | 34 => ⟨S_, .f32⟩
  | 35 => ⟨S16384x1, .f32⟩
  | 36 => ⟨S16384x1, .f32⟩
  | 37 => ⟨S16384x6x32, .f32⟩
  | 38 => ⟨S16384x6x32, .f32⟩
  | 39 => ⟨S_, .f32⟩
  | 40 => ⟨S16384x32, .f32⟩
  | 41 => ⟨S16384x32, .f32⟩
  | 42 => ⟨S16384x32, .f32⟩
  | 43 => ⟨S16384x1x32, .f32⟩
  | 44 => ⟨S16384x1x32, .f32⟩
  | 45 => ⟨S16384x1x32, .f32⟩
  | 46 => ⟨S16384x1x32, .f32⟩
  | 47 => ⟨S16384x1x32, .f32⟩
  | 48 => ⟨S16384x1x32, .f32⟩
  | 49 => ⟨S16384x6x32, .f32⟩
  | 50 => ⟨S_, .f32⟩
  | 51 => ⟨S16384x32, .f32⟩
  | 52 => ⟨S16384x32, .f32⟩
  | 53 => ⟨S16384x6x32, .f32⟩
  | 54 => ⟨S_, .f32⟩
  | 55 => ⟨S16384x32, .f32⟩
  | 56 => ⟨S16384x32, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S16384x192, .f32⟩
  | 64 => ⟨S16384x200, .f32⟩
  | 65 => ⟨S200x128, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S128x64, .f32⟩
  | 74 => ⟨S16384x64, .f32⟩
  | 75 => ⟨S1x64, .f32⟩
  | 76 => ⟨S16384x64, .f32⟩
  | 77 => ⟨S16384x64, .f32⟩
  | 78 => ⟨S_, .f32⟩
  | 79 => ⟨S16384x64, .f32⟩
  | 80 => ⟨S16384x64, .f32⟩
  | 81 => ⟨S64x1, .f32⟩
  | 82 => ⟨S16384x1, .f32⟩
  | 83 => ⟨S1x1, .f32⟩
  | 84 => ⟨S16384x1, .f32⟩
  | 85 => ⟨S16384x1, .f32⟩
  | 86 => ⟨S16384x1, .f32⟩
  | 87 => ⟨S16384x1, .f32⟩
  | 88 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_c_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c_3 : Ref sig .tc := ⟨.hbm, 47, rfl⟩
abbrev main_v15 : Ref sig .tc := ⟨.hbm, 48, rfl⟩
abbrev main_v16 : Ref sig .tc := ⟨.hbm, 49, rfl⟩
abbrev main_c_4 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_c_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_7 : Ref sig .tc := ⟨.hbm, 67, rfl⟩
abbrev main_v31 : Ref sig .tc := ⟨.hbm, 68, rfl⟩
abbrev main_v32 : Ref sig .tc := ⟨.hbm, 69, rfl⟩
abbrev main_c_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_9 : Ref sig .tc := ⟨.hbm, 77, rfl⟩
abbrev main_v39 : Ref sig .tc := ⟨.hbm, 78, rfl⟩
abbrev main_v40 : Ref sig .tc := ⟨.hbm, 79, rfl⟩
abbrev main_c_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst : Ref sig .tc := ⟨.hbm, 87, rfl⟩
abbrev main_v47 : Ref sig .tc := ⟨.hbm, 88, rfl⟩
abbrev main_cst_11 : Ref sig .tc := ⟨.hbm, 89, rfl⟩
abbrev main_call0_v0 : Ref sig .tc := ⟨.hbm, 90, rfl⟩
abbrev main_call0_v1 : Ref sig .tc := ⟨.hbm, 91, rfl⟩
abbrev main_v48 : Ref sig .tc := ⟨.hbm, 92, rfl⟩
abbrev main_v49 : Ref sig .tc := ⟨.hbm, 93, rfl⟩
abbrev main_cst_12 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_13 : Ref sig .tc := ⟨.hbm, 104, rfl⟩
abbrev main_v59 : Ref sig .tc := ⟨.hbm, 105, rfl⟩
abbrev main_v60 : Ref sig .tc := ⟨.hbm, 106, rfl⟩
abbrev main_c_14 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_15 : Ref sig .tc := ⟨.hbm, 113, rfl⟩
abbrev main_v66 : Ref sig .tc := ⟨.hbm, 114, rfl⟩
abbrev main_v67 : Ref sig .tc := ⟨.hbm, 115, rfl⟩
abbrev main_c_16 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_17 : Ref sig .tc := ⟨.hbm, 122, rfl⟩
abbrev main_v73 : Ref sig .tc := ⟨.hbm, 123, rfl⟩
abbrev main_v74 : Ref sig .tc := ⟨.hbm, 124, rfl⟩
abbrev main_c_18 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_19 : Ref sig .tc := ⟨.hbm, 131, rfl⟩
abbrev main_v80 : Ref sig .tc := ⟨.hbm, 132, rfl⟩
abbrev main_v81 : Ref sig .tc := ⟨.hbm, 133, rfl⟩
abbrev main_c_20 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_21 : Ref sig .tc := ⟨.hbm, 140, rfl⟩
abbrev main_v87 : Ref sig .tc := ⟨.hbm, 141, rfl⟩
abbrev main_v88 : Ref sig .tc := ⟨.hbm, 142, rfl⟩
abbrev main_c_22 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_c_23 : Ref sig .tc := ⟨.hbm, 149, rfl⟩
abbrev main_v94 : Ref sig .tc := ⟨.hbm, 150, rfl⟩
abbrev main_v95 : Ref sig .tc := ⟨.hbm, 151, rfl⟩
abbrev main_c_24 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_25 : Ref sig .tc := ⟨.hbm, 159, rfl⟩
abbrev main_v102 : Ref sig .tc := ⟨.hbm, 160, rfl⟩
abbrev main_cst_26 : Ref sig .tc := ⟨.hbm, 161, rfl⟩
abbrev main_call1_v0 : Ref sig .tc := ⟨.hbm, 162, rfl⟩
abbrev main_call1_v1 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_27 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_28 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_29 : Ref sig .tc := ⟨.hbm, 182, rfl⟩
abbrev main_v119 : Ref sig .tc := ⟨.hbm, 183, rfl⟩
abbrev main_v120 : Ref sig .tc := ⟨.hbm, 184, rfl⟩
abbrev main_cst_30 : Ref sig .tc := ⟨.hbm, 185, rfl⟩
abbrev main_v121 : Ref sig .tc := ⟨.hbm, 186, rfl⟩
abbrev main_v122 : Ref sig .tc := ⟨.hbm, 187, rfl⟩
abbrev main_cst_31 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_call2_cst : Ref sig .tc := ⟨.hbm, 198, rfl⟩
abbrev main_call2_v0 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_call3_cst : Ref sig .tc := ⟨.hbm, 206, rfl⟩
abbrev main_call3_v0 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x6 : S_.BroadcastsInDim S16384x6 (![] : Fin 0 → Fin S16384x6.rank)
  bcast_S16384x6_S16384x6x1_0_1 : S16384x6.BroadcastsInDim S16384x6x1 (![0, 1] : Fin 2 → Fin S16384x6x1.rank)
  reducesTo_S16384x6x1_S16384x1_d1 : S16384x6x1.ReducesTo [1] S16384x1
  h_S_ : 0 < S_.numel
  bcast_S_S16384x1 : S_.BroadcastsInDim S16384x1 (![] : Fin 0 → Fin S16384x1.rank)
  transposes_S1x8_S8x1_1_0 : S1x8.Transposes [1, 0] S8x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384x6x1_S16384x6x32_0_1_2 : S16384x6x1.BroadcastsInDim S16384x6x32 (![0, 1, 2] : Fin 3 → Fin S16384x6x32.rank)
  reducesTo_S16384x6x32_S16384x32_d1 : S16384x6x32.ReducesTo [1] S16384x32
  bcast_S16384x1_S16384x32_0_1 : S16384x1.BroadcastsInDim S16384x32 (![0, 1] : Fin 2 → Fin S16384x32.rank)
  bcast_S16384x32_S16384x1x32_0_2 : S16384x32.BroadcastsInDim S16384x1x32 (![0, 2] : Fin 2 → Fin S16384x1x32.rank)
  concatenates_S16384x1x32_S16384x1x32_S16384x1x32_S16384x1x32_S16384x1x32_S16384x1x32_S16384x6x32_d1 : Shape.Concatenates [S16384x1x32, S16384x1x32, S16384x1x32, S16384x1x32, S16384x1x32, S16384x1x32] S16384x6x32 1
  reducesTo_S16384x32_S16384_d1 : S16384x32.ReducesTo [1] S16384
  shapeCasts_S16384x6x32_S16384x192 : S16384x6x32.ShapeCasts S16384x192
  concatenates_S16384x192_S16384x8_S16384x200_d1 : Shape.Concatenates [S16384x192, S16384x8] S16384x200 1
  transposes_S128x200_S200x128_1_0 : S128x200.Transposes [1, 0] S200x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S1x64_S64x1_1_0 : S1x64.Transposes [1, 0] S64x1
  shapeCasts_S16384x1_S16384 : S16384x1.ShapeCasts S16384
  gather_S1000000x1_S16384x1_S16384x1_1_0_n_n_0_1_11_wf : GatherDims.WF S1000000x1 S16384x1 S16384x1 [1] [0] [] [0] [] 1 ![1, 1]
  gather_S100000x1_S16384x1_S16384x1_1_0_n_n_0_1_11_wf : GatherDims.WF S100000x1 S16384x1 S16384x1 [1] [0] [] [0] [] 1 ![1, 1]
  gather_S2x1_S16384x1_S16384x1_1_0_n_n_0_1_11_wf : GatherDims.WF S2x1 S16384x1 S16384x1 [1] [0] [] [0] [] 1 ![1, 1]
  gather_S7x1_S16384x1_S16384x1_1_0_n_n_0_1_11_wf : GatherDims.WF S7x1 S16384x1 S16384x1 [1] [0] [] [0] [] 1 ![1, 1]
  gather_S21x1_S16384x1_S16384x1_1_0_n_n_0_1_11_wf : GatherDims.WF S21x1 S16384x1 S16384x1 [1] [0] [] [0] [] 1 ![1, 1]
  gather_S19x1_S16384x6x1_S16384x6x1_2_0_n_n_0_2_11_wf : GatherDims.WF S19x1 S16384x6x1 S16384x6x1 [2] [0] [] [0] [] 2 ![1, 1]
  dot_S16384x8_S8x1_S16384x1_1_0_0_1_n_n_wf : DotDims.WF S16384x8 S8x1 S16384x1 [1] [0] [0] [1] [] []
  gather_S1000000x32_S16384x1_S16384x32_1_0_n_n_0_1_132_wf : GatherDims.WF S1000000x32 S16384x1 S16384x32 [1] [0] [] [0] [] 1 ![1, 32]
  gather_S100000x32_S16384x1_S16384x32_1_0_n_n_0_1_132_wf : GatherDims.WF S100000x32 S16384x1 S16384x32 [1] [0] [] [0] [] 1 ![1, 32]
  gather_S2x32_S16384x1_S16384x32_1_0_n_n_0_1_132_wf : GatherDims.WF S2x32 S16384x1 S16384x32 [1] [0] [] [0] [] 1 ![1, 32]
  gather_S7x32_S16384x1_S16384x32_1_0_n_n_0_1_132_wf : GatherDims.WF S7x32 S16384x1 S16384x32 [1] [0] [] [0] [] 1 ![1, 32]
  gather_S21x32_S16384x1_S16384x32_1_0_n_n_0_1_132_wf : GatherDims.WF S21x32 S16384x1 S16384x32 [1] [0] [] [0] [] 1 ![1, 32]
  gather_S19x32_S16384x6x1_S16384x6x32_2_0_n_n_0_2_132_wf : GatherDims.WF S19x32 S16384x6x1 S16384x6x32 [2] [0] [] [0] [] 2 ![1, 32]
  dot_S16384x200_S200x128_S16384x128_1_0_0_1_n_n_wf : DotDims.WF S16384x200 S200x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def gather_S1000000x1_S16384x1_S16384x1_1_0_n_n_0_1_11 : GatherDims S1000000x1 S16384x1 S16384x1 where
  offsetDims := [1]
  collapsedSliceDims := [0]
  operandBatchingDims := []
  startIndicesBatchingDims := []
  startIndexMap := [0]
  indexVectorDim := 1
  sliceSizes := ![1, 1]
  wf := gather_S1000000x1_S16384x1_S16384x1_1_0_n_n_0_1_11_wf
def gather_S100000x1_S16384x1_S16384x1_1_0_n_n_0_1_11 : GatherDims S100000x1 S16384x1 S16384x1 where
  offsetDims := [1]
  collapsedSliceDims := [0]
  operandBatchingDims := []
  startIndicesBatchingDims := []
  startIndexMap := [0]
  indexVectorDim := 1
  sliceSizes := ![1, 1]
  wf := gather_S100000x1_S16384x1_S16384x1_1_0_n_n_0_1_11_wf
def gather_S2x1_S16384x1_S16384x1_1_0_n_n_0_1_11 : GatherDims S2x1 S16384x1 S16384x1 where
  offsetDims := [1]
  collapsedSliceDims := [0]
  operandBatchingDims := []
  startIndicesBatchingDims := []
  startIndexMap := [0]
  indexVectorDim := 1
  sliceSizes := ![1, 1]
  wf := gather_S2x1_S16384x1_S16384x1_1_0_n_n_0_1_11_wf
def gather_S7x1_S16384x1_S16384x1_1_0_n_n_0_1_11 : GatherDims S7x1 S16384x1 S16384x1 where
  offsetDims := [1]
  collapsedSliceDims := [0]
  operandBatchingDims := []
  startIndicesBatchingDims := []
  startIndexMap := [0]
  indexVectorDim := 1
  sliceSizes := ![1, 1]
  wf := gather_S7x1_S16384x1_S16384x1_1_0_n_n_0_1_11_wf
def gather_S21x1_S16384x1_S16384x1_1_0_n_n_0_1_11 : GatherDims S21x1 S16384x1 S16384x1 where
  offsetDims := [1]
  collapsedSliceDims := [0]
  operandBatchingDims := []
  startIndicesBatchingDims := []
  startIndexMap := [0]
  indexVectorDim := 1
  sliceSizes := ![1, 1]
  wf := gather_S21x1_S16384x1_S16384x1_1_0_n_n_0_1_11_wf
def gather_S19x1_S16384x6x1_S16384x6x1_2_0_n_n_0_2_11 : GatherDims S19x1 S16384x6x1 S16384x6x1 where
  offsetDims := [2]
  collapsedSliceDims := [0]
  operandBatchingDims := []
  startIndicesBatchingDims := []
  startIndexMap := [0]
  indexVectorDim := 2
  sliceSizes := ![1, 1]
  wf := gather_S19x1_S16384x6x1_S16384x6x1_2_0_n_n_0_2_11_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf
def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf
def gather_S2x32_S16384x1_S16384x32_1_0_n_n_0_1_132 : GatherDims S2x32 S16384x1 S16384x32 where
  offsetDims := [1]
  collapsedSliceDims := [0]
  operandBatchingDims := []
  startIndicesBatchingDims := []
  startIndexMap := [0]
  indexVectorDim := 1
  sliceSizes := ![1, 32]
  wf := gather_S2x32_S16384x1_S16384x32_1_0_n_n_0_1_132_wf
def gather_S7x32_S16384x1_S16384x32_1_0_n_n_0_1_132 : GatherDims S7x32 S16384x1 S16384x32 where
  offsetDims := [1]
  collapsedSliceDims := [0]
  operandBatchingDims := []
  startIndicesBatchingDims := []
  startIndexMap := [0]
  indexVectorDim := 1
  sliceSizes := ![1, 32]
  wf := gather_S7x32_S16384x1_S16384x32_1_0_n_n_0_1_132_wf
def gather_S21x32_S16384x1_S16384x32_1_0_n_n_0_1_132 : GatherDims S21x32 S16384x1 S16384x32 where
  offsetDims := [1]
  collapsedSliceDims := [0]
  operandBatchingDims := []
  startIndicesBatchingDims := []
  startIndexMap := [0]
  indexVectorDim := 1
  sliceSizes := ![1, 32]
  wf := gather_S21x32_S16384x1_S16384x32_1_0_n_n_0_1_132_wf
def gather_S19x32_S16384x6x1_S16384x6x32_2_0_n_n_0_2_132 : GatherDims S19x32 S16384x6x1 S16384x6x32 where
  offsetDims := [2]
  collapsedSliceDims := [0]
  operandBatchingDims := []
  startIndicesBatchingDims := []
  startIndexMap := [0]
  indexVectorDim := 2
  sliceSizes := ![1, 32]
  wf := gather_S19x32_S16384x6x1_S16384x6x32_2_0_n_n_0_2_132_wf
def dot_S16384x200_S200x128_S16384x128_1_0_0_1_n_n : DotDims S16384x200 S200x128 S16384x128 where
  lhsContracting := [1]
  rhsContracting := [0]
  lhsNonContracting := [0]
  rhsNonContracting := [1]
  lhsBatch := []
  rhsBatch := []
  wf := dot_S16384x200_S200x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.PreRead.lean ====
/-
  What the precondition says of the index inputs. The precondition is a conjunction, each conjunct an "all entries"
  test; its last twelve conjuncts say that every entry of each index input is at least 0 and below the height of the
  table it indexes. A word that is at least 0 and below n as a signed integer is, as a natural number, below n.
-/
import proofs.«427521_j56710748176670_3_alg».proof.Proof.Gen.Pre_finite_inputs
import Idealize.ShloMosaic.Lib.ReduceAll
import Idealize.ShloMosaic.Lib.StableHlo.Predicate
import Idealize.ShloMosaic.Lib.ValueIdx

noncomputable section

namespace Cert.Fm.PreRead

open Idealize.ShloMosaic Idealize.ShloMosaic.ValueIdx Cert.Pre_finite_inputs

/-- The scalar shape has exactly one index. -/
private theorem scalar_subsingleton : Subsingleton S_.Idx := ⟨fun a b => funext fun d => d.elim0⟩

/-- A word that is at least 0 and below n as a signed integer, n below 2³¹, is below n as a natural number:
    a word whose signed value is not negative has its top bit clear, so its signed and unsigned values agree. -/
private theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  have e0 : (0#32 : BitVec 32).toInt ≤ w.toInt := IntOp.cmpi_sge.1 h0
  have e1 : w.toInt < (BitVec.ofNat 32 n).toInt := IntOp.cmpi_slt.1 h1
  rw [StableHlo.Predicate.toInt_ofNat_small n hn] at e1
  have hz : (0#32 : BitVec 32).toInt = 0 := by decide
  rw [hz] at e0
  have hlt := w.isLt
  rw [BitVec.toInt_eq_toNat_cond] at e0 e1
  split at e0 <;> omega

/-- "Every entry is 1", as the printed precondition writes it: the fold of `and` over all entries, from 1. -/
private abbrev all1 (x : IVec S16384 1) : IVec S_ 1 :=
  Host.reduce IntOp.andi x (constantI S_ 1 1#1) Facts.reducesTo_S16384_S_d0 Facts.h_S_
private abbrev all2 (x : IVec S16384x6 1) : IVec S_ 1 :=
  Host.reduce IntOp.andi x (constantI S_ 1 1#1) Facts.reducesTo_S16384x6_S_d0_1 Facts.h_S_
/-- The array every entry of which is the word c. -/
private abbrev cst1 (c : BitVec 32) : IVec S16384 32 := broadcastInDim S16384 ![] Facts.bcast_S_S16384 (constantI S_ 32 c)
private abbrev cst2 (c : BitVec 32) : IVec S16384x6 32 := broadcastInDim S16384x6 ![] Facts.bcast_S_S16384x6 (constantI S_ 32 c)

/-- One index input of 16384 words: both of its tests came out 1, so every word is below n. -/
private theorem entries_lt1 (n : ℕ) (hn : n < 2 ^ 31) (a : IVec S16384 32)
    (hge : all1 (cmpi .sge a (cst1 0#32)) ix0 = 1#1) (hlt : all1 (cmpi .slt a (cst1 (BitVec.ofNat 32 n))) ix0 = 1#1)
    (i : S16384.Idx) : (a i).toNat < n := by
  haveI := scalar_subsingleton
  exact toNat_lt_of_signed (a i) n hn (Host.reduce_andi_all _ _ _ _ ix0 hge i) (Host.reduce_andi_all _ _ _ _ ix0 hlt i)

/-- The same for the 16384 × 6 index input. -/
private theorem entries_lt2 (n : ℕ) (hn : n < 2 ^ 31) (a : IVec S16384x6 32)
    (hge : all2 (cmpi .sge a (cst2 0#32)) ix0 = 1#1) (hlt : all2 (cmpi .slt a (cst2 (BitVec.ofNat 32 n))) ix0 = 1#1)
    (i : S16384x6.Idx) : (a i).toNat < n := by
  haveI := scalar_subsingleton
  exact toNat_lt_of_signed (a i) n hn (Host.reduce_andi_all _ _ _ _ ix0 hge i) (Host.reduce_andi_all _ _ _ _ ix0 hlt i)

/-- The last part of the chain: its value is (head ∧ first test) ∧ second test. -/
private theorem part9 (a5 : IVec S16384x6 32) (v148 : IVec S_ 1) (v150 : IVec S16384x6 1)
    (e : fn_part9 (F := Ideal) a5 v148 v150 ix0 = 1#1) :
    v148 ix0 = 1#1 ∧ all2 v150 ix0 = 1#1 ∧ all2 (cmpi .slt a5 (cst2 19#32)) ix0 = 1#1 := by
  obtain ⟨h1, h2⟩ := IntOp.andi_eq_one.1 e
  obtain ⟨h3, h4⟩ := IntOp.andi_eq_one.1 h1
  exact ⟨h3, h4, h2⟩

/-- Part 8: it tests the rest of input 3, input 4, and hands part 9 the first comparison of input 5. -/
private theorem part8 (a3 a4 : IVec S16384 32) (a5 : IVec S16384x6 32) (v132 : IVec S_ 1) (v134 : IVec S16384 1)
    (e : fn_part8 (F := Ideal) a3 a4 a5 v132 v134 ix0 = 1#1) :
    v132 ix0 = 1#1 ∧ all1 v134 ix0 = 1#1 ∧ all1 (cmpi .slt a3 (cst1 7#32)) ix0 = 1#1
      ∧ all1 (cmpi .sge a4 (cst1 0#32)) ix0 = 1#1 ∧ all1 (cmpi .slt a4 (cst1 21#32)) ix0 = 1#1
      ∧ all2 (cmpi .sge a5 (cst2 0#32)) ix0 = 1#1 ∧ all2 (cmpi .slt a5 (cst2 19#32)) ix0 = 1#1 := by
  obtain ⟨h, g5, l5⟩ := part9 a5 _ _ e
  obtain ⟨h, l4⟩ := IntOp.andi_eq_one.1 h
  obtain ⟨h, g4⟩ := IntOp.andi_eq_one.1 h
  obtain ⟨h, l3⟩ := IntOp.andi_eq_one.1 h
  obtain ⟨h, g3⟩ := IntOp.andi_eq_one.1 h
  exact ⟨h, g3, l3, g4, l4, g5, l5⟩

/-- Part 7: it tests the rest of input 1, input 2, and hands part 8 the first comparison of input 3. -/
private theorem part7 (a1 a2 a3 a4 : IVec S16384 32) (a5 : IVec S16384x6 32) (v116 : IVec S_ 1) (v118 : IVec S16384 1)
    (e : fn_part7 (F := Ideal) a1 a2 a3 a4 a5 v116 v118 ix0 = 1#1) :
    v116 ix0 = 1#1 ∧ all1 v118 ix0 = 1#1 ∧ all1 (cmpi .slt a1 (cst1 100000#32)) ix0 = 1#1
      ∧ all1 (cmpi .sge a2 (cst1 0#32)) ix0 = 1#1 ∧ all1 (cmpi .slt a2 (cst1 2#32)) ix0 = 1#1
      ∧ all1 (cmpi .sge a3 (cst1 0#32)) ix0 = 1#1 ∧ all1 (cmpi .slt a3 (cst1 7#32)) ix0 = 1#1
      ∧ all1 (cmpi .sge a4 (cst1 0#32)) ix0 = 1#1 ∧ all1 (cmpi .slt a4 (cst1 21#32)) ix0 = 1#1
      ∧ all2 (cmpi .sge a5 (cst2 0#32)) ix0 = 1#1 ∧ all2 (cmpi .slt a5 (cst2 19#32)) ix0 = 1#1 := by
  obtain ⟨h, g3, l3, g4, l4, g5, l5⟩ := part8 a3 a4 a5 _ _ e
  obtain ⟨h, l2⟩ := IntOp.andi_eq_one.1 h
  obtain ⟨h, g2⟩ := IntOp.andi_eq_one.1 h
  obtain ⟨h, l1⟩ := IntOp.andi_eq_one.1 h
  obtain ⟨h, g1⟩ := IntOp.andi_eq_one.1 h
  exact ⟨h, g1, l1, g2, l2, g3, l3, g4, l4, g5, l5⟩

/-- Part 6: after the last two tests of the float inputs (left unopened) it tests input 0 and hands part 7 the first
    comparison of input 1. All twelve tests of the index inputs came out 1. -/
private theorem part6 (a0 a1 a2 a3 a4 : IVec S16384 32) (a5 : IVec S16384x6 32) (a27 : FVec Ideal S1 .f32)
    (v98 : IVec S_ 1) (v101 : IVec S1x64 1) (c39 : IVec S_ 1)
    (e : fn_part6 (F := Ideal) a0 a1 a2 a3 a4 a5 a27 v98 v101 c39 ix0 = 1#1) :
    all1 (cmpi .sge a0 (cst1 0#32)) ix0 = 1#1 ∧ all1 (cmpi .slt a0 (cst1 1000000#32)) ix0 = 1#1
      ∧ all1 (cmpi .sge a1 (cst1 0#32)) ix0 = 1#1 ∧ all1 (cmpi .slt a1 (cst1 100000#32)) ix0 = 1#1
      ∧ all1 (cmpi .sge a2 (cst1 0#32)) ix0 = 1#1 ∧ all1 (cmpi .slt a2 (cst1 2#32)) ix0 = 1#1
      ∧ all1 (cmpi .sge a3 (cst1 0#32)) ix0 = 1#1 ∧ all1 (cmpi .slt a3 (cst1 7#32)) ix0 = 1#1
      ∧ all1 (cmpi .sge a4 (cst1 0#32)) ix0 = 1#1 ∧ all1 (cmpi .slt a4 (cst1 21#32)) ix0 = 1#1
      ∧ all2 (cmpi .sge a5 (cst2 0#32)) ix0 = 1#1 ∧ all2 (cmpi .slt a5 (cst2 19#32)) ix0 = 1#1 := by
  obtain ⟨h, g1, l1, g2, l2, g3, l3, g4, l4, g5, l5⟩ := part7 a1 a2 a3 a4 a5 _ _ e
  obtain ⟨h, l0⟩ := IntOp.andi_eq_one.1 h
  obtain ⟨h, g0⟩ := IntOp.andi_eq_one.1 h
  exact ⟨g0, l0, g1, l1, g2, l2, g3, l3, g4, l4, g5, l5⟩

/-- Every index word is a row number of the table it indexes. -/
theorem ranges_of_pre (a0 : IVec S16384 32) (a1 : IVec S16384 32) (a2 : IVec S16384 32) (a3 : IVec S16384 32) (a4 : IVec S16384 32) (a5 : IVec S16384x6 32) (a6 : FVec Ideal S16384x6 .f32) (a7 : FVec Ideal S16384x8 .f32) (a8 : FVec Ideal S1000000x1 .f32) (a9 : FVec Ideal S100000x1 .f32) (a10 : FVec Ideal S2x1 .f32) (a11 : FVec Ideal S7x1 .f32) (a12 : FVec Ideal S21x1 .f32) (a13 : FVec Ideal S19x1 .f32) (a14 : FVec Ideal S1000000x32 .f32) (a15 : FVec Ideal S100000x32 .f32) (a16 : FVec Ideal S2x32 .f32) (a17 : FVec Ideal S7x32 .f32) (a18 : FVec Ideal S21x32 .f32) (a19 : FVec Ideal S19x32 .f32) (a20 : FVec Ideal S1x8 .f32) (a21 : FVec Ideal S1 .f32) (a22 : FVec Ideal S128x200 .f32) (a23 : FVec Ideal S128 .f32) (a24 : FVec Ideal S64x128 .f32) (a25 : FVec Ideal S64 .f32) (a26 : FVec Ideal S1x64 .f32) (a27 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    (∀ b : Fin 16384, (a0 (ix1 b)).toNat < 1000000) ∧ (∀ b : Fin 16384, (a1 (ix1 b)).toNat < 100000)
    ∧ (∀ b : Fin 16384, (a2 (ix1 b)).toNat < 2) ∧ (∀ b : Fin 16384, (a3 (ix1 b)).toNat < 7)
    ∧ (∀ b : Fin 16384, (a4 (ix1 b)).toNat < 21) ∧ (∀ (b : Fin 16384) (g : Fin 6), (a5 (ix2 b g)).toNat < 19) := by
  have e := congrFun h ix0
  -- the first five parts only pass the index inputs on, under tests of the float inputs that stay unopened
  obtain ⟨v98, v101, c39, e6⟩ : ∃ v98 v101 c39, fn_part6 (F := Ideal) a0 a1 a2 a3 a4 a5 a27 v98 v101 c39 ix0 = 1#1 :=
    ⟨_, _, _, e⟩
  obtain ⟨g0, l0, g1, l1, g2, l2, g3, l3, g4, l4, g5, l5⟩ := part6 a0 a1 a2 a3 a4 a5 a27 v98 v101 c39 e6
  exact ⟨fun b => entries_lt1 1000000 (by norm_num) a0 g0 l0 _, fun b => entries_lt1 100000 (by norm_num) a1 g1 l1 _,
    fun b => entries_lt1 2 (by norm_num) a2 g2 l2 _, fun b => entries_lt1 7 (by norm_num) a3 g3 l3 _,
    fun b => entries_lt1 21 (by norm_num) a4 g4 l4 _, fun b g => entries_lt2 19 (by norm_num) a5 g5 l5 _⟩

end Cert.Fm.PreRead

end
-- ==== Proof.Spec.lean ====
/-
  The function both programs compute, one example (row) at a time.

  A row has six field embeddings x₀ … x₅ (vectors of 32 extended reals), six first-order terms f₀ … f₅ and
  eight dense features. Fields 0 … 4 are rows of embedding tables chosen by the row's index words; field 5 is
  the masked mean of six rows of the genre table (`pool`). The output is

      (Σₖ fₖ + (⟨dense, w⟩ + b))                       the first-order part
    + ½ · Σ_d ((Σₖ xₖ d)² − Σₖ (xₖ d)²)                the pairwise interactions
    + the three-layer network on (x₀ ‖ … ‖ x₅ ‖ dense)  (200 → 128 → 64 → 1, positive parts between).

  Every sum is a finite sum in the extended reals, where addition is commutative and associative, so the
  order in which a program adds its terms does not matter.
-/
import Idealize.ShloMosaic.PureOps.Ideal
import Idealize.ShloMosaic.Lib.ValueIdx
import Mathlib.Algebra.BigOperators.Fin

noncomputable section

namespace Cert.Fm

open Idealize.ShloMosaic Idealize.ShloMosaic.ValueIdx

/-- An m × n matrix of extended reals, indexed by (row, column). -/
abbrev Mat (m n : Nat) : Type := FVec Ideal (⟨2, ![m, n]⟩ : Shape) .f32
/-- A vector of n extended reals. -/
abbrev Col (n : Nat) : Type := FVec Ideal (⟨1, ![n]⟩ : Shape) .f32
/-- A vector of n index words. -/
abbrev Ids (n : Nat) : Type := IVec (⟨1, ![n]⟩ : Shape) 32
/-- An m × n matrix of index words. -/
abbrev IdMat (m n : Nat) : Type := IVec (⟨2, ![m, n]⟩ : Shape) 32

/-- The one half both programs multiply the interaction sum by. -/
abbrev half : EReal := Ideal.ofBits .f32 0x3F000000#32

/-- The table row an index word selects: the word read as a signed integer, kept inside the table. (For a word
    that is a row number, that row.) -/
def rowOf (n : ℕ) (hn : 0 < n) (w : BitVec 32) : Fin n := ⟨min w.toInt.toNat (n - 1), by omega⟩

/-- A word below the table's height selects the row of that number. -/
theorem rowOf_of_lt (n : ℕ) (hn : 0 < n) (hn' : n ≤ 2 ^ 31) (w : BitVec 32) (hw : w.toNat < n) :
    rowOf n hn w = ⟨w.toNat, hw⟩ := by
  apply Fin.ext
  show min w.toInt.toNat (n - 1) = w.toNat
  have h1 : w.toInt = w.toNat := by
    rw [BitVec.toInt_eq_toNat_cond, if_pos (by omega)]
  rw [h1, Int.toNat_natCast]
  omega

/-- The masked mean: Σ_g e_g · m_g over the larger of 1 and Σ_g m_g. -/
def pool (e m : Fin 6 → EReal) : EReal := Ideal.div (∑ g, e g * m g) (max 1 (∑ g, m g))

/-- The first-order part of a row. -/
def firstOrder (f : Fin 6 → EReal) (dn dW : Fin 8 → EReal) (db : EReal) : EReal :=
  (∑ k, f k) + ((∑ j, dn j * dW j) + db)

/-- The pairwise interactions of a row's six embeddings. -/
def pairwise (x : Fin 6 → Fin 32 → EReal) : EReal :=
  half * ∑ d, ((∑ k, x k d) * (∑ k, x k d) - ∑ k, x k d * x k d)

/-- The network's input row: the six embeddings side by side, then the dense features. -/
def deepIn (x : Fin 6 → Fin 32 → EReal) (dn : Fin 8 → EReal) (k : Fin 200) : EReal :=
  if h : k.val < 192 then x ⟨k.val / 32, by omega⟩ ⟨k.val % 32, Nat.mod_lt _ (by norm_num)⟩
  else dn ⟨k.val - 192, by omega⟩

/-- The first hidden layer. -/
def hidden1 (z : Fin 200 → EReal) (W1 : Fin 128 → Fin 200 → EReal) (b1 : Fin 128 → EReal) (j : Fin 128) : EReal :=
  max ((∑ k, z k * W1 j k) + b1 j) 0

/-- The second hidden layer. -/
def hidden2 (h : Fin 128 → EReal) (W2 : Fin 64 → Fin 128 → EReal) (b2 : Fin 64 → EReal) (j : Fin 64) : EReal :=
  max ((∑ k, h k * W2 j k) + b2 j) 0

/-- The network's output on an input row. -/
def mlp (z : Fin 200 → EReal) (W1 : Fin 128 → Fin 200 → EReal) (b1 : Fin 128 → EReal)
    (W2 : Fin 64 → Fin 128 → EReal) (b2 : Fin 64 → EReal) (Wo : Fin 64 → EReal) (bo : EReal) : EReal :=
  (∑ j, hidden2 (hidden1 z W1 b1) W2 b2 j * Wo j) + bo

/-- A row's output from the row's data and the weights. -/
def rowOut (x : Fin 6 → Fin 32 → EReal) (f : Fin 6 → EReal) (dn dW : Fin 8 → EReal) (db : EReal)
    (W1 : Fin 128 → Fin 200 → EReal) (b1 : Fin 128 → EReal) (W2 : Fin 64 → Fin 128 → EReal) (b2 : Fin 64 → EReal)
    (Wo : Fin 64 → EReal) (bo : EReal) : EReal :=
  firstOrder f dn dW db + pairwise x + mlp (deepIn x dn) W1 b1 W2 b2 Wo bo

/-- A row's six embeddings (of width D) from its index words, its mask and the six tables. -/
def fieldsOf {D : ℕ} (uid iid gen age occ : BitVec 32) (gid : Fin 6 → BitVec 32) (msk : Fin 6 → EReal)
    (tu : Mat 1000000 D) (ti : Mat 100000 D) (tg : Mat 2 D) (ta : Mat 7 D) (tocc : Mat 21 D) (tge : Mat 19 D) :
    Fin 6 → Fin D → EReal :=
  ![fun d => tu (ix2 (rowOf 1000000 (by norm_num) uid) d),
    fun d => ti (ix2 (rowOf 100000 (by norm_num) iid) d),
    fun d => tg (ix2 (rowOf 2 (by norm_num) gen) d),
    fun d => ta (ix2 (rowOf 7 (by norm_num) age) d),
    fun d => tocc (ix2 (rowOf 21 (by norm_num) occ) d),
    fun d => pool (fun g => tge (ix2 (rowOf 19 (by norm_num) (gid g)) d)) msk]

/-- The whole result: row b's output from row b of every per-row input. -/
def result (uid iid gen age occ : Ids 16384) (gid : IdMat 16384 6) (msk : Mat 16384 6) (dn : Mat 16384 8)
    (fu : Mat 1000000 1) (fi : Mat 100000 1) (fg : Mat 2 1) (fa : Mat 7 1) (fo : Mat 21 1) (fge : Mat 19 1)
    (eu : Mat 1000000 32) (ei : Mat 100000 32) (eg : Mat 2 32) (ea : Mat 7 32) (eo : Mat 21 32) (ege : Mat 19 32)
    (dW : Mat 1 8) (db : Col 1) (W1 : Mat 128 200) (b1 : Col 128) (W2 : Mat 64 128) (b2 : Col 64)
    (Wo : Mat 1 64) (bo : Col 1) : Col 16384 := fun i =>
  let b : Fin 16384 := i 0
  rowOut
    (fieldsOf (uid (ix1 b)) (iid (ix1 b)) (gen (ix1 b)) (age (ix1 b)) (occ (ix1 b)) (fun g => gid (ix2 b g))
      (fun g => msk (ix2 b g)) eu ei eg ea eo ege)
    (fun k => fieldsOf (uid (ix1 b)) (iid (ix1 b)) (gen (ix1 b)) (age (ix1 b)) (occ (ix1 b)) (fun g => gid (ix2 b g))
      (fun g => msk (ix2 b g)) fu fi fg fa fo fge k 0)
    (fun j => dn (ix2 b j)) (fun j => dW (ix2 0 j)) (db (ix1 0))
    (fun j k => W1 (ix2 j k)) (fun j => b1 (ix1 j)) (fun j k => W2 (ix2 j k)) (fun j => b2 (ix1 j))
    (fun j => Wo (ix2 0 j)) (bo (ix1 0))

end Cert.Fm

end
-- ==== Proof.KReadsA.lean ====
/-
  The grid's blocks read back, per-row windows. The grid has 8 points and a per-row window's block index at point t is
  (t, 0) (or (t) for a vector): entry (r, d) of the block is entry (2048·t + r, d) of the array the region finds.
-/
import proofs.«427521_j56710748176670_3_alg».proof.Proof.FrameKernelIdeal
import proofs.«427521_j56710748176670_3_alg».proof.Proof.Spec
import Idealize.ShloMosaic.Lib.Pipeline.Value
import Idealize.ShloMosaic.Lib.Tactic

noncomputable section

namespace Cert.Fm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Fm

variable (m : (ℓ : Loc nD τ sig) → Buf (Elt Ideal) ℓ) (ρ : Dev nD → PrngReg)

theorem idx0 : ∀ t : Fin grid0.N, win0_0.index t 0 = t.val ∧ win0_0.index t 1 = 0 :=
  (by decide +kernel : ∀ t : Fin grid0.N, _)

/-- Row r of window 0's block at point t is row 2048·t + r of its array. -/
theorem blk0 (c : Dev nD) (t : Fin cfg0.N) (r : Fin 2048) (p : Fin 16384) (hp : p.val = 2048 * t.val + r.val) (d : Fin 32) :
    (iblk m c 0 t : Vec Ideal S2048x32 .f32) (ix2 r d) = (V m c main_v0 : S16384x32.Idx → EReal) (ix2 p d) := by
  unfold iblk
  rw [View.read_apply]
  show V m c main_v0 _ = V m c main_v0 _
  congr 1
  funext a
  apply Fin.ext
  match a with
  | ⟨0, _⟩ => show win0_0.index t 0 * 2048 + 1 * r.val = p.val; rw [(idx0 t).1, hp]; omega
  | ⟨1, _⟩ => show win0_0.index t 1 * 32 + 1 * d.val = d.val; rw [(idx0 t).2]; omega

theorem idx1 : ∀ t : Fin grid0.N, win0_1.index t 0 = t.val ∧ win0_1.index t 1 = 0 :=
  (by decide +kernel : ∀ t : Fin grid0.N, _)

/-- Row r of window 1's block at point t is row 2048·t + r of its array. -/
theorem blk1 (c : Dev nD) (t : Fin cfg0.N) (r : Fin 2048) (p : Fin 16384) (hp : p.val = 2048 * t.val + r.val) (d : Fin 32) :
    (iblk m c 1 t : Vec Ideal S2048x32 .f32) (ix2 r d) = (V m c main_v1 : S16384x32.Idx → EReal) (ix2 p d) := by
  unfold iblk
  rw [View.read_apply]
  show V m c main_v1 _ = V m c main_v1 _
  congr 1
  funext a
  apply Fin.ext
  match a with
  | ⟨0, _⟩ => show win0_1.index t 0 * 2048 + 1 * r.val = p.val; rw [(idx1 t).1, hp]; omega
  | ⟨1, _⟩ => show win0_1.index t 1 * 32 + 1 * d.val = d.val; rw [(idx1 t).2]; omega

theorem idx2 : ∀ t : Fin grid0.N, win0_2.index t 0 = t.val ∧ win0_2.index t 1 = 0 :=
  (by decide +kernel : ∀ t : Fin grid0.N, _)

/-- Row r of window 2's block at point t is row 2048·t + r of its array. -/
theorem blk2 (c : Dev nD) (t : Fin cfg0.N) (r : Fin 2048) (p : Fin 16384) (hp : p.val = 2048 * t.val + r.val) (d : Fin 1) :
    (iblk m c 2 t : Vec Ideal S2048x1 .f32) (ix2 r d) = (V m c main_v2 : S16384x1.Idx → EReal) (ix2 p d) := by
  unfold iblk
  rw [View.read_apply]
  show V m c main_v2 _ = V m c main_v2 _
  congr 1
  funext a
  apply Fin.ext
  match a with
  | ⟨0, _⟩ => show win0_2.index t 0 * 2048 + 1 * r.val = p.val; rw [(idx2 t).1, hp]; omega
  | ⟨1, _⟩ => show win0_2.index t 1 * 1 + 1 * d.val = d.val; rw [(idx2 t).2]; omega

theorem idx3 : ∀ t : Fin grid0.N, win0_3.index t 0 = t.val ∧ win0_3.index t 1 = 0 :=
  (by decide +kernel : ∀ t : Fin grid0.N, _)

/-- Row r of window 3's block at point t is row 2048·t + r of its array. -/
theorem blk3 (c : Dev nD) (t : Fin cfg0.N) (r : Fin 2048) (p : Fin 16384) (hp : p.val = 2048 * t.val + r.val) (d : Fin 1) :
    (iblk m c 3 t : Vec Ideal S2048x1 .f32) (ix2 r d) = (V m c main_v3 : S16384x1.Idx → EReal) (ix2 p d) := by
  unfold iblk
  rw [View.read_apply]
  show V m c main_v3 _ = V m c main_v3 _
  congr 1
  funext a
  apply Fin.ext
  match a with
  | ⟨0, _⟩ => show win0_3.index t 0 * 2048 + 1 * r.val = p.val; rw [(idx3 t).1, hp]; omega
  | ⟨1, _⟩ => show win0_3.index t 1 * 1 + 1 * d.val = d.val; rw [(idx3 t).2]; omega

theorem idx4 : ∀ t : Fin grid0.N, win0_4.index t 0 = t.val :=
  (by decide +kernel : ∀ t : Fin grid0.N, _)

/-- Entry r of window 4's block at point t is entry 2048·t + r of its array. -/
theorem blk4 (c : Dev nD) (t : Fin cfg0.N) (r : Fin 2048) (p : Fin 16384) (hp : p.val = 2048 * t.val + r.val) :
    (iblk m c 4 t : Vec Ideal S2048 .i32) (ix1 r) = (V m c main_arg2 : S16384.Idx → BitVec 32) (ix1 p) := by
  unfold iblk
  rw [View.read_apply]
  show V m c main_arg2 _ = V m c main_arg2 _
  congr 1
  funext a
  apply Fin.ext
  match a with
  | ⟨0, _⟩ => show win0_4.index t 0 * 2048 + 1 * r.val = p.val; rw [idx4 t, hp]; omega

theorem idx5 : ∀ t : Fin grid0.N, win0_5.index t 0 = t.val :=
  (by decide +kernel : ∀ t : Fin grid0.N, _)

/-- Entry r of window 5's block at point t is entry 2048·t + r of its array. -/
theorem blk5 (c : Dev nD) (t : Fin cfg0.N) (r : Fin 2048) (p : Fin 16384) (hp : p.val = 2048 * t.val + r.val) :
    (iblk m c 5 t : Vec Ideal S2048 .i32) (ix1 r) = (V m c main_arg3 : S16384.Idx → BitVec 32) (ix1 p) := by
  unfold iblk
  rw [View.read_apply]
  show V m c main_arg3 _ = V m c main_arg3 _
  congr 1
  funext a
  apply Fin.ext
  match a with
  | ⟨0, _⟩ => show win0_5.index t 0 * 2048 + 1 * r.val = p.val; rw [idx5 t, hp]; omega

theorem idx6 : ∀ t : Fin grid0.N, win0_6.index t 0 = t.val :=
  (by decide +kernel : ∀ t : Fin grid0.N, _)

/-- Entry r of window 6's block at point t is entry 2048·t + r of its array. -/
theorem blk6 (c : Dev nD) (t : Fin cfg0.N) (r : Fin 2048) (p : Fin 16384) (hp : p.val = 2048 * t.val + r.val) :
    (iblk m c 6 t : Vec Ideal S2048 .i32) (ix1 r) = (V m c main_arg4 : S16384.Idx → BitVec 32) (ix1 p) := by
  unfold iblk
  rw [View.read_apply]
  show V m c main_arg4 _ = V m c main_arg4 _
  congr 1
  funext a
  apply Fin.ext
  match a with
  | ⟨0, _⟩ => show win0_6.index t 0 * 2048 + 1 * r.val = p.val; rw [idx6 t, hp]; omega

end Cert.Fm.Kernel

end
-- ==== Proof.KReadsB.lean ====
/-
  The grid's blocks read back, per-row windows. The grid has 8 points and a per-row window's block index at point t is
  (t, 0) (or (t) for a vector): entry (r, d) of the block is entry (2048·t + r, d) of the array the region finds.
  (Windows 7 to 9; then the first whole-array windows, whose block index is (0, 0) and whose block is the array.)
-/
import proofs.«427521_j56710748176670_3_alg».proof.Proof.FrameKernelIdeal
import proofs.«427521_j56710748176670_3_alg».proof.Proof.Spec
import Idealize.ShloMosaic.Lib.Pipeline.Value
import Idealize.ShloMosaic.Lib.Tactic

noncomputable section

namespace Cert.Fm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Fm

variable (m : (ℓ : Loc nD τ sig) → Buf (Elt Ideal) ℓ) (ρ : Dev nD → PrngReg)

theorem idx7 : ∀ t : Fin grid0.N, win0_7.index t 0 = t.val ∧ win0_7.index t 1 = 0 :=
  (by decide +kernel : ∀ t : Fin grid0.N, _)

/-- Row r of window 7's block at point t is row 2048·t + r of its array. -/
theorem blk7 (c : Dev nD) (t : Fin cfg0.N) (r : Fin 2048) (p : Fin 16384) (hp : p.val = 2048 * t.val + r.val) (d : Fin 6) :
    (iblk m c 7 t : Vec Ideal S2048x6 .i32) (ix2 r d) = (V m c main_arg5 : S16384x6.Idx → BitVec 32) (ix2 p d) := by
  unfold iblk
  rw [View.read_apply]
  show V m c main_arg5 _ = V m c main_arg5 _
  congr 1
  funext a
  apply Fin.ext
  match a with
  | ⟨0, _⟩ => show win0_7.index t 0 * 2048 + 1 * r.val = p.val; rw [(idx7 t).1, hp]; omega
  | ⟨1, _⟩ => show win0_7.index t 1 * 6 + 1 * d.val = d.val; rw [(idx7 t).2]; omega

theorem idx8 : ∀ t : Fin grid0.N, win0_8.index t 0 = t.val ∧ win0_8.index t 1 = 0 :=
  (by decide +kernel : ∀ t : Fin grid0.N, _)

/-- Row r of window 8's block at point t is row 2048·t + r of its array. -/
theorem blk8 (c : Dev nD) (t : Fin cfg0.N) (r : Fin 2048) (p : Fin 16384) (hp : p.val = 2048 * t.val + r.val) (d : Fin 6) :
    (iblk m c 8 t : Vec Ideal S2048x6 .f32) (ix2 r d) = (V m c main_arg6 : S16384x6.Idx → EReal) (ix2 p d) := by
  unfold iblk
  rw [View.read_apply]
  show V m c main_arg6 _ = V m c main_arg6 _
  congr 1
  funext a
  apply Fin.ext
  match a with
  | ⟨0, _⟩ => show win0_8.index t 0 * 2048 + 1 * r.val = p.val; rw [(idx8 t).1, hp]; omega
  | ⟨1, _⟩ => show win0_8.index t 1 * 6 + 1 * d.val = d.val; rw [(idx8 t).2]; omega

theorem idx9 : ∀ t : Fin grid0.N, win0_9.index t 0 = t.val ∧ win0_9.index t 1 = 0 :=
  (by decide +kernel : ∀ t : Fin grid0.N, _)

/-- Row r of window 9's block at point t is row 2048·t + r of its array. -/
theorem blk9 (c : Dev nD) (t : Fin cfg0.N) (r : Fin 2048) (p : Fin 16384) (hp : p.val = 2048 * t.val + r.val) (d : Fin 8) :
    (iblk m c 9 t : Vec Ideal S2048x8 .f32) (ix2 r d) = (V m c main_arg7 : S16384x8.Idx → EReal) (ix2 p d) := by
  unfold iblk
  rw [View.read_apply]
  show V m c main_arg7 _ = V m c main_arg7 _
  congr 1
  funext a
  apply Fin.ext
  match a with
  | ⟨0, _⟩ => show win0_9.index t 0 * 2048 + 1 * r.val = p.val; rw [(idx9 t).1, hp]; omega
  | ⟨1, _⟩ => show win0_9.index t 1 * 8 + 1 * d.val = d.val; rw [(idx9 t).2]; omega

theorem idx10 : ∀ t : Fin grid0.N, win0_10.index t 0 = 0 ∧ win0_10.index t 1 = 0 :=
  (by decide +kernel : ∀ t : Fin grid0.N, _)

/-- Window 10's block at every point is its whole array. -/
theorem blk10 (c : Dev nD) (t : Fin cfg0.N) (i : S2x32.Idx) :
    (iblk m c 10 t : Vec Ideal S2x32 .f32) i = (V m c main_arg16 : S2x32.Idx → EReal) i := by
  unfold iblk
  rw [View.read_apply]
  show V m c main_arg16 _ = V m c main_arg16 _
  congr 1
  funext a
  apply Fin.ext
  match a with
  | ⟨0, _⟩ => show win0_10.index t 0 * 2 + 1 * (i 0).val = (i 0).val; rw [(idx10 t).1]; omega
  | ⟨1, _⟩ => show win0_10.index t 1 * 32 + 1 * (i 1).val = (i 1).val; rw [(idx10 t).2]; omega

theorem idx11 : ∀ t : Fin grid0.N, win0_11.index t 0 = 0 ∧ win0_11.index t 1 = 0 :=
  (by decide +kernel : ∀ t : Fin grid0.N, _)

/-- Window 11's block at every point is its whole array. -/
theorem blk11 (c : Dev nD) (t : Fin cfg0.N) (i : S7x32.Idx) :
    (iblk m c 11 t : Vec Ideal S7x32 .f32) i = (V m c main_arg17 : S7x32.Idx → EReal) i := by
  unfold iblk
  rw [View.read_apply]
  show V m c main_arg17 _ = V m c main_arg17 _
  congr 1
  funext a
  apply Fin.ext
  match a with
  | ⟨0, _⟩ => show win0_11.index t 0 * 7 + 1 * (i 0).val = (i 0).val; rw [(idx11 t).1]; omega
  | ⟨1, _⟩ => show win0_11.index t 1 * 32 + 1 * (i 1).val = (i 1).val; rw [(idx11 t).2]; omega

theorem idx12 : ∀ t : Fin grid0.N, win0_12.index t 0 = 0 ∧ win0_12.index t 1 = 0 :=
  (by decide +kernel : ∀ t : Fin grid0.N, _)

/-- Window 12's block at every point is its whole array. -/
theorem blk12 (c : Dev nD) (t : Fin cfg0.N) (i : S21x32.Idx) :
    (iblk m c 12 t : Vec Ideal S21x32 .f32) i = (V m c main_arg18 : S21x32.Idx → EReal) i := by
  unfold iblk
  rw [View.read_apply]
  show V m c main_arg18 _ = V m c main_arg18 _
  congr 1
  funext a
  apply Fin.ext
  match a with
  | ⟨0, _⟩ => show win0_12.index t 0 * 21 + 1 * (i 0).val = (i 0).val; rw [(idx12 t).1]; omega
  | ⟨1, _⟩ => show win0_12.index t 1 * 32 + 1 * (i 1).val = (i 1).val; rw [(idx12 t).2]; omega

theorem idx13 : ∀ t : Fin grid0.N, win0_13.index t 0 = 0 ∧ win0_13.index t 1 = 0 :=
  (by decide +kernel : ∀ t : Fin grid0.N, _)

/-- Window 13's block at every point is its whole array. -/
theorem blk13 (c : Dev nD) (t : Fin cfg0.N) (i : S19x32.Idx) :
    (iblk m c 13 t : Vec Ideal S19x32 .f32) i = (V m c main_arg19 : S19x32.Idx → EReal) i := by
  unfold iblk
  rw [View.read_apply]
  show V m c main_arg19 _ = V m c main_arg19 _
  congr 1
  funext a
  apply Fin.ext
  match a with
  | ⟨0, _⟩ => show win0_13.index t 0 * 19 + 1 * (i 0).val = (i 0).val; rw [(idx13 t).1]; omega
  | ⟨1, _⟩ => show win0_13.index t 1 * 32 + 1 * (i 1).val = (i 1).val; rw [(idx13 t).2]; omega

end Cert.Fm.Kernel

end
-- ==== Proof.KReadsC.lean ====
/-
  The grid's blocks read back, whole-array windows. A table's or a weight array's block index is (0, 0) at every point
  and its block is as large as the array: the block is the array the region finds.
-/
import proofs.«427521_j56710748176670_3_alg».proof.Proof.FrameKernelIdeal
import proofs.«427521_j56710748176670_3_alg».proof.Proof.Spec
import Idealize.ShloMosaic.Lib.Pipeline.Value
import Idealize.ShloMosaic.Lib.Tactic

noncomputable section

namespace Cert.Fm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Fm

variable (m : (ℓ : Loc nD τ sig) → Buf (Elt Ideal) ℓ) (ρ : Dev nD → PrngReg)

theorem idx14 : ∀ t : Fin grid0.N, win0_14.index t 0 = 0 ∧ win0_14.index t 1 = 0 :=
  (by decide +kernel : ∀ t : Fin grid0.N, _)

/-- Window 14's block at every point is its whole array. -/
theorem blk14 (c : Dev nD) (t : Fin cfg0.N) (i : S2x1.Idx) :
    (iblk m c 14 t : Vec Ideal S2x1 .f32) i = (V m c main_arg10 : S2x1.Idx → EReal) i := by
  unfold iblk
  rw [View.read_apply]
  show V m c main_arg10 _ = V m c main_arg10 _
  congr 1
  funext a
  apply Fin.ext
  match a with
  | ⟨0, _⟩ => show win0_14.index t 0 * 2 + 1 * (i 0).val = (i 0).val; rw [(idx14 t).1]; omega
  | ⟨1, _⟩ => show win0_14.index t 1 * 1 + 1 * (i 1).val = (i 1).val; rw [(idx14 t).2]; omega

theorem idx15 : ∀ t : Fin grid0.N, win0_15.index t 0 = 0 ∧ win0_15.index t 1 = 0 :=
  (by decide +kernel : ∀ t : Fin grid0.N, _)

/-- Window 15's block at every point is its whole array. -/
theorem blk15 (c : Dev nD) (t : Fin cfg0.N) (i : S7x1.Idx) :
    (iblk m c 15 t : Vec Ideal S7x1 .f32) i = (V m c main_arg11 : S7x1.Idx → EReal) i := by
  unfold iblk
  rw [View.read_apply]
  show V m c main_arg11 _ = V m c main_arg11 _
  congr 1
  funext a
  apply Fin.ext
  match a with
  | ⟨0, _⟩ => show win0_15.index t 0 * 7 + 1 * (i 0).val = (i 0).val; rw [(idx15 t).1]; omega
  | ⟨1, _⟩ => show win0_15.index t 1 * 1 + 1 * (i 1).val = (i 1).val; rw [(idx15 t).2]; omega

theorem idx16 : ∀ t : Fin grid0.N, win0_16.index t 0 = 0 ∧ win0_16.index t 1 = 0 :=
  (by decide +kernel : ∀ t : Fin grid0.N, _)

/-- Window 16's block at every point is its whole array. -/
theorem blk16 (c : Dev nD) (t : Fin cfg0.N) (i : S21x1.Idx) :
    (iblk m c 16 t : Vec Ideal S21x1 .f32) i = (V m c main_arg12 : S21x1.Idx → EReal) i := by
  unfold iblk
  rw [View.read_apply]
  show V m c main_arg12 _ = V m c main_arg12 _
  congr 1
  funext a
  apply Fin.ext
  match a with
  | ⟨0, _⟩ => show win0_16.index t 0 * 21 + 1 * (i 0).val = (i 0).val; rw [(idx16 t).1]; omega
  | ⟨1, _⟩ => show win0_16.index t 1 * 1 + 1 * (i 1).val = (i 1).val; rw [(idx16 t).2]; omega

theorem idx17 : ∀ t : Fin grid0.N, win0_17.index t 0 = 0 ∧ win0_17.index t 1 = 0 :=
  (by decide +kernel : ∀ t : Fin grid0.N, _)

/-- Window 17's block at every point is its whole array. -/
theorem blk17 (c : Dev nD) (t : Fin cfg0.N) (i : S19x1.Idx) :
    (iblk m c 17 t : Vec Ideal S19x1 .f32) i = (V m c main_arg13 : S19x1.Idx → EReal) i := by
  unfold iblk
  rw [View.read_apply]
  show V m c main_arg13 _ = V m c main_arg13 _
  congr 1
  funext a
  apply Fin.ext
  match a with
  | ⟨0, _⟩ => show win0_17.index t 0 * 19 + 1 * (i 0).val = (i 0).val; rw [(idx17 t).1]; omega
  | ⟨1, _⟩ => show win0_17.index t 1 * 1 + 1 * (i 1).val = (i 1).val; rw [(idx17 t).2]; omega

theorem idx18 : ∀ t : Fin grid0.N, win0_18.index t 0 = 0 ∧ win0_18.index t 1 = 0 :=
  (by decide +kernel : ∀ t : Fin grid0.N, _)

/-- Window 18's block at every point is its whole array. -/
theorem blk18 (c : Dev nD) (t : Fin cfg0.N) (i : S1x8.Idx) :
    (iblk m c 18 t : Vec Ideal S1x8 .f32) i = (V m c main_arg20 : S1x8.Idx → EReal) i := by
  unfold iblk
  rw [View.read_apply]
  show V m c main_arg20 _ = V m c main_arg20 _
  congr 1
  funext a
  apply Fin.ext
  match a with
  | ⟨0, _⟩ => show win0_18.index t 0 * 1 + 1 * (i 0).val = (i 0).val; rw [(idx18 t).1]; omega
  | ⟨1, _⟩ => show win0_18.index t 1 * 8 + 1 * (i 1).val = (i 1).val; rw [(idx18 t).2]; omega

theorem idx19 : ∀ t : Fin grid0.N, win0_19.index t 0 = 0 ∧ win0_19.index t 1 = 0 :=
  (by decide +kernel : ∀ t : Fin grid0.N, _)

/-- Window 19's block at every point is its whole array. -/
theorem blk19 (c : Dev nD) (t : Fin cfg0.N) (i : S1x1.Idx) :
    (iblk m c 19 t : Vec Ideal S1x1 .f32) i = (V m c main_v4 : S1x1.Idx → EReal) i := by
  unfold iblk
  rw [View.read_apply]
  show V m c main_v4 _ = V m c main_v4 _
  congr 1
  funext a
  apply Fin.ext
  match a with
  | ⟨0, _⟩ => show win0_19.index t 0 * 1 + 1 * (i 0).val = (i 0).val; rw [(idx19 t).1]; omega
  | ⟨1, _⟩ => show win0_19.index t 1 * 1 + 1 * (i 1).val = (i 1).val; rw [(idx19 t).2]; omega

end Cert.Fm.Kernel

end
-- ==== Proof.KReadsD.lean ====
/-
  The grid's blocks read back, whole-array windows. A table's or a weight array's block index is (0, 0) at every point
  and its block is as large as the array: the block is the array the region finds.
  Last, the output window: its block index at point t is (t, 0).
-/
import proofs.«427521_j56710748176670_3_alg».proof.Proof.FrameKernelIdeal
import proofs.«427521_j56710748176670_3_alg».proof.Proof.Spec
import Idealize.ShloMosaic.Lib.Pipeline.Value
import Idealize.ShloMosaic.Lib.Tactic

noncomputable section

namespace Cert.Fm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Fm

variable (m : (ℓ : Loc nD τ sig) → Buf (Elt Ideal) ℓ) (ρ : Dev nD → PrngReg)

theorem idx20 : ∀ t : Fin grid0.N, win0_20.index t 0 = 0 ∧ win0_20.index t 1 = 0 :=
  (by decide +kernel : ∀ t : Fin grid0.N, _)

/-- Window 20's block at every point is its whole array. -/
theorem blk20 (c : Dev nD) (t : Fin cfg0.N) (i : S128x200.Idx) :
    (iblk m c 20 t : Vec Ideal S128x200 .f32) i = (V m c main_arg22 : S128x200.Idx → EReal) i := by
  unfold iblk
  rw [View.read_apply]
  show V m c main_arg22 _ = V m c main_arg22 _
  congr 1
  funext a
  apply Fin.ext
  match a with
  | ⟨0, _⟩ => show win0_20.index t 0 * 128 + 1 * (i 0).val = (i 0).val; rw [(idx20 t).1]; omega
  | ⟨1, _⟩ => show win0_20.index t 1 * 200 + 1 * (i 1).val = (i 1).val; rw [(idx20 t).2]; omega

theorem idx21 : ∀ t : Fin grid0.N, win0_21.index t 0 = 0 ∧ win0_21.index t 1 = 0 :=
  (by decide +kernel : ∀ t : Fin grid0.N, _)

/-- Window 21's block at every point is its whole array. -/
theorem blk21 (c : Dev nD) (t : Fin cfg0.N) (i : S1x128.Idx) :
    (iblk m c 21 t : Vec Ideal S1x128 .f32) i = (V m c main_v5 : S1x128.Idx → EReal) i := by
  unfold iblk
  rw [View.read_apply]
  show V m c main_v5 _ = V m c main_v5 _
  congr 1
  funext a
  apply Fin.ext
  match a with
  | ⟨0, _⟩ => show win0_21.index t 0 * 1 + 1 * (i 0).val = (i 0).val; rw [(idx21 t).1]; omega
  | ⟨1, _⟩ => show win0_21.index t 1 * 128 + 1 * (i 1).val = (i 1).val; rw [(idx21 t).2]; omega

theorem idx22 : ∀ t : Fin grid0.N, win0_22.index t 0 = 0 ∧ win0_22.index t 1 = 0 :=
  (by decide +kernel : ∀ t : Fin grid0.N, _)

/-- Window 22's block at every point is its whole array. -/
theorem blk22 (c : Dev nD) (t : Fin cfg0.N) (i : S64x128.Idx) :
    (iblk m c 22 t : Vec Ideal S64x128 .f32) i = (V m c main_arg24 : S64x128.Idx → EReal) i := by
  unfold iblk
  rw [View.read_apply]
  show V m c main_arg24 _ = V m c main_arg24 _
  congr 1
  funext a
  apply Fin.ext
  match a with
  | ⟨0, _⟩ => show win0_22.index t 0 * 64 + 1 * (i 0).val = (i 0).val; rw [(idx22 t).1]; omega
  | ⟨1, _⟩ => show win0_22.index t 1 * 128 + 1 * (i 1).val = (i 1).val; rw [(idx22 t).2]; omega

theorem idx23 : ∀ t : Fin grid0.N, win0_23.index t 0 = 0 ∧ win0_23.index t 1 = 0 :=
  (by decide +kernel : ∀ t : Fin grid0.N, _)

/-- Window 23's block at every point is its whole array. -/
theorem blk23 (c : Dev nD) (t : Fin cfg0.N) (i : S1x64.Idx) :
    (iblk m c 23 t : Vec Ideal S1x64 .f32) i = (V m c main_v6 : S1x64.Idx → EReal) i := by
  unfold iblk
  rw [View.read_apply]
  show V m c main_v6 _ = V m c main_v6 _
  congr 1
  funext a
  apply Fin.ext
  match a with
  | ⟨0, _⟩ => show win0_23.index t 0 * 1 + 1 * (i 0).val = (i 0).val; rw [(idx23 t).1]; omega
  | ⟨1, _⟩ => show win0_23.index t 1 * 64 + 1 * (i 1).val = (i 1).val; rw [(idx23 t).2]; omega

theorem idx24 : ∀ t : Fin grid0.N, win0_24.index t 0 = 0 ∧ win0_24.index t 1 = 0 :=
  (by decide +kernel : ∀ t : Fin grid0.N, _)

/-- Window 24's block at every point is its whole array. -/
theorem blk24 (c : Dev nD) (t : Fin cfg0.N) (i : S1x64.Idx) :
    (iblk m c 24 t : Vec Ideal S1x64 .f32) i = (V m c main_arg26 : S1x64.Idx → EReal) i := by
  unfold iblk
  rw [View.read_apply]
  show V m c main_arg26 _ = V m c main_arg26 _
  congr 1
  funext a
  apply Fin.ext
  match a with
  | ⟨0, _⟩ => show win0_24.index t 0 * 1 + 1 * (i 0).val = (i 0).val; rw [(idx24 t).1]; omega
  | ⟨1, _⟩ => show win0_24.index t 1 * 64 + 1 * (i 1).val = (i 1).val; rw [(idx24 t).2]; omega

theorem idx25 : ∀ t : Fin grid0.N, win0_25.index t 0 = 0 ∧ win0_25.index t 1 = 0 :=
  (by decide +kernel : ∀ t : Fin grid0.N, _)

/-- Window 25's block at every point is its whole array. -/
theorem blk25 (c : Dev nD) (t : Fin cfg0.N) (i : S1x1.Idx) :
    (iblk m c 25 t : Vec Ideal S1x1 .f32) i = (V m c main_v7 : S1x1.Idx → EReal) i := by
  unfold iblk
  rw [View.read_apply]
  show V m c main_v7 _ = V m c main_v7 _
  congr 1
  funext a
  apply Fin.ext
  match a with
  | ⟨0, _⟩ => show win0_25.index t 0 * 1 + 1 * (i 0).val = (i 0).val; rw [(idx25 t).1]; omega
  | ⟨1, _⟩ => show win0_25.index t 1 * 1 + 1 * (i 1).val = (i 1).val; rw [(idx25 t).2]; omega

theorem idx26 : ∀ t : Fin grid0.N, win0_26.index t 0 = t.val ∧ win0_26.index t 1 = 0 :=
  (by decide +kernel : ∀ t : Fin grid0.N, _)

end Cert.Fm.Kernel

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«427521_j56710748176670_3_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.KOneHot.lean ====
/-
  The kernel's table lookups. A row's index word w is compared with 0, 1, …, V − 1; the comparisons, as the numbers
  1 and 0, form a row with a single 1 at position w (when w < V). The product of that row with a V-row table is
  row w of the table: in Σ_v [w = v] · T(v, d) every term but the one at v = w vanishes.
-/
import proofs.«427521_j56710748176670_3_alg».proof.Proof.Gen.KernelIdeal.Skeleton
import proofs.«427521_j56710748176670_3_alg».proof.Proof.Spec
import proofs.«427521_j56710748176670_3_alg».proof.Proof.LibDenseForms
import proofs.«427521_j56710748176670_3_alg».proof.Proof.LibLayoutReads
import Idealize.ShloMosaic.Lib.StableHlo.Predicate

noncomputable section

namespace Cert.Fm.Kernel

open Idealize.ShloMosaic Idealize.ShloMosaic.ValueIdx Cert.KernelIdeal Cert.KernelIdeal.Gen Cert.Fm

/-! ## The pieces, read at an index -/

/-- A column broadcast across the row reads, at (p, q), the column's entry (p, 0). -/
private theorem broadcastTo_a1_ab_apply {α : Type} {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The row 0, 1, …, V − 1 reads, at (0, v), the word of v: the count along the one listed axis starts from 0 · V. -/
private theorem iota_row_apply {V : ℕ} (h : (⟨2, ![1, V]⟩ : Shape).Iotas .tc 32 [1]) (u : Fin 1) (v : Fin V) :
    iota .tc (⟨2, ![1, V]⟩ : Shape) 32 [1] h (ix2 u v) = BitVec.ofNat 32 v.val := by
  show BitVec.ofNat 32 (0 * V + v.val) = BitVec.ofNat 32 v.val
  rw [Nat.zero_mul, Nat.zero_add]

/-- The indicator of "row r's word is v" as the kernel builds it: the words as a column broadcast across the row,
    compared with the row 0 … V − 1 broadcast down the column; the bit widened to a word and read as a number.
    A word equals the word of v exactly when its value is v (v is below 2^32), the bit 1 widens to the word 1 and
    the bit 0 to the word 0, and those read signed are the numbers 1 and 0. -/
private theorem indicator_apply {m V : ℕ} (hV : V ≤ 2 ^ 32) (ids : IVec (⟨1, ![m]⟩ : Shape) 32)
    (hi : (⟨2, ![1, V]⟩ : Shape).Iotas .tc 32 [1]) (hc : (⟨1, ![m]⟩ : Shape).ShapeCasts ⟨2, ![m, 1]⟩)
    (hb : (⟨2, ![m, 1]⟩ : Shape).Broadcasts ⟨2, ![m, V]⟩) (hb' : (⟨2, ![1, V]⟩ : Shape).Broadcasts ⟨2, ![m, V]⟩)
    (h1 : 1 < 32) (r : Fin m) (v : Fin V) :
    (sitofp (F := Ideal) .f32 (extui 32 (cmpi .eq
        (broadcastTo (⟨2, ![m, V]⟩ : Shape) (shapeCast (⟨2, ![m, 1]⟩ : Shape) ids hc) hb)
        (broadcastTo (⟨2, ![m, V]⟩ : Shape) (iota .tc (⟨2, ![1, V]⟩ : Shape) 32 [1] hi) hb')) h1)) (ix2 r v)
      = if (ids (ix1 r)).toNat = v.val then (1 : EReal) else 0 := by
  have hcol : broadcastTo (⟨2, ![m, V]⟩ : Shape) (shapeCast (⟨2, ![m, 1]⟩ : Shape) ids hc) hb (ix2 r v) = ids (ix1 r) := by
    rw [broadcastTo_a1_ab_apply]
    exact Cert.Gcn.LayoutReads.shapeCast_a_a1_apply ids hc r 0
  have hrow : broadcastTo (⟨2, ![m, V]⟩ : Shape) (iota .tc (⟨2, ![1, V]⟩ : Shape) 32 [1] hi) hb' (ix2 r v)
      = BitVec.ofNat 32 v.val := by
    rw [broadcastTo_1b_ab_apply]
    exact iota_row_apply hi 0 v
  have hv : v.val < 2 ^ 32 := by have := v.isLt; omega
  show ((((IntOp.cmpi .eq
      (broadcastTo (⟨2, ![m, V]⟩ : Shape) (shapeCast (⟨2, ![m, 1]⟩ : Shape) ids hc) hb (ix2 r v))
      (broadcastTo (⟨2, ![m, V]⟩ : Shape) (iota .tc (⟨2, ![1, V]⟩ : Shape) 32 [1] hi) hb' (ix2 r v))).setWidth 32).toInt : ℝ) : EReal) = _
  rw [hcol, hrow]
  by_cases h : (ids (ix1 r)).toNat = v.val
  · have e : ids (ix1 r) = BitVec.ofNat 32 v.val := by
      apply BitVec.eq_of_toNat_eq
      rw [BitVec.toNat_ofNat, Nat.mod_eq_of_lt hv, h]
    have one : ((1#1 : BitVec 1).setWidth 32).toInt = 1 := by decide
    rw [if_pos h, StableHlo.Predicate.cmpi_eq_iff.mpr e, one]
    simp
  · have ne : ¬ ids (ix1 r) = BitVec.ofNat 32 v.val := fun e =>
      h (by rw [e, BitVec.toNat_ofNat, Nat.mod_eq_of_lt hv])
    have zero : ((0#1 : BitVec 1).setWidth 32).toInt = 0 := by decide
    rw [if_neg h, eq_zero_of_ne_one (mt StableHlo.Predicate.cmpi_eq_iff.mp ne), zero]
    simp

/-- The same when the words come as a column: the column read as a vector and made a column again is the column. -/
private theorem indicator_col_apply {m V : ℕ} (hV : V ≤ 2 ^ 32) (col : IVec (⟨2, ![m, 1]⟩ : Shape) 32)
    (hc' : (⟨2, ![m, 1]⟩ : Shape).ShapeCasts ⟨1, ![m]⟩)
    (hi : (⟨2, ![1, V]⟩ : Shape).Iotas .tc 32 [1]) (hc : (⟨1, ![m]⟩ : Shape).ShapeCasts ⟨2, ![m, 1]⟩)
    (hb : (⟨2, ![m, 1]⟩ : Shape).Broadcasts ⟨2, ![m, V]⟩) (hb' : (⟨2, ![1, V]⟩ : Shape).Broadcasts ⟨2, ![m, V]⟩)
    (h1 : 1 < 32) (r : Fin m) (v : Fin V) :
    (sitofp (F := Ideal) .f32 (extui 32 (cmpi .eq
        (broadcastTo (⟨2, ![m, V]⟩ : Shape)
          (shapeCast (⟨2, ![m, 1]⟩ : Shape) (shapeCast (⟨1, ![m]⟩ : Shape) col hc') hc) hb)
        (broadcastTo (⟨2, ![m, V]⟩ : Shape) (iota .tc (⟨2, ![1, V]⟩ : Shape) 32 [1] hi) hb')) h1)) (ix2 r v)
      = if (col (ix2 r (0 : Fin 1))).toNat = v.val then (1 : EReal) else 0 := by
  rw [indicator_apply hV (shapeCast (⟨1, ![m]⟩ : Shape) col hc') hi hc hb hb' h1 r v,
    Cert.Gcn.LayoutReads.shapeCast_ab_n_apply col hc' r r (0 : Fin 1) (by show r.val = r.val * 1 + 0; omega)]

/-- A row with a single 1, at position w, times a table is the table's row w: in Σ_v [w = v] · T(v, d) the term at
    v = w is 1 · T(w, d) and every other term is 0 · T(v, d) = 0. -/
private theorem lookup_apply {m V D : ℕ} (prec : Option ContractPrecision) (oh : Mat m V) (T : Mat V D)
    (w : BitVec 32) (r : Fin m) (d : Fin D) (hw : w.toNat < V)
    (hoh : ∀ v : Fin V, oh (ix2 r v) = if w.toNat = v.val then (1 : EReal) else 0) :
    matmul (DotDims.plain m V D) prec oh T (constant (F := Ideal) (⟨2, ![m, D]⟩ : Shape) .f32 0x00000000#32) (ix2 r d)
      = T (ix2 (⟨w.toNat, hw⟩ : Fin V) d) := by
  rw [DenseRows.matmul_plain_eq_mm, DenseRows.mm_apply, Finset.sum_eq_single (⟨w.toNat, hw⟩ : Fin V)]
  · rw [hoh, if_pos rfl, one_mul]
  · intro v _ hv
    rw [hoh, if_neg (fun e => hv (Fin.ext e.symm)), zero_mul]
  · intro h
    exact absurd (Finset.mem_univ _) h

/-! ## The indicator rows -/

theorem onehot_pay2 (v0 : Vec Ideal S2048 .i32) (r : Fin 2048) (v : Fin 2) :
    k0_pay2 (F := Ideal) v0 (ix2 r v) = if (v0 (ix1 r)).toNat = v.val then (1 : EReal) else 0 :=
  indicator_apply (by norm_num) v0 iota_S1x2_d1_w32 shapeCasts_S2048_S2048x1 broadcasts_S2048x1_S2048x2
    broadcasts_S1x2_S2048x2 natLt_1_32 r v

theorem onehot_pay5 (v12 : Vec Ideal S2048 .i32) (r : Fin 2048) (v : Fin 7) :
    k0_pay5 (F := Ideal) v12 (ix2 r v) = if (v12 (ix1 r)).toNat = v.val then (1 : EReal) else 0 :=
  indicator_apply (by norm_num) v12 iota_S1x7_d1_w32 shapeCasts_S2048_S2048x1 broadcasts_S2048x1_S2048x7
    broadcasts_S1x7_S2048x7 natLt_1_32 r v

theorem onehot_pay8 (v24 : Vec Ideal S2048 .i32) (r : Fin 2048) (v : Fin 21) :
    k0_pay8 (F := Ideal) v24 (ix2 r v) = if (v24 (ix1 r)).toNat = v.val then (1 : EReal) else 0 :=
  indicator_apply (by norm_num) v24 iota_S1x21_d1_w32 shapeCasts_S2048_S2048x1 broadcasts_S2048x1_S2048x21
    broadcasts_S1x21_S2048x21 natLt_1_32 r v

theorem onehot_pay12 (v41 : Vec Ideal S2048x1 .i32) (r : Fin 2048) (v : Fin 19) :
    k0_pay12 (F := Ideal) v41 (ix2 r v) = if (v41 (ix2 r (0 : Fin 1))).toNat = v.val then (1 : EReal) else 0 :=
  indicator_col_apply (by norm_num) v41 shapeCasts_S2048x1_S2048 iota_S1x19_d1_w32 shapeCasts_S2048_S2048x1
    broadcasts_S2048x1_S2048x19 broadcasts_S1x19_S2048x19 natLt_1_32 r v

theorem onehot_pay13 (v59 : Vec Ideal S2048x1 .i32) (r : Fin 2048) (v : Fin 19) :
    k0_pay13 (F := Ideal) v59 (ix2 r v) = if (v59 (ix2 r (0 : Fin 1))).toNat = v.val then (1 : EReal) else 0 :=
  indicator_col_apply (by norm_num) v59 shapeCasts_S2048x1_S2048 iota_S1x19_d1_w32 shapeCasts_S2048_S2048x1
    broadcasts_S2048x1_S2048x19 broadcasts_S1x19_S2048x19 natLt_1_32 r v

theorem onehot_pay17 (v77 : Vec Ideal S2048x1 .i32) (r : Fin 2048) (v : Fin 19) :
    k0_pay17 (F := Ideal) v77 (ix2 r v) = if (v77 (ix2 r (0 : Fin 1))).toNat = v.val then (1 : EReal) else 0 :=
  indicator_col_apply (by norm_num) v77 shapeCasts_S2048x1_S2048 iota_S1x19_d1_w32 shapeCasts_S2048_S2048x1
    broadcasts_S2048x1_S2048x19 broadcasts_S1x19_S2048x19 natLt_1_32 r v

theorem onehot_pay18 (v95 : Vec Ideal S2048x1 .i32) (r : Fin 2048) (v : Fin 19) :
    k0_pay18 (F := Ideal) v95 (ix2 r v) = if (v95 (ix2 r (0 : Fin 1))).toNat = v.val then (1 : EReal) else 0 :=
  indicator_col_apply (by norm_num) v95 shapeCasts_S2048x1_S2048 iota_S1x19_d1_w32 shapeCasts_S2048_S2048x1
    broadcasts_S2048x1_S2048x19 broadcasts_S1x19_S2048x19 natLt_1_32 r v

theorem onehot_pay22 (v113 : Vec Ideal S2048x1 .i32) (r : Fin 2048) (v : Fin 19) :
    k0_pay22 (F := Ideal) v113 (ix2 r v) = if (v113 (ix2 r (0 : Fin 1))).toNat = v.val then (1 : EReal) else 0 :=
  indicator_col_apply (by norm_num) v113 shapeCasts_S2048x1_S2048 iota_S1x19_d1_w32 shapeCasts_S2048_S2048x1
    broadcasts_S2048x1_S2048x19 broadcasts_S1x19_S2048x19 natLt_1_32 r v

theorem onehot_pay23 (v131 : Vec Ideal S2048x1 .i32) (r : Fin 2048) (v : Fin 19) :
    k0_pay23 (F := Ideal) v131 (ix2 r v) = if (v131 (ix2 r (0 : Fin 1))).toNat = v.val then (1 : EReal) else 0 :=
  indicator_col_apply (by norm_num) v131 shapeCasts_S2048x1_S2048 iota_S1x19_d1_w32 shapeCasts_S2048_S2048x1
    broadcasts_S2048x1_S2048x19 broadcasts_S1x19_S2048x19 natLt_1_32 r v

/-! ## The looked-up rows of the small tables -/

theorem pay3_apply (v0 : Vec Ideal S2048 .i32) (v8 : Vec Ideal S2x32 .f32) (r : Fin 2048) (d : Fin 32)
    (h : (v0 (ix1 r)).toNat < 2) :
    k0_pay3 (F := Ideal) v0 v8 (ix2 r d) = v8 (ix2 (rowOf 2 (by norm_num) (v0 (ix1 r))) d) := by
  rw [rowOf_of_lt 2 (by norm_num) (by norm_num) _ h]
  exact lookup_apply (some .fp32) (k0_pay2 (F := Ideal) v0) v8 (v0 (ix1 r)) r d h (onehot_pay2 v0 r)

theorem pay4_apply (v0 : Vec Ideal S2048 .i32) (v10 : Vec Ideal S2x1 .f32) (r : Fin 2048)
    (h : (v0 (ix1 r)).toNat < 2) :
    k0_pay4 (F := Ideal) v0 v10 (ix2 r (0 : Fin 1)) = v10 (ix2 (rowOf 2 (by norm_num) (v0 (ix1 r))) (0 : Fin 1)) := by
  rw [rowOf_of_lt 2 (by norm_num) (by norm_num) _ h]
  exact lookup_apply (some .fp32) (k0_pay2 (F := Ideal) v0) v10 (v0 (ix1 r)) r 0 h (onehot_pay2 v0 r)

theorem pay6_apply (v12 : Vec Ideal S2048 .i32) (v20 : Vec Ideal S7x32 .f32) (r : Fin 2048) (d : Fin 32)
    (h : (v12 (ix1 r)).toNat < 7) :
    k0_pay6 (F := Ideal) v12 v20 (ix2 r d) = v20 (ix2 (rowOf 7 (by norm_num) (v12 (ix1 r))) d) := by
  rw [rowOf_of_lt 7 (by norm_num) (by norm_num) _ h]
  exact lookup_apply (some .fp32) (k0_pay5 (F := Ideal) v12) v20 (v12 (ix1 r)) r d h (onehot_pay5 v12 r)

theorem pay7_apply (v12 : Vec Ideal S2048 .i32) (v22 : Vec Ideal S7x1 .f32) (r : Fin 2048)
    (h : (v12 (ix1 r)).toNat < 7) :
    k0_pay7 (F := Ideal) v12 v22 (ix2 r (0 : Fin 1)) = v22 (ix2 (rowOf 7 (by norm_num) (v12 (ix1 r))) (0 : Fin 1)) := by
  rw [rowOf_of_lt 7 (by norm_num) (by norm_num) _ h]
  exact lookup_apply (some .fp32) (k0_pay5 (F := Ideal) v12) v22 (v12 (ix1 r)) r 0 h (onehot_pay5 v12 r)

theorem pay9_apply (v24 : Vec Ideal S2048 .i32) (v32 : Vec Ideal S21x32 .f32) (r : Fin 2048) (d : Fin 32)
    (h : (v24 (ix1 r)).toNat < 21) :
    k0_pay9 (F := Ideal) v24 v32 (ix2 r d) = v32 (ix2 (rowOf 21 (by norm_num) (v24 (ix1 r))) d) := by
  rw [rowOf_of_lt 21 (by norm_num) (by norm_num) _ h]
  exact lookup_apply (some .fp32) (k0_pay8 (F := Ideal) v24) v32 (v24 (ix1 r)) r d h (onehot_pay8 v24 r)

theorem pay10_apply (v24 : Vec Ideal S2048 .i32) (v34 : Vec Ideal S21x1 .f32) (r : Fin 2048)
    (h : (v24 (ix1 r)).toNat < 21) :
    k0_pay10 (F := Ideal) v24 v34 (ix2 r (0 : Fin 1)) = v34 (ix2 (rowOf 21 (by norm_num) (v24 (ix1 r))) (0 : Fin 1)) := by
  rw [rowOf_of_lt 21 (by norm_num) (by norm_num) _ h]
  exact lookup_apply (some .fp32) (k0_pay8 (F := Ideal) v24) v34 (v24 (ix1 r)) r 0 h (onehot_pay8 v24 r)

/-! ## A genre row from an indicator row -/

theorem genreEmb_apply (oh : FVec Ideal S2048x19 .f32) (T : FVec Ideal S19x32 .f32) (w : BitVec 32) (r : Fin 2048) (d : Fin 32)
    (hw : w.toNat < 19) (hoh : ∀ v : Fin 19, oh (ix2 r v) = if w.toNat = v.val then (1 : EReal) else 0) :
    matmul dot_S2048x19_S19x32_S2048x32_1_0_0_1_n_n (some .fp32) oh T (constant (F := Ideal) S2048x32 .f32 0x00000000#32) (ix2 r d)
      = T (ix2 (rowOf 19 (by norm_num) w) d) := by
  rw [rowOf_of_lt 19 (by norm_num) (by norm_num) w hw]
  exact lookup_apply (some .fp32) oh T w r d hw hoh

theorem genreFo_apply (oh : FVec Ideal S2048x19 .f32) (T : FVec Ideal S19x1 .f32) (w : BitVec 32) (r : Fin 2048)
    (hw : w.toNat < 19) (hoh : ∀ v : Fin 19, oh (ix2 r v) = if w.toNat = v.val then (1 : EReal) else 0) :
    matmul dot_S2048x19_S19x1_S2048x1_1_0_0_1_n_n (some .fp32) oh T (constant (F := Ideal) S2048x1 .f32 0x00000000#32) (ix2 r (0 : Fin 1))
      = T (ix2 (rowOf 19 (by norm_num) w) (0 : Fin 1)) := by
  rw [rowOf_of_lt 19 (by norm_num) (by norm_num) w hw]
  exact lookup_apply (some .fp32) oh T w r 0 hw hoh

end Cert.Fm.Kernel

end
-- ==== Proof.KPool.lean ====
/-
  The kernel's masked mean over a row's six genre slots. The kernel adds the six products (looked-up genre row) ·
  (mask entry) one after the other onto a zero, adds the six mask entries likewise, and divides the first sum by the
  larger of 1 and the second. A sum built by adding six terms one by one onto zero is the sum over the six slots.
-/
import proofs.«427521_j56710748176670_3_alg».proof.Proof.Gen.KernelIdeal.Skeleton
import proofs.«427521_j56710748176670_3_alg».proof.Proof.Spec
import proofs.«427521_j56710748176670_3_alg».proof.Proof.KOneHot
import Idealize.ShloMosaic.Lib.ValueLayout
import Idealize.ShloMosaic.PureOps.Ideal.Laws

noncomputable section

namespace Cert.Fm.Kernel

open Idealize.ShloMosaic Idealize.ShloMosaic.ValueIdx Cert.KernelIdeal Cert.KernelIdeal.Gen Cert.Fm

/-- A column broadcast along its row reads, at (p, c), the column's entry p. -/
private theorem bcol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word 0x3F800000 denotes the number one. -/
private theorem one_bits : Ideal.ofBits .f32 0x3F800000#32 = 1 := by
  simp [Ideal.ofBits, Ideal.ieee, -EReal.coe_mul]; norm_num

/-- The zero splat the sums start from is 0 at every index. -/
private theorem pay11_apply (r : Fin 2048) (d : Fin 32) : k0_pay11 (F := Ideal) (ix2 r d) = 0 := by
  show Ideal.ofBits .f32 0x00000000#32 = 0
  exact Ideal.ofBits_zero_f32

/-! ### The divisor, level by level -/

/-- Slots 0 and 1 of the mask sum. -/
private theorem pay16_apply (m0 m1 : Vec Ideal S2048x1 .f32) (r : Fin 2048) :
    k0_pay16 (F := Ideal) m0 m1 (ix2 r (0 : Fin 1)) = m0 (ix2 r (0 : Fin 1)) + m1 (ix2 r (0 : Fin 1)) := by
  show Ideal.ofBits .f32 0x00000000#32 + m0 (ix2 r (0 : Fin 1)) + m1 (ix2 r (0 : Fin 1)) = _
  rw [Ideal.ofBits_zero_f32, zero_add]

/-- Two more slots added onto a running mask sum. -/
private theorem pay21_apply (c : FVec Ideal S2048x1 .f32) (m2 m3 : Vec Ideal S2048x1 .f32) (r : Fin 2048) :
    k0_pay21 (F := Ideal) c m2 m3 (ix2 r (0 : Fin 1)) = c (ix2 r (0 : Fin 1)) + m2 (ix2 r (0 : Fin 1)) + m3 (ix2 r (0 : Fin 1)) := rfl

/-- The last two slots, then the larger of 1 and the sum. -/
private theorem pay24_apply (c : FVec Ideal S2048x1 .f32) (m4 m5 : Vec Ideal S2048x1 .f32) (r : Fin 2048) :
    k0_pay24 (F := Ideal) c m4 m5 (ix2 r (0 : Fin 1)) = max 1 (c (ix2 r (0 : Fin 1)) + m4 (ix2 r (0 : Fin 1)) + m5 (ix2 r (0 : Fin 1))) := by
  show max (Ideal.ofBits .f32 0x3F800000#32) (c (ix2 r (0 : Fin 1)) + m4 (ix2 r (0 : Fin 1)) + m5 (ix2 r (0 : Fin 1))) = _
  rw [one_bits]

/-- The divisor: the larger of 1 and the sum of the row's six mask entries. -/
theorem maskSum_apply (m0 : Vec Ideal S2048x1 .f32) (m1 : Vec Ideal S2048x1 .f32) (m2 : Vec Ideal S2048x1 .f32) (m3 : Vec Ideal S2048x1 .f32) (m4 : Vec Ideal S2048x1 .f32) (m5 : Vec Ideal S2048x1 .f32) (r : Fin 2048) :
    k0_pay24 (F := Ideal) (k0_pay21 (k0_pay16 m0 m1) m2 m3) m4 m5 (ix2 r (0 : Fin 1))
      = max 1 (∑ g : Fin 6, (![m0 (ix2 r (0 : Fin 1)), m1 (ix2 r (0 : Fin 1)), m2 (ix2 r (0 : Fin 1)), m3 (ix2 r (0 : Fin 1)), m4 (ix2 r (0 : Fin 1)), m5 (ix2 r (0 : Fin 1))] : Fin 6 → EReal) g) := by
  rw [pay24_apply, pay21_apply, pay16_apply, Fin.sum_univ_six]
  rfl

/-! ### The embedding sum, level by level -/

/-- Slots 0 and 1: each adds (the table row its index word selects)(d) · (its mask entry) onto the running sum. -/
private theorem pay14_apply (acc : FVec Ideal S2048x32 .f32) (T : Vec Ideal S19x32 .f32)
    (i0 : Vec Ideal S2048x1 .i32) (m0 : Vec Ideal S2048x1 .f32) (i1 : Vec Ideal S2048x1 .i32) (m1 : Vec Ideal S2048x1 .f32)
    (r : Fin 2048) (d : Fin 32) (h0 : (i0 (ix2 r (0 : Fin 1))).toNat < 19) (h1 : (i1 (ix2 r (0 : Fin 1))).toNat < 19) :
    k0_pay14 (F := Ideal) acc T i0 m0 i1 m1 (ix2 r d)
      = acc (ix2 r d) + T (ix2 (rowOf 19 (by norm_num) (i0 (ix2 r (0 : Fin 1)))) d) * m0 (ix2 r (0 : Fin 1)) + T (ix2 (rowOf 19 (by norm_num) (i1 (ix2 r (0 : Fin 1)))) d) * m1 (ix2 r (0 : Fin 1)) := by
  show acc (ix2 r d) + matmul dot_S2048x19_S19x32_S2048x32_1_0_0_1_n_n (some .fp32) (k0_pay12 i0) T (constant (F := Ideal) S2048x32 .f32 0x00000000#32) (ix2 r d) * broadcastTo S2048x32 m0 broadcasts_S2048x1_S2048x32 (ix2 r d)
      + matmul dot_S2048x19_S19x32_S2048x32_1_0_0_1_n_n (some .fp32) (k0_pay13 i1) T (constant (F := Ideal) S2048x32 .f32 0x00000000#32) (ix2 r d) * broadcastTo S2048x32 m1 broadcasts_S2048x1_S2048x32 (ix2 r d) = _
  rw [genreEmb_apply (k0_pay12 i0) T (i0 (ix2 r (0 : Fin 1))) r d h0 (onehot_pay12 i0 r),
    genreEmb_apply (k0_pay13 i1) T (i1 (ix2 r (0 : Fin 1))) r d h1 (onehot_pay13 i1 r),
    bcol_apply m0, bcol_apply m1]

/-- Slots 2 and 3 likewise. -/
private theorem pay19_apply (T : Vec Ideal S19x32 .f32) (acc : FVec Ideal S2048x32 .f32)
    (i2 : Vec Ideal S2048x1 .i32) (m2 : Vec Ideal S2048x1 .f32) (i3 : Vec Ideal S2048x1 .i32) (m3 : Vec Ideal S2048x1 .f32)
    (r : Fin 2048) (d : Fin 32) (h2 : (i2 (ix2 r (0 : Fin 1))).toNat < 19) (h3 : (i3 (ix2 r (0 : Fin 1))).toNat < 19) :
    k0_pay19 (F := Ideal) T acc i2 m2 i3 m3 (ix2 r d)
      = acc (ix2 r d) + T (ix2 (rowOf 19 (by norm_num) (i2 (ix2 r (0 : Fin 1)))) d) * m2 (ix2 r (0 : Fin 1)) + T (ix2 (rowOf 19 (by norm_num) (i3 (ix2 r (0 : Fin 1)))) d) * m3 (ix2 r (0 : Fin 1)) := by
  show acc (ix2 r d) + matmul dot_S2048x19_S19x32_S2048x32_1_0_0_1_n_n (some .fp32) (k0_pay17 i2) T (constant (F := Ideal) S2048x32 .f32 0x00000000#32) (ix2 r d) * broadcastTo S2048x32 m2 broadcasts_S2048x1_S2048x32 (ix2 r d)
      + matmul dot_S2048x19_S19x32_S2048x32_1_0_0_1_n_n (some .fp32) (k0_pay18 i3) T (constant (F := Ideal) S2048x32 .f32 0x00000000#32) (ix2 r d) * broadcastTo S2048x32 m3 broadcasts_S2048x1_S2048x32 (ix2 r d) = _
  rw [genreEmb_apply (k0_pay17 i2) T (i2 (ix2 r (0 : Fin 1))) r d h2 (onehot_pay17 i2 r),
    genreEmb_apply (k0_pay18 i3) T (i3 (ix2 r (0 : Fin 1))) r d h3 (onehot_pay18 i3 r),
    bcol_apply m2, bcol_apply m3]

/-- Slots 4 and 5, then the division by the divisor of the row. -/
private theorem pay25_apply (T : Vec Ideal S19x32 .f32) (acc : FVec Ideal S2048x32 .f32) (c : FVec Ideal S2048x1 .f32)
    (m4 : Vec Ideal S2048x1 .f32) (i4 : Vec Ideal S2048x1 .i32) (i5 : Vec Ideal S2048x1 .i32) (m5 : Vec Ideal S2048x1 .f32)
    (r : Fin 2048) (d : Fin 32) (h4 : (i4 (ix2 r (0 : Fin 1))).toNat < 19) (h5 : (i5 (ix2 r (0 : Fin 1))).toNat < 19) :
    k0_pay25 (F := Ideal) T acc c m4 (k0_pay22 i4) i5 m5 (ix2 r d)
      = Ideal.div (acc (ix2 r d) + T (ix2 (rowOf 19 (by norm_num) (i4 (ix2 r (0 : Fin 1)))) d) * m4 (ix2 r (0 : Fin 1)) + T (ix2 (rowOf 19 (by norm_num) (i5 (ix2 r (0 : Fin 1)))) d) * m5 (ix2 r (0 : Fin 1)))
          (k0_pay24 c m4 m5 (ix2 r (0 : Fin 1))) := by
  show Ideal.div (acc (ix2 r d) + matmul dot_S2048x19_S19x32_S2048x32_1_0_0_1_n_n (some .fp32) (k0_pay22 i4) T (constant (F := Ideal) S2048x32 .f32 0x00000000#32) (ix2 r d) * broadcastTo S2048x32 m4 broadcasts_S2048x1_S2048x32 (ix2 r d)
      + matmul dot_S2048x19_S19x32_S2048x32_1_0_0_1_n_n (some .fp32) (k0_pay23 i5) T (constant (F := Ideal) S2048x32 .f32 0x00000000#32) (ix2 r d) * broadcastTo S2048x32 m5 broadcasts_S2048x1_S2048x32 (ix2 r d))
      (broadcastTo S2048x32 (k0_pay24 c m4 m5) broadcasts_S2048x1_S2048x32 (ix2 r d)) = _
  rw [genreEmb_apply (k0_pay22 i4) T (i4 (ix2 r (0 : Fin 1))) r d h4 (onehot_pay22 i4 r),
    genreEmb_apply (k0_pay23 i5) T (i5 (ix2 r (0 : Fin 1))) r d h5 (onehot_pay23 i5 r),
    bcol_apply m4, bcol_apply m5, bcol_apply (k0_pay24 c m4 m5)]

/-- The pooled genre embedding of a row, at column d. -/
theorem pooledEmb_apply (T : Vec Ideal S19x32 .f32) (i0 : Vec Ideal S2048x1 .i32) (i1 : Vec Ideal S2048x1 .i32) (i2 : Vec Ideal S2048x1 .i32) (i3 : Vec Ideal S2048x1 .i32) (i4 : Vec Ideal S2048x1 .i32) (i5 : Vec Ideal S2048x1 .i32)
    (m0 : Vec Ideal S2048x1 .f32) (m1 : Vec Ideal S2048x1 .f32) (m2 : Vec Ideal S2048x1 .f32) (m3 : Vec Ideal S2048x1 .f32) (m4 : Vec Ideal S2048x1 .f32) (m5 : Vec Ideal S2048x1 .f32) (r : Fin 2048) (d : Fin 32)
    (hi : ∀ g : Fin 6, ((![i0 (ix2 r (0 : Fin 1)), i1 (ix2 r (0 : Fin 1)), i2 (ix2 r (0 : Fin 1)), i3 (ix2 r (0 : Fin 1)), i4 (ix2 r (0 : Fin 1)), i5 (ix2 r (0 : Fin 1))] : Fin 6 → BitVec 32) g).toNat < 19) :
    k0_pay25 (F := Ideal) T (k0_pay19 T (k0_pay14 (k0_pay11 (F := Ideal)) T i0 m0 i1 m1) i2 m2 i3 m3)
        (k0_pay21 (k0_pay16 m0 m1) m2 m3) m4 (k0_pay22 i4) i5 m5 (ix2 r d)
      = pool (fun g => T (ix2 (rowOf 19 (by norm_num) ((![i0 (ix2 r (0 : Fin 1)), i1 (ix2 r (0 : Fin 1)), i2 (ix2 r (0 : Fin 1)), i3 (ix2 r (0 : Fin 1)), i4 (ix2 r (0 : Fin 1)), i5 (ix2 r (0 : Fin 1))] : Fin 6 → BitVec 32) g)) d))
          (![m0 (ix2 r (0 : Fin 1)), m1 (ix2 r (0 : Fin 1)), m2 (ix2 r (0 : Fin 1)), m3 (ix2 r (0 : Fin 1)), m4 (ix2 r (0 : Fin 1)), m5 (ix2 r (0 : Fin 1))] : Fin 6 → EReal) := by
  have h0 : (i0 (ix2 r (0 : Fin 1))).toNat < 19 := hi 0
  have h1 : (i1 (ix2 r (0 : Fin 1))).toNat < 19 := hi 1
  have h2 : (i2 (ix2 r (0 : Fin 1))).toNat < 19 := hi 2
  have h3 : (i3 (ix2 r (0 : Fin 1))).toNat < 19 := hi 3
  have h4 : (i4 (ix2 r (0 : Fin 1))).toNat < 19 := hi 4
  have h5 : (i5 (ix2 r (0 : Fin 1))).toNat < 19 := hi 5
  rw [pay25_apply T _ _ m4 i4 i5 m5 r d h4 h5, pay19_apply T _ i2 m2 i3 m3 r d h2 h3,
    pay14_apply _ T i0 m0 i1 m1 r d h0 h1, pay11_apply, zero_add, maskSum_apply]
  unfold pool
  simp only [Fin.sum_univ_six]
  rfl

/-! ### The first-order sum, level by level -/

/-- Slots 0 and 1 of the first-order sum, onto a zero. -/
private theorem pay15_apply (T : Vec Ideal S19x1 .f32)
    (i0 : Vec Ideal S2048x1 .i32) (m0 : Vec Ideal S2048x1 .f32) (i1 : Vec Ideal S2048x1 .i32) (m1 : Vec Ideal S2048x1 .f32)
    (r : Fin 2048) (h0 : (i0 (ix2 r (0 : Fin 1))).toNat < 19) (h1 : (i1 (ix2 r (0 : Fin 1))).toNat < 19) :
    k0_pay15 (F := Ideal) T i0 m0 i1 m1 (ix2 r (0 : Fin 1))
      = T (ix2 (rowOf 19 (by norm_num) (i0 (ix2 r (0 : Fin 1)))) (0 : Fin 1)) * m0 (ix2 r (0 : Fin 1)) + T (ix2 (rowOf 19 (by norm_num) (i1 (ix2 r (0 : Fin 1)))) (0 : Fin 1)) * m1 (ix2 r (0 : Fin 1)) := by
  show Ideal.ofBits .f32 0x00000000#32 + matmul dot_S2048x19_S19x1_S2048x1_1_0_0_1_n_n (some .fp32) (k0_pay12 i0) T (constant (F := Ideal) S2048x1 .f32 0x00000000#32) (ix2 r (0 : Fin 1)) * m0 (ix2 r (0 : Fin 1))
      + matmul dot_S2048x19_S19x1_S2048x1_1_0_0_1_n_n (some .fp32) (k0_pay13 i1) T (constant (F := Ideal) S2048x1 .f32 0x00000000#32) (ix2 r (0 : Fin 1)) * m1 (ix2 r (0 : Fin 1)) = _
  rw [genreFo_apply (k0_pay12 i0) T (i0 (ix2 r (0 : Fin 1))) r h0 (onehot_pay12 i0 r),
    genreFo_apply (k0_pay13 i1) T (i1 (ix2 r (0 : Fin 1))) r h1 (onehot_pay13 i1 r),
    Ideal.ofBits_zero_f32, zero_add]

/-- Slots 2 and 3 added onto a running first-order sum. -/
private theorem pay20_apply (T : Vec Ideal S19x1 .f32) (acc : FVec Ideal S2048x1 .f32)
    (i2 : Vec Ideal S2048x1 .i32) (m2 : Vec Ideal S2048x1 .f32) (i3 : Vec Ideal S2048x1 .i32) (m3 : Vec Ideal S2048x1 .f32)
    (r : Fin 2048) (h2 : (i2 (ix2 r (0 : Fin 1))).toNat < 19) (h3 : (i3 (ix2 r (0 : Fin 1))).toNat < 19) :
    k0_pay20 (F := Ideal) T acc i2 m2 i3 m3 (ix2 r (0 : Fin 1))
      = acc (ix2 r (0 : Fin 1)) + T (ix2 (rowOf 19 (by norm_num) (i2 (ix2 r (0 : Fin 1)))) (0 : Fin 1)) * m2 (ix2 r (0 : Fin 1)) + T (ix2 (rowOf 19 (by norm_num) (i3 (ix2 r (0 : Fin 1)))) (0 : Fin 1)) * m3 (ix2 r (0 : Fin 1)) := by
  show acc (ix2 r (0 : Fin 1)) + matmul dot_S2048x19_S19x1_S2048x1_1_0_0_1_n_n (some .fp32) (k0_pay17 i2) T (constant (F := Ideal) S2048x1 .f32 0x00000000#32) (ix2 r (0 : Fin 1)) * m2 (ix2 r (0 : Fin 1))
      + matmul dot_S2048x19_S19x1_S2048x1_1_0_0_1_n_n (some .fp32) (k0_pay18 i3) T (constant (F := Ideal) S2048x1 .f32 0x00000000#32) (ix2 r (0 : Fin 1)) * m3 (ix2 r (0 : Fin 1)) = _
  rw [genreFo_apply (k0_pay17 i2) T (i2 (ix2 r (0 : Fin 1))) r h2 (onehot_pay17 i2 r),
    genreFo_apply (k0_pay18 i3) T (i3 (ix2 r (0 : Fin 1))) r h3 (onehot_pay18 i3 r)]

/-- Slots 4 and 5, then the division by the divisor of the row. -/
private theorem pay26_apply (T : Vec Ideal S19x1 .f32) (acc : FVec Ideal S2048x1 .f32) (c : FVec Ideal S2048x1 .f32)
    (m4 : Vec Ideal S2048x1 .f32) (i4 : Vec Ideal S2048x1 .i32) (i5 : Vec Ideal S2048x1 .i32) (m5 : Vec Ideal S2048x1 .f32)
    (r : Fin 2048) (h4 : (i4 (ix2 r (0 : Fin 1))).toNat < 19) (h5 : (i5 (ix2 r (0 : Fin 1))).toNat < 19) :
    k0_pay26 (F := Ideal) T acc c m4 (k0_pay22 i4) i5 m5 (ix2 r (0 : Fin 1))
      = Ideal.div (acc (ix2 r (0 : Fin 1)) + T (ix2 (rowOf 19 (by norm_num) (i4 (ix2 r (0 : Fin 1)))) (0 : Fin 1)) * m4 (ix2 r (0 : Fin 1)) + T (ix2 (rowOf 19 (by norm_num) (i5 (ix2 r (0 : Fin 1)))) (0 : Fin 1)) * m5 (ix2 r (0 : Fin 1)))
          (k0_pay24 c m4 m5 (ix2 r (0 : Fin 1))) := by
  show Ideal.div (acc (ix2 r (0 : Fin 1)) + matmul dot_S2048x19_S19x1_S2048x1_1_0_0_1_n_n (some .fp32) (k0_pay22 i4) T (constant (F := Ideal) S2048x1 .f32 0x00000000#32) (ix2 r (0 : Fin 1)) * m4 (ix2 r (0 : Fin 1))
      + matmul dot_S2048x19_S19x1_S2048x1_1_0_0_1_n_n (some .fp32) (k0_pay23 i5) T (constant (F := Ideal) S2048x1 .f32 0x00000000#32) (ix2 r (0 : Fin 1)) * m5 (ix2 r (0 : Fin 1)))
      (k0_pay24 c m4 m5 (ix2 r (0 : Fin 1))) = _
  rw [genreFo_apply (k0_pay22 i4) T (i4 (ix2 r (0 : Fin 1))) r h4 (onehot_pay22 i4 r),
    genreFo_apply (k0_pay23 i5) T (i5 (ix2 r (0 : Fin 1))) r h5 (onehot_pay23 i5 r)]

/-- The pooled first-order genre term of a row. -/
theorem pooledFo_apply (T : Vec Ideal S19x1 .f32) (i0 : Vec Ideal S2048x1 .i32) (i1 : Vec Ideal S2048x1 .i32) (i2 : Vec Ideal S2048x1 .i32) (i3 : Vec Ideal S2048x1 .i32) (i4 : Vec Ideal S2048x1 .i32) (i5 : Vec Ideal S2048x1 .i32)
    (m0 : Vec Ideal S2048x1 .f32) (m1 : Vec Ideal S2048x1 .f32) (m2 : Vec Ideal S2048x1 .f32) (m3 : Vec Ideal S2048x1 .f32) (m4 : Vec Ideal S2048x1 .f32) (m5 : Vec Ideal S2048x1 .f32) (r : Fin 2048)
    (hi : ∀ g : Fin 6, ((![i0 (ix2 r (0 : Fin 1)), i1 (ix2 r (0 : Fin 1)), i2 (ix2 r (0 : Fin 1)), i3 (ix2 r (0 : Fin 1)), i4 (ix2 r (0 : Fin 1)), i5 (ix2 r (0 : Fin 1))] : Fin 6 → BitVec 32) g).toNat < 19) :
    k0_pay26 (F := Ideal) T (k0_pay20 T (k0_pay15 T i0 m0 i1 m1) i2 m2 i3 m3)
        (k0_pay21 (k0_pay16 m0 m1) m2 m3) m4 (k0_pay22 i4) i5 m5 (ix2 r (0 : Fin 1))
      = pool (fun g => T (ix2 (rowOf 19 (by norm_num) ((![i0 (ix2 r (0 : Fin 1)), i1 (ix2 r (0 : Fin 1)), i2 (ix2 r (0 : Fin 1)), i3 (ix2 r (0 : Fin 1)), i4 (ix2 r (0 : Fin 1)), i5 (ix2 r (0 : Fin 1))] : Fin 6 → BitVec 32) g)) (0 : Fin 1)))
          (![m0 (ix2 r (0 : Fin 1)), m1 (ix2 r (0 : Fin 1)), m2 (ix2 r (0 : Fin 1)), m3 (ix2 r (0 : Fin 1)), m4 (ix2 r (0 : Fin 1)), m5 (ix2 r (0 : Fin 1))] : Fin 6 → EReal) := by
  have h0 : (i0 (ix2 r (0 : Fin 1))).toNat < 19 := hi 0
  have h1 : (i1 (ix2 r (0 : Fin 1))).toNat < 19 := hi 1
  have h2 : (i2 (ix2 r (0 : Fin 1))).toNat < 19 := hi 2
  have h3 : (i3 (ix2 r (0 : Fin 1))).toNat < 19 := hi 3
  have h4 : (i4 (ix2 r (0 : Fin 1))).toNat < 19 := hi 4
  have h5 : (i5 (ix2 r (0 : Fin 1))).toNat < 19 := hi 5
  rw [pay26_apply T _ _ m4 i4 i5 m5 r h4 h5, pay20_apply T _ i2 m2 i3 m3 r h2 h3,
    pay15_apply T i0 m0 i1 m1 r h0 h1, maskSum_apply]
  unfold pool
  simp only [Fin.sum_univ_six]
  rfl

end Cert.Fm.Kernel

end
-- ==== Proof.KRow.lean ====
/-
  The kernel's first-order sum and pairwise-interaction term of a row, from the row's entries of the vectors they are
  computed from. The dense features enter through a lane sum of products; the six first-order terms and the six
  embeddings are added one after the other, which is their sum over the six fields.
-/
import proofs.«427521_j56710748176670_3_alg».proof.Proof.Gen.KernelIdeal.Skeleton
import proofs.«427521_j56710748176670_3_alg».proof.Proof.Spec
import proofs.«427521_j56710748176670_3_alg».proof.Proof.LibDenseForms
import proofs.«427521_j56710748176670_3_alg».proof.Proof.LibLayoutReads

noncomputable section

namespace Cert.Fm.Kernel

open Idealize.ShloMosaic Idealize.ShloMosaic.ValueIdx Cert.KernelIdeal Cert.KernelIdeal.Gen Cert.Fm

/-- A lane sum kept as a column reads, at (r, 0), the sum of the row's entries. -/
private theorem laneSumCol_apply {m n : Nat} (E : FVec Ideal (⟨2, ![m, n]⟩ : Shape) .f32)
    (h : Shape.Reduces (⟨2, ![m, n]⟩ : Shape) [(1 : Fin 2)] (⟨1, ![m]⟩ : Shape))
    (hφ : FKind.Formats .f32) (hacc : (0x00000000#32 : BitVec 32) = FKind.add.neutral .f32 hφ)
    (hc : (⟨1, ![m]⟩ : Shape).ShapeCasts ⟨2, ![m, 1]⟩) (r : Fin m) (u : Fin 1) :
    shapeCast (⟨2, ![m, 1]⟩ : Shape)
        (multiReduction (F := Ideal) .add [(1 : Fin 2)] (⟨1, ![m]⟩ : Shape) E 0x00000000#32 h hφ hacc) hc (ix2 r u)
      = ∑ c : Fin n, E (ix2 r c) :=
  (Cert.Gcn.LayoutReads.shapeCast_a_a1_apply _ hc r u).trans (DenseRows.laneSum_eq_rowSum E h hφ hacc r)

/-- A one-entry value cast to itself and broadcast down a column reads its one entry at every row. -/
private theorem biasCol_apply {m : Nat} (b : FVec Ideal (⟨2, ![1, 1]⟩ : Shape) .f32)
    (hc : (⟨2, ![1, 1]⟩ : Shape).ShapeCasts ⟨2, ![1, 1]⟩) (hb : (⟨2, ![1, 1]⟩ : Shape).Broadcasts ⟨2, ![m, 1]⟩)
    (r : Fin m) (u : Fin 1) :
    broadcastTo (⟨2, ![m, 1]⟩ : Shape) (shapeCast (⟨2, ![1, 1]⟩ : Shape) b hc) hb (ix2 r u) = b (ix2 (0 : Fin 1) u) := by
  rw [broadcastTo_1b_ab_apply, shapeCast_self]

/-- The dense features' linear term: Σ_j dense(r, j) · w(0, j), plus the bias. -/
theorem denseLin_apply (v154 : Vec Ideal S2048x8 .f32) (v155 : Vec Ideal S1x8 .f32) (v160 : Vec Ideal S1x1 .f32) (r : Fin 2048) :
    k0_pay27 (F := Ideal) v154 v155 v160 (ix2 r (0 : Fin 1))
      = (∑ j : Fin 8, v154 (ix2 r j) * v155 (ix2 (0 : Fin 1) j)) + v160 (ix2 (0 : Fin 1) (0 : Fin 1)) := by
  dsimp only [k0_pay27]
  rw [addf_apply]
  refine congrArg₂ (· + ·) ((laneSumCol_apply _ _ _ _ _ r 0).trans (Finset.sum_congr rfl fun j _ => ?_))
    (biasCol_apply _ _ _ r 0)
  rw [mulf_apply, broadcastTo_1b_ab_apply]

/-- The first-order sum: the six fields' terms, then the dense term. -/
theorem first_apply (v11 v23 v35 v153 v163 : FVec Ideal S2048x1 .f32) (v164 v166 : Vec Ideal S2048x1 .f32) (r : Fin 2048) :
    k0_pay28 (F := Ideal) v11 v23 v35 v153 v163 v164 v166 (ix2 r (0 : Fin 1))
      = (∑ k : Fin 6, (![v164 (ix2 r (0 : Fin 1)), v166 (ix2 r (0 : Fin 1)), v11 (ix2 r (0 : Fin 1)), v23 (ix2 r (0 : Fin 1)),
            v35 (ix2 r (0 : Fin 1)), v153 (ix2 r (0 : Fin 1))] : Fin 6 → EReal) k)
        + v163 (ix2 r (0 : Fin 1)) := by
  dsimp only [k0_pay28]
  rw [shapeCast_self v164, shapeCast_self v166, Fin.sum_univ_six]
  rfl

/-- The pairwise-interaction term of the row's six embeddings. -/
theorem second_apply (v9 v21 v33 v152 : FVec Ideal S2048x32 .f32) (v174 v176 : Vec Ideal S2048x32 .f32) (r : Fin 2048) :
    k0_pay31 (F := Ideal) v9 v21 v33 v152 v174 v176 (ix2 r (0 : Fin 1))
      = pairwise (![fun d => v174 (ix2 r d), fun d => v176 (ix2 r d), fun d => v9 (ix2 r d), fun d => v21 (ix2 r d), fun d => v33 (ix2 r d), fun d => v152 (ix2 r d)] : Fin 6 → Fin 32 → EReal) := by
  dsimp only [k0_pay31, k0_pay29, k0_pay30]
  rw [shapeCast_self v174, shapeCast_self v176, mulf_apply]
  unfold pairwise
  -- the splat of the word of one half is that word's value at every index
  refine congrArg₂ (· * ·) rfl ((laneSumCol_apply _ _ _ _ _ r 0).trans (Finset.sum_congr rfl fun d _ => ?_))
  rw [Fin.sum_univ_six, Fin.sum_univ_six]
  rfl

end Cert.Fm.Kernel

end
-- ==== Proof.KMlp.lean ====
/-
  The kernel's three-layer network on a row. The input row is the six embeddings and the dense features side by side;
  each layer is a product with the transposed weight matrix plus a bias row, the first two followed by the positive
  part; the last layer is a lane sum of products with the one output row. A change of float format is the identity on
  extended reals.
-/
import proofs.«427521_j56710748176670_3_alg».proof.Proof.Gen.KernelIdeal.Skeleton
import proofs.«427521_j56710748176670_3_alg».proof.Proof.Spec
import proofs.«427521_j56710748176670_3_alg».proof.Proof.LibDenseForms
import proofs.«427521_j56710748176670_3_alg».proof.Proof.LibLayoutReads

noncomputable section

namespace Cert.Fm.Kernel

open Idealize.ShloMosaic Idealize.ShloMosaic.ValueIdx Cert.KernelIdeal Cert.KernelIdeal.Gen Cert.Fm

/-- A lane sum kept as a column reads, at (r, 0), the sum of the row's entries. -/
private theorem laneSumCol_apply {m n : Nat} (E : FVec Ideal (⟨2, ![m, n]⟩ : Shape) .f32)
    (h : Shape.Reduces (⟨2, ![m, n]⟩ : Shape) [(1 : Fin 2)] (⟨1, ![m]⟩ : Shape))
    (hφ : FKind.Formats .f32) (hacc : (0x00000000#32 : BitVec 32) = FKind.add.neutral .f32 hφ)
    (hc : (⟨1, ![m]⟩ : Shape).ShapeCasts ⟨2, ![m, 1]⟩) (r : Fin m) (u : Fin 1) :
    shapeCast (⟨2, ![m, 1]⟩ : Shape)
        (multiReduction (F := Ideal) .add [(1 : Fin 2)] (⟨1, ![m]⟩ : Shape) E 0x00000000#32 h hφ hacc) hc (ix2 r u)
      = ∑ c : Fin n, E (ix2 r c) :=
  (Cert.Gcn.LayoutReads.shapeCast_a_a1_apply _ hc r u).trans (DenseRows.laneSum_eq_rowSum E h hφ hacc r)

/-- A one-entry value cast to itself and broadcast down a column reads its one entry at every row. -/
private theorem biasCol_apply {m : Nat} (b : FVec Ideal (⟨2, ![1, 1]⟩ : Shape) .f32)
    (hc : (⟨2, ![1, 1]⟩ : Shape).ShapeCasts ⟨2, ![1, 1]⟩) (hb : (⟨2, ![1, 1]⟩ : Shape).Broadcasts ⟨2, ![m, 1]⟩)
    (r : Fin m) (u : Fin 1) :
    broadcastTo (⟨2, ![m, 1]⟩ : Shape) (shapeCast (⟨2, ![1, 1]⟩ : Shape) b hc) hb (ix2 r u) = b (ix2 (0 : Fin 1) u) := by
  rw [broadcastTo_1b_ab_apply, shapeCast_self]

/-- The product of an m×k by a k×n matrix accumulated into the zero splat reads, at (a, b), the sum over the
    contracted coordinate of the products of the entries, whatever the operands' formats. -/
private theorem matmul_plain_apply {m k n : Nat} {φ₁ φ₂ : FTy} (prec : Option ContractPrecision)
    (A : FVec Ideal (⟨2, ![m, k]⟩ : Shape) φ₁) (B : FVec Ideal (⟨2, ![k, n]⟩ : Shape) φ₂) (a : Fin m) (b : Fin n) :
    matmul (DotDims.plain m k n) prec A B (constant (⟨2, ![m, n]⟩ : Shape) .f32 0x00000000#32) (ix2 a b)
      = ∑ c : Fin k, A (ix2 a c) * B (ix2 c b) := by
  rw [matmul_zero_eq_dotGeneral]
  exact StackMember.dotGeneral_plain_apply prec A B a b

/-- A dense layer at (r, j): the rows' product with the transposed weight matrix, both operands changed of format,
    accumulated into zero, plus the bias row: Σ_c X(r, c) · W(j, c) + b(0, j). -/
private theorem layer_apply {m k n : Nat} (X : FVec Ideal (⟨2, ![m, k]⟩ : Shape) .f32) (W : FVec Ideal (⟨2, ![n, k]⟩ : Shape) .f32)
    (b : FVec Ideal (⟨2, ![1, n]⟩ : Shape) .f32)
    (d : DotDims (⟨2, ![m, k]⟩ : Shape) ⟨2, ![k, n]⟩ ⟨2, ![m, n]⟩) (hd : d = DotDims.plain m k n)
    (hX hW : FTy.bits .bf16 < FTy.bits .f32)
    (ht : (⟨2, ![n, k]⟩ : Shape).Transposes [1, 0] ⟨2, ![k, n]⟩)
    (hc : (⟨2, ![1, n]⟩ : Shape).ShapeCasts ⟨2, ![1, n]⟩) (hb : (⟨2, ![1, n]⟩ : Shape).Broadcasts ⟨2, ![m, n]⟩)
    (r : Fin m) (j : Fin n) :
    addf (matmul d none (truncf .bf16 X hX) (transpose (⟨2, ![k, n]⟩ : Shape) [1, 0] (truncf .bf16 W hW) ht)
            (constant (⟨2, ![m, n]⟩ : Shape) .f32 0x00000000#32))
         (broadcastTo (⟨2, ![m, n]⟩ : Shape) (shapeCast (⟨2, ![1, n]⟩ : Shape) b hc) hb) (ix2 r j)
      = (∑ c : Fin k, X (ix2 r c) * W (ix2 j c)) + b (ix2 (0 : Fin 1) j) := by
  subst hd
  rw [addf_apply, matmul_plain_apply, broadcastTo_1b_ab_apply, shapeCast_self]
  refine congrArg (· + b (ix2 (0 : Fin 1) j)) (Finset.sum_congr rfl fun c _ => ?_)
  rw [transpose_ix2_apply]
  rfl

/-- One of several matrices of 2048 rows laid side by side to a width of 200, read at (r, k): the piece whose
    columns hold column k, at k less the widths before it. -/
private theorem piece_apply {α : Type} (xs : List ((s : Shape) × (s.Idx → α)))
    (h : Shape.Concatenates (xs.map (·.1)) S2048x200 (1 : Fin 2)) (r : Fin 2048) (k : Fin 200)
    (p : Nat) (hp : p < xs.length) (w : Nat) (x : (⟨2, ![2048, w]⟩ : Shape).Idx → α)
    (hx : xs[p] = ⟨⟨2, ![2048, w]⟩, x⟩) (pre : Nat)
    (hpre : (((xs.take p).map (·.1)).map fun s : Shape =>
      if h : s.rank = S2048x200.rank then s.size ((1 : Fin 2).cast h.symm) else 0).sum = pre)
    (c : Fin w) (hk : pre + c.val = k.val) :
    concatenate S2048x200 (1 : Fin 2) xs h (ix2 r k) = x (ix2 r c) :=
  concatenate_apply_piece (t := S2048x200) (1 : Fin 2) xs h (ix2 r k) p hp ⟨2, ![2048, w]⟩ x hx rfl pre hpre (ix2 r c)
    (fun b hb => by
      match b, hb with
      | ⟨0, _⟩, _ => rfl
      | ⟨1, _⟩, hb => exact absurd rfl hb)
    hk

/-- The six embeddings and the dense features, each with its shape, in the order they are laid side by side. -/
private abbrev pieceList (x0 x1 x2 x3 x4 x5 : FVec Ideal S2048x32 .f32) (dn : FVec Ideal S2048x8 .f32) :
    List ((s : Shape) × (s.Idx → Ideal .f32)) :=
  [⟨S2048x32, x0⟩, ⟨S2048x32, x1⟩, ⟨S2048x32, x2⟩, ⟨S2048x32, x3⟩, ⟨S2048x32, x4⟩, ⟨S2048x32, x5⟩, ⟨S2048x8, dn⟩]

/-- The network's input row: column k of the seven pieces side by side is embedding ⌊k/32⌋ at k mod 32 for k < 192,
    and dense feature k − 192 from there on. -/
private theorem pieces_apply (x0 x1 x2 x3 x4 x5 : FVec Ideal S2048x32 .f32) (dn : FVec Ideal S2048x8 .f32)
    (h : Shape.Concatenates [S2048x32, S2048x32, S2048x32, S2048x32, S2048x32, S2048x32, S2048x8] S2048x200 1)
    (r : Fin 2048) (k : Fin 200) :
    concatenate S2048x200 1 (pieceList x0 x1 x2 x3 x4 x5 dn) h (ix2 r k)
      = deepIn (![fun d => x0 (ix2 r d), fun d => x1 (ix2 r d), fun d => x2 (ix2 r d), fun d => x3 (ix2 r d),
          fun d => x4 (ix2 r d), fun d => x5 (ix2 r d)] : Fin 6 → Fin 32 → EReal) (fun j => dn (ix2 r j)) k := by
  unfold deepIn
  by_cases hlt : k.val < 192
  · rw [dif_pos hlt]
    have key : ∀ (q : Fin 6) (c : Fin 32), 32 * q.val + c.val = k.val →
        concatenate S2048x200 1 (pieceList x0 x1 x2 x3 x4 x5 dn) h (ix2 r k)
          = (![fun d => x0 (ix2 r d), fun d => x1 (ix2 r d), fun d => x2 (ix2 r d), fun d => x3 (ix2 r d),
              fun d => x4 (ix2 r d), fun d => x5 (ix2 r d)] : Fin 6 → Fin 32 → EReal) q c := by
      intro q c hk
      match q, hk with
      | ⟨0, _⟩, hk =>
        exact piece_apply (pieceList x0 x1 x2 x3 x4 x5 dn) h r k 0 (by show (0 : Nat) < 7; omega) 32 x0 rfl 0 rfl c
          (by have : 32 * 0 + c.val = k.val := hk; omega)
      | ⟨1, _⟩, hk =>
        exact piece_apply (pieceList x0 x1 x2 x3 x4 x5 dn) h r k 1 (by show (1 : Nat) < 7; omega) 32 x1 rfl 32 rfl c
          (by have : 32 * 1 + c.val = k.val := hk; omega)
      | ⟨2, _⟩, hk =>
        exact piece_apply (pieceList x0 x1 x2 x3 x4 x5 dn) h r k 2 (by show (2 : Nat) < 7; omega) 32 x2 rfl 64 rfl c
          (by have : 32 * 2 + c.val = k.val := hk; omega)
      | ⟨3, _⟩, hk =>
        exact piece_apply (pieceList x0 x1 x2 x3 x4 x5 dn) h r k 3 (by show (3 : Nat) < 7; omega) 32 x3 rfl 96 rfl c
          (by have : 32 * 3 + c.val = k.val := hk; omega)
      | ⟨4, _⟩, hk =>
        exact piece_apply (pieceList x0 x1 x2 x3 x4 x5 dn) h r k 4 (by show (4 : Nat) < 7; omega) 32 x4 rfl 128 rfl c
          (by have : 32 * 4 + c.val = k.val := hk; omega)
      | ⟨5, _⟩, hk =>
        exact piece_apply (pieceList x0 x1 x2 x3 x4 x5 dn) h r k 5 (by show (5 : Nat) < 7; omega) 32 x5 rfl 160 rfl c
          (by have : 32 * 5 + c.val = k.val := hk; omega)
    exact key ⟨k.val / 32, _⟩ ⟨k.val % 32, _⟩ (Nat.div_add_mod k.val 32)
  · rw [dif_neg hlt]
    exact piece_apply (pieceList x0 x1 x2 x3 x4 x5 dn) h r k 6 (by show (6 : Nat) < 7; omega) 8 dn rfl 192 rfl ⟨k.val - 192, by omega⟩
      (by show 192 + (k.val - 192) = k.val; omega)

/-- The first hidden layer at (r, j). -/
theorem hidden1_apply (v9 v21 v33 v152 : FVec Ideal S2048x32 .f32) (v154 : Vec Ideal S2048x8 .f32) (v174 v176 : Vec Ideal S2048x32 .f32)
    (v202 : Vec Ideal S128x200 .f32) (v206 : Vec Ideal S1x128 .f32) (r : Fin 2048) (j : Fin 128) :
    max (k0_pay32 (F := Ideal) v9 v21 v33 v152 v154 v174 v176 v202 v206 (ix2 r j)) (k0_pay33 (F := Ideal) (ix2 r j))
      = hidden1 (deepIn (![fun d => v174 (ix2 r d), fun d => v176 (ix2 r d), fun d => v9 (ix2 r d), fun d => v21 (ix2 r d), fun d => v33 (ix2 r d), fun d => v152 (ix2 r d)] : Fin 6 → Fin 32 → EReal) (fun j => v154 (ix2 r j)))
          (fun j k => v202 (ix2 j k)) (fun j => v206 (ix2 (0 : Fin 1) j)) j := by
  dsimp only [k0_pay32, k0_pay33, k0_pay29, k0_pay30]
  rw [shapeCast_self v174, shapeCast_self v176]
  unfold hidden1
  -- the zero word's splat is 0 at every index
  refine congrArg₂ max ((layer_apply (hd := rfl) ..).trans ?_) Ideal.ofBits_zero_f32
  exact congrArg (· + v206 (ix2 (0 : Fin 1) j)) (Finset.sum_congr rfl fun k _ =>
    congrArg (· * v202 (ix2 j k)) (pieces_apply v174 v176 v9 v21 v33 v152 v154 _ r k))

/-- The stored value at (r, 0): the first-order and pairwise terms, plus the network's output. -/
theorem out_apply (v173 v199 : FVec Ideal S2048x1 .f32) (v209 v210 : FVec Ideal S2048x128 .f32) (v213 : Vec Ideal S64x128 .f32)
    (v217 v223 : Vec Ideal S1x64 .f32) (v228 : Vec Ideal S1x1 .f32) (r : Fin 2048) :
    k0_pay1 (F := Ideal) v173 v199 v209 v210 v213 v217 v223 v228 (ix2 r (0 : Fin 1))
      = (v173 (ix2 r (0 : Fin 1)) + v199 (ix2 r (0 : Fin 1)))
        + ((∑ j : Fin 64, hidden2 (fun k => max (v209 (ix2 r k)) (v210 (ix2 r k))) (fun j k => v213 (ix2 j k))
              (fun j => v217 (ix2 (0 : Fin 1) j)) j * v223 (ix2 (0 : Fin 1) j))
            + v228 (ix2 (0 : Fin 1) (0 : Fin 1))) := by
  dsimp only [k0_pay1]
  rw [addf_apply, addf_apply, addf_apply]
  refine congrArg ((v173 (ix2 r (0 : Fin 1)) + v199 (ix2 r (0 : Fin 1))) + ·)
    (congrArg₂ (· + ·) ((laneSumCol_apply _ _ _ _ _ r 0).trans (Finset.sum_congr rfl fun j _ => ?_))
      (biasCol_apply _ _ _ r 0))
  rw [mulf_apply, broadcastTo_1b_ab_apply]
  unfold hidden2
  refine congrArg (· * v223 (ix2 (0 : Fin 1) j)) ?_
  rw [maximumf_apply]
  -- the zero word's splat is 0 at every index
  exact congrArg₂ max (layer_apply (hd := rfl) ..) Ideal.ofBits_zero_f32

end Cert.Fm.Kernel

end
-- ==== Proof.KBlock.lean ====
/-
  One grid point's stored block, row by row. Row r of the block the body stores is the row's output (Spec's `rowOut`)
  of: the row's two looked-up large-table embeddings and first-order terms as the block finds them, the small tables'
  rows the row's index words select, the masked mean over its six genre slots, its dense features, and the weights.
  The index words are assumed to be row numbers of their tables.
-/
import proofs.«427521_j56710748176670_3_alg».proof.Proof.Gen.KernelIdeal.Skeleton
import proofs.«427521_j56710748176670_3_alg».proof.Proof.Spec
import proofs.«427521_j56710748176670_3_alg».proof.Proof.FrameKernelIdeal
import proofs.«427521_j56710748176670_3_alg».proof.Proof.KOneHot
import proofs.«427521_j56710748176670_3_alg».proof.Proof.KPool
import proofs.«427521_j56710748176670_3_alg».proof.Proof.KRow
import proofs.«427521_j56710748176670_3_alg».proof.Proof.KMlp
import Idealize.ShloMosaic.Lib.Pipeline.Value

noncomputable section

namespace Cert.Fm.Kernel

open Idealize.ShloMosaic Idealize.ShloMosaic.ValueIdx Cert.KernelIdeal Cert.KernelIdeal.Gen Cert.Fm

/-- The zero offsets of a rank-2 window, as the constant function. -/
private theorem kblock_zero2 : (![0, 0] : Fin 2 → Nat) = fun _ => 0 := funext fun a => by fin_cases a <;> rfl
/-- The zero offset of a rank-1 window, as the constant function. -/
private theorem kblock_zero1 : (![0] : Fin 1 → Nat) = fun _ => 0 := funext fun a => by fin_cases a; rfl

/-- Column g of a [2048,6] block, loaded as a [2048,1] column, holds at row r the block's entry (r, g): the load
    reads offset + 1 · (local coordinate) on each axis, that is 0 + r and g + 0. -/
private theorem kblock_ld_col {e : EltTy} (x : Vec Ideal S2048x6 e) (g : Nat) (hg : g < 6)
    (h : ∀ a, (![0, g] : Fin 2 → Nat) a + S2048x1.size a ≤ S2048x6.size a) (r : Fin 2048) :
    View.ld x (Rect.unit (s := S2048x6) ![0, g] S2048x1.size h) (ix2 r (0 : Fin 1)) = x (ix2 r (⟨g, hg⟩ : Fin 6)) := by
  show x _ = x _
  congr 1
  funext a
  apply Fin.ext
  match a with
  | ⟨0, _⟩ => show (0 : Nat) + 1 * r.val = r.val; omega
  | ⟨1, _⟩ => show g + 1 * (0 : Nat) = g; omega

/-- Row r of the stored block. -/
theorem block_row (x0 : Vec Ideal S2048x32 .f32) (x1 : Vec Ideal S2048x32 .f32) (x2 : Vec Ideal S2048x1 .f32) (x3 : Vec Ideal S2048x1 .f32) (x4 : Vec Ideal S2048 .i32) (x5 : Vec Ideal S2048 .i32) (x6 : Vec Ideal S2048 .i32) (x7 : Vec Ideal S2048x6 .i32) (x8 : Vec Ideal S2048x6 .f32) (x9 : Vec Ideal S2048x8 .f32) (x10 : Vec Ideal S2x32 .f32) (x11 : Vec Ideal S7x32 .f32) (x12 : Vec Ideal S21x32 .f32) (x13 : Vec Ideal S19x32 .f32) (x14 : Vec Ideal S2x1 .f32) (x15 : Vec Ideal S7x1 .f32) (x16 : Vec Ideal S21x1 .f32) (x17 : Vec Ideal S19x1 .f32) (x18 : Vec Ideal S1x8 .f32) (x19 : Vec Ideal S1x1 .f32) (x20 : Vec Ideal S128x200 .f32) (x21 : Vec Ideal S1x128 .f32) (x22 : Vec Ideal S64x128 .f32) (x23 : Vec Ideal S1x64 .f32) (x24 : Vec Ideal S1x64 .f32) (x25 : Vec Ideal S1x1 .f32) (r : Fin 2048)
    (hg : (x4 (ix1 r)).toNat < 2) (ha : (x5 (ix1 r)).toNat < 7) (ho : (x6 (ix1 r)).toNat < 21)
    (hge : ∀ g : Fin 6, (x7 (ix2 r g)).toNat < 19) :
    out0_26 (F := Ideal) x0 x1 x2 x3 x4 x5 x6 x7 x8 x9 x10 x11 x12 x13 x14 x15 x16 x17 x18 x19 x20 x21 x22 x23 x24 x25 (ix2 r (0 : Fin 1))
      = rowOut
          (![fun d => x0 (ix2 r d), fun d => x1 (ix2 r d),
        fun d => x10 (ix2 (rowOf 2 (by norm_num) (x4 (ix1 r))) d), fun d => x11 (ix2 (rowOf 7 (by norm_num) (x5 (ix1 r))) d),
        fun d => x12 (ix2 (rowOf 21 (by norm_num) (x6 (ix1 r))) d),
        fun d => pool (fun g => x13 (ix2 (rowOf 19 (by norm_num) (x7 (ix2 r g))) d)) (fun g => x8 (ix2 r g))] : Fin 6 → Fin 32 → EReal)
          (fun k => (![fun u => x2 (ix2 r u), fun u => x3 (ix2 r u),
        fun u => x14 (ix2 (rowOf 2 (by norm_num) (x4 (ix1 r))) u), fun u => x15 (ix2 (rowOf 7 (by norm_num) (x5 (ix1 r))) u),
        fun u => x16 (ix2 (rowOf 21 (by norm_num) (x6 (ix1 r))) u),
        fun u => pool (fun g => x17 (ix2 (rowOf 19 (by norm_num) (x7 (ix2 r g))) u)) (fun g => x8 (ix2 r g))] : Fin 6 → Fin 1 → EReal) k 0)
          (fun j => x9 (ix2 r j)) (fun j => x18 (ix2 (0 : Fin 1) j)) (x19 (ix2 (0 : Fin 1) (0 : Fin 1)))
          (fun j k => x20 (ix2 j k)) (fun j => x21 (ix2 (0 : Fin 1) j)) (fun j k => x22 (ix2 j k)) (fun j => x23 (ix2 (0 : Fin 1) j))
          (fun j => x24 (ix2 (0 : Fin 1) j)) (x25 (ix2 (0 : Fin 1) (0 : Fin 1))) := by
  -- the six loaded index columns and mask columns, read at row r, are the row's six index words and mask entries
  have hI : (![View.ld x7 r0_9 (ix2 r (0 : Fin 1)), View.ld x7 r0_10 (ix2 r (0 : Fin 1)), View.ld x7 r0_11 (ix2 r (0 : Fin 1)), View.ld x7 r0_12 (ix2 r (0 : Fin 1)), View.ld x7 r0_13 (ix2 r (0 : Fin 1)), View.ld x7 r0_14 (ix2 r (0 : Fin 1))] : Fin 6 → BitVec 32)
      = fun g => x7 (ix2 r g) := by
    funext g
    fin_cases g
    · exact kblock_ld_col x7 0 (by norm_num) _ r
    · exact kblock_ld_col x7 1 (by norm_num) _ r
    · exact kblock_ld_col x7 2 (by norm_num) _ r
    · exact kblock_ld_col x7 3 (by norm_num) _ r
    · exact kblock_ld_col x7 4 (by norm_num) _ r
    · exact kblock_ld_col x7 5 (by norm_num) _ r
  have hM : (![View.ld x8 r0_9 (ix2 r (0 : Fin 1)), View.ld x8 r0_10 (ix2 r (0 : Fin 1)), View.ld x8 r0_11 (ix2 r (0 : Fin 1)), View.ld x8 r0_12 (ix2 r (0 : Fin 1)), View.ld x8 r0_13 (ix2 r (0 : Fin 1)), View.ld x8 r0_14 (ix2 r (0 : Fin 1))] : Fin 6 → EReal)
      = fun g => x8 (ix2 r g) := by
    funext g
    fin_cases g
    · exact kblock_ld_col x8 0 (by norm_num) _ r
    · exact kblock_ld_col x8 1 (by norm_num) _ r
    · exact kblock_ld_col x8 2 (by norm_num) _ r
    · exact kblock_ld_col x8 3 (by norm_num) _ r
    · exact kblock_ld_col x8 4 (by norm_num) _ r
    · exact kblock_ld_col x8 5 (by norm_num) _ r
  have hi : ∀ g : Fin 6, ((![View.ld x7 r0_9 (ix2 r (0 : Fin 1)), View.ld x7 r0_10 (ix2 r (0 : Fin 1)), View.ld x7 r0_11 (ix2 r (0 : Fin 1)), View.ld x7 r0_12 (ix2 r (0 : Fin 1)), View.ld x7 r0_13 (ix2 r (0 : Fin 1)), View.ld x7 r0_14 (ix2 r (0 : Fin 1))] : Fin 6 → BitVec 32) g).toNat < 19 := by
    rw [hI]; exact hge
  -- the pooled genre embedding and first-order term of the row
  have p25 : ∀ d : Fin 32, k0_pay25 (F := Ideal) x13 (k0_pay19 x13 (k0_pay14 (k0_pay11 (F := Ideal)) x13 (View.ld x7 r0_9) (View.ld x8 r0_9) (View.ld x7 r0_10) (View.ld x8 r0_10)) (View.ld x7 r0_11) (View.ld x8 r0_11) (View.ld x7 r0_12) (View.ld x8 r0_12)) (k0_pay21 (k0_pay16 (View.ld x8 r0_9) (View.ld x8 r0_10)) (View.ld x8 r0_11) (View.ld x8 r0_12)) (View.ld x8 r0_13) (k0_pay22 (View.ld x7 r0_13)) (View.ld x7 r0_14) (View.ld x8 r0_14) (ix2 r d)
      = pool (fun g => x13 (ix2 (rowOf 19 (by norm_num) (x7 (ix2 r g))) d)) (fun g => x8 (ix2 r g)) := by
    intro d
    rw [pooledEmb_apply x13 (View.ld x7 r0_9) (View.ld x7 r0_10) (View.ld x7 r0_11) (View.ld x7 r0_12) (View.ld x7 r0_13) (View.ld x7 r0_14) (View.ld x8 r0_9) (View.ld x8 r0_10) (View.ld x8 r0_11) (View.ld x8 r0_12) (View.ld x8 r0_13) (View.ld x8 r0_14) r d hi, hI, hM]
  have p26 : k0_pay26 (F := Ideal) x17 (k0_pay20 x17 (k0_pay15 x17 (View.ld x7 r0_9) (View.ld x8 r0_9) (View.ld x7 r0_10) (View.ld x8 r0_10)) (View.ld x7 r0_11) (View.ld x8 r0_11) (View.ld x7 r0_12) (View.ld x8 r0_12)) (k0_pay21 (k0_pay16 (View.ld x8 r0_9) (View.ld x8 r0_10)) (View.ld x8 r0_11) (View.ld x8 r0_12)) (View.ld x8 r0_13) (k0_pay22 (View.ld x7 r0_13)) (View.ld x7 r0_14) (View.ld x8 r0_14) (ix2 r (0 : Fin 1))
      = pool (fun g => x17 (ix2 (rowOf 19 (by norm_num) (x7 (ix2 r g))) (0 : Fin 1))) (fun g => x8 (ix2 r g)) := by
    rw [pooledFo_apply x17 (View.ld x7 r0_9) (View.ld x7 r0_10) (View.ld x7 r0_11) (View.ld x7 r0_12) (View.ld x7 r0_13) (View.ld x7 r0_14) (View.ld x8 r0_9) (View.ld x8 r0_10) (View.ld x8 r0_11) (View.ld x8 r0_12) (View.ld x8 r0_13) (View.ld x8 r0_14) r hi, hI, hM]
  -- the small tables' rows the row's index words select
  have p3 : ∀ d : Fin 32, k0_pay3 (F := Ideal) x4 x10 (ix2 r d) = x10 (ix2 (rowOf 2 (by norm_num) (x4 (ix1 r))) d) :=
    fun d => pay3_apply x4 x10 r d hg
  have p6 : ∀ d : Fin 32, k0_pay6 (F := Ideal) x5 x11 (ix2 r d) = x11 (ix2 (rowOf 7 (by norm_num) (x5 (ix1 r))) d) :=
    fun d => pay6_apply x5 x11 r d ha
  have p9 : ∀ d : Fin 32, k0_pay9 (F := Ideal) x6 x12 (ix2 r d) = x12 (ix2 (rowOf 21 (by norm_num) (x6 (ix1 r))) d) :=
    fun d => pay9_apply x6 x12 r d ho
  have p4 := pay4_apply x4 x14 r hg
  have p7 := pay7_apply x5 x15 r ha
  have p10 := pay10_apply x6 x16 r ho
  -- the block: its one store covers the buffer, and every other load reads a whole input block
  unfold out0_26
  rw [View.canon_unit_zero kblock_zero2]
  simp only [View.ld_unit_zero (S := S2048x32) kblock_zero2, View.ld_unit_zero (S := S2048x1) kblock_zero2, View.ld_unit_zero (S := S2048x8) kblock_zero2, View.ld_unit_zero (S := S2x32) kblock_zero2, View.ld_unit_zero (S := S7x32) kblock_zero2, View.ld_unit_zero (S := S21x32) kblock_zero2, View.ld_unit_zero (S := S19x32) kblock_zero2, View.ld_unit_zero (S := S2x1) kblock_zero2, View.ld_unit_zero (S := S7x1) kblock_zero2, View.ld_unit_zero (S := S21x1) kblock_zero2, View.ld_unit_zero (S := S19x1) kblock_zero2, View.ld_unit_zero (S := S1x8) kblock_zero2, View.ld_unit_zero (S := S1x1) kblock_zero2, View.ld_unit_zero (S := S128x200) kblock_zero2, View.ld_unit_zero (S := S1x128) kblock_zero2, View.ld_unit_zero (S := S64x128) kblock_zero2, View.ld_unit_zero (S := S1x64) kblock_zero2, View.ld_unit_zero (S := S2048) kblock_zero1]
  refine (out_apply _ _ _ _ _ _ _ _ r).trans ?_
  rw [first_apply, second_apply, denseLin_apply]
  simp only [hidden1_apply, p3, p6, p9, p25]
  rw [p4, p7, p10, p26]
  -- both sides are now the same three summands; the six first-order terms are listed as numbers on one side
  -- and as one-entry vectors read at their entry on the other
  unfold rowOut firstOrder mlp
  refine congrArg₂ (· + ·) (congrArg₂ (· + ·) (congrArg₂ (· + ·) (Finset.sum_congr rfl fun k _ => ?_) rfl) rfl) rfl
  fin_cases k <;> rfl

end Cert.Fm.Kernel

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«427521_j56710748176670_3_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.KTakes.lean ====
/-
  The arrays the region finds that the program computes before it. Four are rows of the two large tables looked up by
  index words: the looked-up row of a word that is a row number is that row (the lookup first adds the table's height to
  a negative word, then reads the row nearest to the word, then replaces the row by a fill value unless the word is
  between 0 and the last row: on a row number none of the three changes anything). Four are the bias vectors read as
  one-row matrices.
-/
import proofs.«427521_j56710748176670_3_alg».proof.Proof.FrameKernelIdeal
import proofs.«427521_j56710748176670_3_alg».proof.Proof.Spec
import proofs.«427521_j56710748176670_3_alg».proof.Proof.LibGatherClamp
import proofs.«427521_j56710748176670_3_alg».proof.Proof.LibLayoutReads
import proofs.«427521_j56710748176670_3_alg».proof.Proof.LibWordArith
import Idealize.ShloMosaic.PureOps.Reduce
import Idealize.ShloMosaic.Lib.Pipeline.Value
import Idealize.ShloMosaic.Lib.Tactic

noncomputable section

namespace Cert.Fm.Kernel

open Idealize.ShloMosaic Idealize.ShloMosaic.TcCoe Idealize.ShloMosaic.ValueIdx Idealize.SL.Sem
open Cert.KernelIdeal Cert.KernelIdeal.Gen Cert.Fm

/-! ## General facts the four lookups share -/

section General

open Cert.Gcn.GatherClamp Cert.Gcn.LayoutReads Cert.Gcn.WordArith

/-- A left fold of `and` over one-bit words that starts at 1 and meets only 1s ends at 1. -/
private theorem foldl_andi_one {ι : Type} (g : ι → BitVec 1) :
    ∀ (l : List ι) (init : BitVec 1), init = 1#1 → (∀ i ∈ l, g i = 1#1) →
      l.foldl (fun r i => IntOp.andi r (g i)) init = 1#1
  | [], _, h, _ => h
  | a :: l, init, h, hl => by
    rw [List.foldl_cons]
    refine foldl_andi_one g l _ ?_ (fun i hi => hl i (List.mem_cons_of_mem _ hi))
    rw [h, hl a (List.mem_cons.mpr (Or.inl rfl))]
    rfl

/-- The `and` along the one column of an [e × 1] array of bits, from 1: at row p it is 1 when the entry (p, 0) is 1
    (the entries that reduce into row p are the entries of row p, and that row has the one entry). -/
private theorem reduce_col_one {e : ℕ} (x : IVec ⟨2, ![e, 1]⟩ 1) (init : (⟨0, ![]⟩ : Shape).Idx → BitVec 1)
    (hr : (⟨2, ![e, 1]⟩ : Shape).ReducesTo [1] ⟨1, ![e]⟩) (hu : 0 < (⟨0, ![]⟩ : Shape).numel)
    (hinit : ∀ k, init k = 1#1) (p : Fin e) (hx : x (ix2 p (0 : Fin 1)) = 1#1) :
    Host.reduce IntOp.andi x init hr hu (ix1 p) = 1#1 := by
  rw [Host.reduce_eq_foldl]
  refine foldl_andi_one x _ _ (hinit _) (fun i hi => ?_)
  have hd : hr.drop i = ix1 p := of_decide_eq_true (List.mem_filter.mp hi).2
  have h0 : i 0 = p := by
    apply Fin.ext
    have hv : ((hr.drop i) (0 : Fin 1) : ℕ) = (i 0 : ℕ) := rfl
    rw [hd] at hv
    exact hv.symm
  have h1 : i 1 = (0 : Fin 1) := Fin.ext (by have := idx2_lt1 i; show (i 1).val = 0; omega)
  rw [eq_ix2 i, h0, h1]
  exact hx

/-- A vector spread along the rows of an [a × f] array reads, at (i, c), the vector's entry i. -/
private theorem broadcastInDim_a_af_apply {α : Type} {a f : ℕ}
    (h : (⟨1, ![a]⟩ : Shape).BroadcastsInDim ⟨2, ![a, f]⟩ ![0])
    (x : (⟨1, ![a]⟩ : Shape).Idx → α) (i : Fin a) (c : Fin f) :
    broadcastInDim ⟨2, ![a, f]⟩ ![0] h x (ix2 i c) = x (ix1 i) :=
  broadcastInDim_apply ![0] h x _ _ (fun ax => by
    match ax with
    | ⟨0, _⟩ =>
      show i.val = if a = 1 then 0 else i.val
      split
      · have := i.isLt; omega
      · rfl)

/-- The index column of a lookup: each word, with the table's height added where the word is negative, as an
    [e × 1] column. -/
private def wrapCol {e : ℕ}
    (hb1 : (⟨0, ![]⟩ : Shape).BroadcastsInDim ⟨1, ![e]⟩ ![])
    (hb2 : (⟨1, ![e]⟩ : Shape).BroadcastsInDim ⟨2, ![e, 1]⟩ ![0])
    (nW : BitVec 32) (w : IVec ⟨1, ![e]⟩ 32) : IVec ⟨2, ![e, 1]⟩ 32 :=
  broadcastInDim ⟨2, ![e, 1]⟩ ![0] hb2
    (select (cmpi .slt w (broadcastInDim ⟨1, ![e]⟩ ![] hb1 (constantI ⟨0, ![]⟩ 32 0#32)))
      (addi w (broadcastInDim ⟨1, ![e]⟩ ![] hb1 (constantI ⟨0, ![]⟩ 32 nW))) w)

/-- The array a lookup of table rows by index words computes: the row nearest to each wrapped word, kept where the
    wrapped word lies between 0 and the last row and replaced by the fill value elsewhere. -/
private def takeOf {n f e : ℕ}
    (hb1 : (⟨0, ![]⟩ : Shape).BroadcastsInDim ⟨1, ![e]⟩ ![])
    (hb2 : (⟨1, ![e]⟩ : Shape).BroadcastsInDim ⟨2, ![e, 1]⟩ ![0])
    (hb3 : (⟨0, ![]⟩ : Shape).BroadcastsInDim ⟨2, ![e, 1]⟩ ![])
    (hb4 : (⟨1, ![1]⟩ : Shape).BroadcastsInDim ⟨2, ![1, 1]⟩ ![1])
    (hb5 : (⟨2, ![1, 1]⟩ : Shape).BroadcastsInDim ⟨2, ![e, 1]⟩ ![0, 1])
    (hr : (⟨2, ![e, 1]⟩ : Shape).ReducesTo [1] ⟨1, ![e]⟩) (hu : 0 < (⟨0, ![]⟩ : Shape).numel)
    (hb6 : (⟨1, ![e]⟩ : Shape).BroadcastsInDim ⟨2, ![e, f]⟩ ![0])
    (hb7 : (⟨0, ![]⟩ : Shape).BroadcastsInDim ⟨2, ![e, f]⟩ ![])
    (d : GatherDims ⟨2, ![n, f]⟩ ⟨2, ![e, 1]⟩ ⟨2, ![e, f]⟩) (nW lastW : BitVec 32)
    (x : (⟨2, ![n, f]⟩ : Shape).Idx → EReal) (w : IVec ⟨1, ![e]⟩ 32) : (⟨2, ![e, f]⟩ : Shape).Idx → EReal :=
  select
    (broadcastInDim ⟨2, ![e, f]⟩ ![0] hb6
      (Host.reduce IntOp.andi
        (andi
          (cmpi .sge (wrapCol hb1 hb2 nW w) (broadcastInDim ⟨2, ![e, 1]⟩ ![] hb3 (constantI ⟨0, ![]⟩ 32 0#32)))
          (cmpi .sle (wrapCol hb1 hb2 nW w)
            (broadcastInDim ⟨2, ![e, 1]⟩ ![0, 1] hb5 (broadcastInDim ⟨2, ![1, 1]⟩ ![1] hb4 (constantI ⟨1, ![1]⟩ 32 lastW)))))
        (constantI ⟨0, ![]⟩ 1 1#1) hr hu))
    (Host.gather d x (wrapCol hb1 hb2 nW w))
    (broadcastInDim ⟨2, ![e, f]⟩ ![] hb7 (constant (F := Ideal) ⟨0, ![]⟩ .f32 0x7FC00000#32))

/-- The lookup at a word that is a row number: entry (p, c) of the looked-up array is the table's entry (that row, c).
    The word is not negative, so it is not wrapped; it lies between 0 and the last row, so the row is kept; and the
    nearest row to it is the row of that number. -/
private theorem takeOf_apply {n f e : ℕ} (hn : 0 < n) (hn' : n ≤ 2 ^ 31)
    (hb1 : (⟨0, ![]⟩ : Shape).BroadcastsInDim ⟨1, ![e]⟩ ![])
    (hb2 : (⟨1, ![e]⟩ : Shape).BroadcastsInDim ⟨2, ![e, 1]⟩ ![0])
    (hb3 : (⟨0, ![]⟩ : Shape).BroadcastsInDim ⟨2, ![e, 1]⟩ ![])
    (hb4 : (⟨1, ![1]⟩ : Shape).BroadcastsInDim ⟨2, ![1, 1]⟩ ![1])
    (hb5 : (⟨2, ![1, 1]⟩ : Shape).BroadcastsInDim ⟨2, ![e, 1]⟩ ![0, 1])
    (hr : (⟨2, ![e, 1]⟩ : Shape).ReducesTo [1] ⟨1, ![e]⟩) (hu : 0 < (⟨0, ![]⟩ : Shape).numel)
    (hb6 : (⟨1, ![e]⟩ : Shape).BroadcastsInDim ⟨2, ![e, f]⟩ ![0])
    (hb7 : (⟨0, ![]⟩ : Shape).BroadcastsInDim ⟨2, ![e, f]⟩ ![])
    (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (nW lastW : BitVec 32) (hlast : lastW.toNat = n - 1)
    (x : (⟨2, ![n, f]⟩ : Shape).Idx → EReal) (w : IVec ⟨1, ![e]⟩ 32) (p : Fin e) (c : Fin f)
    (hw : (w (ix1 p)).toNat < n) :
    takeOf hb1 hb2 hb3 hb4 hb5 hr hu hb6 hb7 d nW lastW x w (ix2 p c) = x (ix2 (rowOf n hn (w (ix1 p))) c) := by
  have hsm : (w (ix1 p)).toNat < 2 ^ 31 := by omega
  have hls : lastW.toNat < 2 ^ 31 := by omega
  -- the wrapped word of row p is the word itself
  have hcol : wrapCol hb1 hb2 nW w (ix2 p (0 : Fin 1)) = w (ix1 p) := by
    unfold wrapCol
    rw [broadcastInDim_a_a1_apply]
    show Scalar.select (IntOp.cmpi .slt (w (ix1 p)) 0#32) (IntOp.addi (w (ix1 p)) nW) (w (ix1 p)) = w (ix1 p)
    exact select_slt_zero_small nW hsm
  -- it passes both range tests
  have hbit : (andi
      (cmpi .sge (wrapCol hb1 hb2 nW w) (broadcastInDim ⟨2, ![e, 1]⟩ ![] hb3 (constantI ⟨0, ![]⟩ 32 0#32)))
      (cmpi .sle (wrapCol hb1 hb2 nW w)
        (broadcastInDim ⟨2, ![e, 1]⟩ ![0, 1] hb5 (broadcastInDim ⟨2, ![1, 1]⟩ ![1] hb4 (constantI ⟨1, ![1]⟩ 32 lastW)))))
      (ix2 p (0 : Fin 1)) = 1#1 := by
    show IntOp.andi (IntOp.cmpi .sge (wrapCol hb1 hb2 nW w (ix2 p (0 : Fin 1))) 0#32)
      (IntOp.cmpi .sle (wrapCol hb1 hb2 nW w (ix2 p (0 : Fin 1))) lastW) = 1#1
    rw [hcol, sge_small hsm (by decide), sle_small hsm hls, if_pos (by simp), if_pos (by omega)]
    rfl
  unfold takeOf
  rw [select_apply, broadcastInDim_a_af_apply,
    reduce_col_one _ (constantI ⟨0, ![]⟩ 1 1#1) hr hu (fun _ => rfl) p hbit, select_one,
    gather2_clamp_apply hn d hod hcoll hob hsim hivd]
  refine congrArg (fun r : Fin n => x (ix2 r c)) (Fin.ext ?_)
  show min (wrapCol hb1 hb2 nW w (ix2 p (0 : Fin 1))).toInt.toNat (n - 1) = min (w (ix1 p)).toInt.toNat (n - 1)
  rw [hcol]

end General

/-! ## What the region finds -/

section Found

open Cert.Gcn.LayoutReads

variable (m : (ℓ : Loc nD τ sig) → Buf (Elt Ideal) ℓ)

set_option maxHeartbeats 4000000 in
/-- The looked-up rows of a large table: row p of the array the region finds is the table's row the p-th index word
    selects (a word that is a row number is neither wrapped nor filled). -/
theorem V_embUser_apply (c : Dev nD) (p : Fin 16384) (d : Fin 32)
    (h : (((m ((c : Thread nD τ).loc main_arg0)) : S16384.Idx → BitVec 32) (ix1 p)).toNat < 1000000) :
    (V m c main_v0 : S16384x32.Idx → EReal) (ix2 p d)
      = ((m ((c : Thread nD τ).loc main_arg14)) : S1000000x32.Idx → EReal) (ix2 (rowOf 1000000 (by norm_num) (((m ((c : Thread nD τ).loc main_arg0)) : S16384.Idx → BitVec 32) (ix1 p))) d) := by
  -- the array is the lookup's term over the table and the index words as launched
  have e : (V m c main_v0 : S16384x32.Idx → EReal)
      = takeOf Facts₀.bcast_S_S16384 Facts₀.bcast_S16384_S16384x1_0 Facts₀.bcast_S_S16384x1 Facts₀.bcast_S1_S1x1_1
          Facts₀.bcast_S1x1_S16384x1_0_1 Facts₀.reducesTo_S16384x1_S16384_d1 Facts₀.h_S_ Facts₀.bcast_S16384_S16384x32_0
          Facts₀.bcast_S_S16384x32 gather_S1000000x32_S16384x1_S16384x32_1_0_n_n_0_1_132 1000000#32 999999#32
          ((m ((c : Thread nD τ).loc main_arg14)) : S1000000x32.Idx → EReal)
          ((m ((c : Thread nD τ).loc main_arg0)) : S16384.Idx → BitVec 32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    simp only [StableHlo.TRef.ofBuf, StableHlo.TRef.toBuf, cast_eq]
    rfl
  exact (congrFun e _).trans
    (takeOf_apply (by norm_num) (by norm_num) _ _ _ _ _ _ _ _ _ _ rfl rfl rfl rfl rfl _ _ (by decide) _ _ p d h)

set_option maxHeartbeats 4000000 in
/-- The looked-up rows of a large table: row p of the array the region finds is the table's row the p-th index word
    selects (a word that is a row number is neither wrapped nor filled). -/
theorem V_embItem_apply (c : Dev nD) (p : Fin 16384) (d : Fin 32)
    (h : (((m ((c : Thread nD τ).loc main_arg1)) : S16384.Idx → BitVec 32) (ix1 p)).toNat < 100000) :
    (V m c main_v1 : S16384x32.Idx → EReal) (ix2 p d)
      = ((m ((c : Thread nD τ).loc main_arg15)) : S100000x32.Idx → EReal) (ix2 (rowOf 100000 (by norm_num) (((m ((c : Thread nD τ).loc main_arg1)) : S16384.Idx → BitVec 32) (ix1 p))) d) := by
  -- the array is the lookup's term over the table and the index words as launched
  have e : (V m c main_v1 : S16384x32.Idx → EReal)
      = takeOf Facts₀.bcast_S_S16384 Facts₀.bcast_S16384_S16384x1_0 Facts₀.bcast_S_S16384x1 Facts₀.bcast_S1_S1x1_1
          Facts₀.bcast_S1x1_S16384x1_0_1 Facts₀.reducesTo_S16384x1_S16384_d1 Facts₀.h_S_ Facts₀.bcast_S16384_S16384x32_0
          Facts₀.bcast_S_S16384x32 gather_S100000x32_S16384x1_S16384x32_1_0_n_n_0_1_132 100000#32 99999#32
          ((m ((c : Thread nD τ).loc main_arg15)) : S100000x32.Idx → EReal)
          ((m ((c : Thread nD τ).loc main_arg1)) : S16384.Idx → BitVec 32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    simp only [StableHlo.TRef.ofBuf, StableHlo.TRef.toBuf, cast_eq]
    rfl
  exact (congrFun e _).trans
    (takeOf_apply (by norm_num) (by norm_num) _ _ _ _ _ _ _ _ _ _ rfl rfl rfl rfl rfl _ _ (by decide) _ _ p d h)

set_option maxHeartbeats 4000000 in
/-- The looked-up rows of a large table: row p of the array the region finds is the table's row the p-th index word
    selects (a word that is a row number is neither wrapped nor filled). -/
theorem V_foUser_apply (c : Dev nD) (p : Fin 16384)
    (h : (((m ((c : Thread nD τ).loc main_arg0)) : S16384.Idx → BitVec 32) (ix1 p)).toNat < 1000000) :
    (V m c main_v2 : S16384x1.Idx → EReal) (ix2 p (0 : Fin 1))
      = ((m ((c : Thread nD τ).loc main_arg8)) : S1000000x1.Idx → EReal) (ix2 (rowOf 1000000 (by norm_num) (((m ((c : Thread nD τ).loc main_arg0)) : S16384.Idx → BitVec 32) (ix1 p))) (0 : Fin 1)) := by
  -- the array is the lookup's term over the table and the index words as launched
  have e : (V m c main_v2 : S16384x1.Idx → EReal)
      = takeOf Facts₀.bcast_S_S16384 Facts₀.bcast_S16384_S16384x1_0 Facts₀.bcast_S_S16384x1 Facts₀.bcast_S1_S1x1_1
          Facts₀.bcast_S1x1_S16384x1_0_1 Facts₀.reducesTo_S16384x1_S16384_d1 Facts₀.h_S_ Facts₀.bcast_S16384_S16384x1_0
          Facts₀.bcast_S_S16384x1 gather_S1000000x1_S16384x1_S16384x1_1_0_n_n_0_1_11 1000000#32 999999#32
          ((m ((c : Thread nD τ).loc main_arg8)) : S1000000x1.Idx → EReal)
          ((m ((c : Thread nD τ).loc main_arg0)) : S16384.Idx → BitVec 32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    simp only [StableHlo.TRef.ofBuf, StableHlo.TRef.toBuf, cast_eq]
    rfl
  exact (congrFun e _).trans
    (takeOf_apply (by norm_num) (by norm_num) _ _ _ _ _ _ _ _ _ _ rfl rfl rfl rfl rfl _ _ (by decide) _ _ p (0 : Fin 1) h)

set_option maxHeartbeats 4000000 in
/-- The looked-up rows of a large table: row p of the array the region finds is the table's row the p-th index word
    selects (a word that is a row number is neither wrapped nor filled). -/
theorem V_foItem_apply (c : Dev nD) (p : Fin 16384)
    (h : (((m ((c : Thread nD τ).loc main_arg1)) : S16384.Idx → BitVec 32) (ix1 p)).toNat < 100000) :
    (V m c main_v3 : S16384x1.Idx → EReal) (ix2 p (0 : Fin 1))
      = ((m ((c : Thread nD τ).loc main_arg9)) : S100000x1.Idx → EReal) (ix2 (rowOf 100000 (by norm_num) (((m ((c : Thread nD τ).loc main_arg1)) : S16384.Idx → BitVec 32) (ix1 p))) (0 : Fin 1)) := by
  -- the array is the lookup's term over the table and the index words as launched
  have e : (V m c main_v3 : S16384x1.Idx → EReal)
      = takeOf Facts₀.bcast_S_S16384 Facts₀.bcast_S16384_S16384x1_0 Facts₀.bcast_S_S16384x1 Facts₀.bcast_S1_S1x1_1
          Facts₀.bcast_S1x1_S16384x1_0_1 Facts₀.reducesTo_S16384x1_S16384_d1 Facts₀.h_S_ Facts₀.bcast_S16384_S16384x1_0
          Facts₀.bcast_S_S16384x1 gather_S100000x1_S16384x1_S16384x1_1_0_n_n_0_1_11 100000#32 99999#32
          ((m ((c : Thread nD τ).loc main_arg9)) : S100000x1.Idx → EReal)
          ((m ((c : Thread nD τ).loc main_arg1)) : S16384.Idx → BitVec 32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    simp only [StableHlo.TRef.ofBuf, StableHlo.TRef.toBuf, cast_eq]
    rfl
  exact (congrFun e _).trans
    (takeOf_apply (by norm_num) (by norm_num) _ _ _ _ _ _ _ _ _ _ rfl rfl rfl rfl rfl _ _ (by decide) _ _ p (0 : Fin 1) h)

set_option maxHeartbeats 4000000 in
/-- The dense bias as a one-by-one matrix. -/
theorem V_denseB_apply (c : Dev nD) :
    (V m c main_v4 : S1x1.Idx → EReal) (ix2 (0 : Fin 1) (0 : Fin 1)) = ((m ((c : Thread nD τ).loc main_arg21)) : S1.Idx → EReal) (ix1 (0 : Fin 1)) := by
  -- the array is the vector laid out as one row
  have e : (V m c main_v4 : S1x1.Idx → EReal)
      = shapeCast S1x1 ((m ((c : Thread nD τ).loc main_arg21)) : S1.Idx → EReal) Facts₀.shapeCasts_S1_S1x1 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  exact (congrFun e _).trans
    (shapeCast_n_ab_apply _ _ (0 : Fin 1) (0 : Fin 1) (0 : Fin 1) (by simp))

set_option maxHeartbeats 4000000 in
/-- The first layer's bias as a one-row matrix. -/
theorem V_b1_apply (c : Dev nD) (j : Fin 128) :
    (V m c main_v5 : S1x128.Idx → EReal) (ix2 (0 : Fin 1) j) = ((m ((c : Thread nD τ).loc main_arg23)) : S128.Idx → EReal) (ix1 j) := by
  -- the array is the vector laid out as one row
  have e : (V m c main_v5 : S1x128.Idx → EReal)
      = shapeCast S1x128 ((m ((c : Thread nD τ).loc main_arg23)) : S128.Idx → EReal) Facts₀.shapeCasts_S128_S1x128 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  exact (congrFun e _).trans
    (shapeCast_n_ab_apply _ _ (0 : Fin 1) j j (by simp))

set_option maxHeartbeats 4000000 in
/-- The second layer's bias as a one-row matrix. -/
theorem V_b2_apply (c : Dev nD) (j : Fin 64) :
    (V m c main_v6 : S1x64.Idx → EReal) (ix2 (0 : Fin 1) j) = ((m ((c : Thread nD τ).loc main_arg25)) : S64.Idx → EReal) (ix1 j) := by
  -- the array is the vector laid out as one row
  have e : (V m c main_v6 : S1x64.Idx → EReal)
      = shapeCast S1x64 ((m ((c : Thread nD τ).loc main_arg25)) : S64.Idx → EReal) Facts₀.shapeCasts_S64_S1x64 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  exact (congrFun e _).trans
    (shapeCast_n_ab_apply _ _ (0 : Fin 1) j j (by simp))

set_option maxHeartbeats 4000000 in
/-- The output bias as a one-by-one matrix. -/
theorem V_bout_apply (c : Dev nD) :
    (V m c main_v7 : S1x1.Idx → EReal) (ix2 (0 : Fin 1) (0 : Fin 1)) = ((m ((c : Thread nD τ).loc main_arg27)) : S1.Idx → EReal) (ix1 (0 : Fin 1)) := by
  -- the array is the vector laid out as one row
  have e : (V m c main_v7 : S1x1.Idx → EReal)
      = shapeCast S1x1 ((m ((c : Thread nD τ).loc main_arg27)) : S1.Idx → EReal) Facts₀.shapeCasts_S1_S1x1 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  exact (congrFun e _).trans
    (shapeCast_n_ab_apply _ _ (0 : Fin 1) (0 : Fin 1) (0 : Fin 1) (by simp))

end Found

end Cert.Fm.Kernel

end
-- ==== Proof.KArrays.lean ====
/-
  From one grid point's block to the whole result. The grid has 8 points; point t stages rows 2048·t … 2048·t + 2047
  of every per-row array (and the whole of every table and weight array) and stores rows 2048·t … of the [16384,1]
  output. Row r of the stored block is the row's output (`block_row`) of data that, read back through the blocks, is
  row 2048·t + r of the program's arguments: so the output array ends, row by row, at Spec's `result`, and the last line
  of the program reads that column as a vector.
-/
import proofs.«427521_j56710748176670_3_alg».proof.Proof.FrameKernelIdeal
import proofs.«427521_j56710748176670_3_alg».proof.Proof.KReadsA
import proofs.«427521_j56710748176670_3_alg».proof.Proof.KReadsB
import proofs.«427521_j56710748176670_3_alg».proof.Proof.KReadsC
import proofs.«427521_j56710748176670_3_alg».proof.Proof.KReadsD
import proofs.«427521_j56710748176670_3_alg».proof.Proof.KBlock
import proofs.«427521_j56710748176670_3_alg».proof.Proof.KTakes
import proofs.«427521_j56710748176670_3_alg».proof.Proof.Spec
import proofs.«427521_j56710748176670_3_alg».proof.Proof.LibLayoutReads
import Idealize.ShloMosaic.Lib.Pipeline.Value
import Idealize.ShloMosaic.Lib.Tactic

noncomputable section

namespace Cert.Fm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Fm

variable (m : (ℓ : Loc nD τ sig) → Buf (Elt Ideal) ℓ) (ρ : Dev nD → PrngReg)

/-! ## The result, and what is assumed of the index inputs -/

/-- Every index word of core c's arguments is a row number of the table it indexes. -/
def InRange (c : Dev nD) : Prop :=
  (∀ b : Fin 16384, (((m ((c : Thread nD τ).loc main_arg0)) : S16384.Idx → BitVec 32) (ix1 b)).toNat < 1000000)
  ∧ (∀ b : Fin 16384, (((m ((c : Thread nD τ).loc main_arg1)) : S16384.Idx → BitVec 32) (ix1 b)).toNat < 100000)
  ∧ (∀ b : Fin 16384, (((m ((c : Thread nD τ).loc main_arg2)) : S16384.Idx → BitVec 32) (ix1 b)).toNat < 2)
  ∧ (∀ b : Fin 16384, (((m ((c : Thread nD τ).loc main_arg3)) : S16384.Idx → BitVec 32) (ix1 b)).toNat < 7)
  ∧ (∀ b : Fin 16384, (((m ((c : Thread nD τ).loc main_arg4)) : S16384.Idx → BitVec 32) (ix1 b)).toNat < 21)
  ∧ (∀ (b : Fin 16384) (g : Fin 6), (((m ((c : Thread nD τ).loc main_arg5)) : S16384x6.Idx → BitVec 32) (ix2 b g)).toNat < 19)

/-- The program's result on core c: Spec's `result` of its 28 arguments. -/
def resultOf (c : Dev nD) : S16384.Idx → EReal :=
  result
      ((m ((c : Thread nD τ).loc main_arg0)) : S16384.Idx → BitVec 32)
      ((m ((c : Thread nD τ).loc main_arg1)) : S16384.Idx → BitVec 32)
      ((m ((c : Thread nD τ).loc main_arg2)) : S16384.Idx → BitVec 32)
      ((m ((c : Thread nD τ).loc main_arg3)) : S16384.Idx → BitVec 32)
      ((m ((c : Thread nD τ).loc main_arg4)) : S16384.Idx → BitVec 32)
      ((m ((c : Thread nD τ).loc main_arg5)) : S16384x6.Idx → BitVec 32)
      ((m ((c : Thread nD τ).loc main_arg6)) : S16384x6.Idx → EReal)
      ((m ((c : Thread nD τ).loc main_arg7)) : S16384x8.Idx → EReal)
      ((m ((c : Thread nD τ).loc main_arg8)) : S1000000x1.Idx → EReal)
      ((m ((c : Thread nD τ).loc main_arg9)) : S100000x1.Idx → EReal)
      ((m ((c : Thread nD τ).loc main_arg10)) : S2x1.Idx → EReal)
      ((m ((c : Thread nD τ).loc main_arg11)) : S7x1.Idx → EReal)
      ((m ((c : Thread nD τ).loc main_arg12)) : S21x1.Idx → EReal)
      ((m ((c : Thread nD τ).loc main_arg13)) : S19x1.Idx → EReal)
      ((m ((c : Thread nD τ).loc main_arg14)) : S1000000x32.Idx → EReal)
      ((m ((c : Thread nD τ).loc main_arg15)) : S100000x32.Idx → EReal)
      ((m ((c : Thread nD τ).loc main_arg16)) : S2x32.Idx → EReal)
      ((m ((c : Thread nD τ).loc main_arg17)) : S7x32.Idx → EReal)
      ((m ((c : Thread nD τ).loc main_arg18)) : S21x32.Idx → EReal)
      ((m ((c : Thread nD τ).loc main_arg19)) : S19x32.Idx → EReal)
      ((m ((c : Thread nD τ).loc main_arg20)) : S1x8.Idx → EReal)
      ((m ((c : Thread nD τ).loc main_arg21)) : S1.Idx → EReal)
      ((m ((c : Thread nD τ).loc main_arg22)) : S128x200.Idx → EReal)
      ((m ((c : Thread nD τ).loc main_arg23)) : S128.Idx → EReal)
      ((m ((c : Thread nD τ).loc main_arg24)) : S64x128.Idx → EReal)
      ((m ((c : Thread nD τ).loc main_arg25)) : S64.Idx → EReal)
      ((m ((c : Thread nD τ).loc main_arg26)) : S1x64.Idx → EReal)
      ((m ((c : Thread nD τ).loc main_arg27)) : S1.Idx → EReal)

/-- The column the region's output array ends at: entry (b, 0) is row b of the result. -/
def outCol (c : Dev nD) : S16384x1.Idx → EReal := fun i => resultOf m c (ix1 (i 0))

/-! ## One block of the output -/

/-- Row r of what point t stores is row 2048·t + r of the result. -/
theorem block_value (c : Dev nD) (hr : InRange m c) (t : Fin cfg0.N) (r : Fin 2048) (p : Fin 16384)
    (hp : p.val = 2048 * t.val + r.val) :
    out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 r (0 : Fin 1))
      = outCol m c (ix2 p (0 : Fin 1)) := by
  obtain ⟨h0, h1, h2, h3, h4, h5⟩ := hr
  have e0 : ∀ d : Fin 32, (iblk m c 0 t : Vec Ideal S2048x32 .f32) (ix2 r d) = ((m ((c : Thread nD τ).loc main_arg14)) : S1000000x32.Idx → EReal) (ix2 (rowOf 1000000 (by norm_num) (((m ((c : Thread nD τ).loc main_arg0)) : S16384.Idx → BitVec 32) (ix1 p))) d) :=
    fun d => (blk0 m c t r p hp d).trans (V_embUser_apply m c p d (h0 p))
  have e1 : ∀ d : Fin 32, (iblk m c 1 t : Vec Ideal S2048x32 .f32) (ix2 r d) = ((m ((c : Thread nD τ).loc main_arg15)) : S100000x32.Idx → EReal) (ix2 (rowOf 100000 (by norm_num) (((m ((c : Thread nD τ).loc main_arg1)) : S16384.Idx → BitVec 32) (ix1 p))) d) :=
    fun d => (blk1 m c t r p hp d).trans (V_embItem_apply m c p d (h1 p))
  have e2 : ∀ u : Fin 1, (iblk m c 2 t : Vec Ideal S2048x1 .f32) (ix2 r u) = ((m ((c : Thread nD τ).loc main_arg8)) : S1000000x1.Idx → EReal) (ix2 (rowOf 1000000 (by norm_num) (((m ((c : Thread nD τ).loc main_arg0)) : S16384.Idx → BitVec 32) (ix1 p))) u) := fun u => by
    obtain rfl : u = 0 := Subsingleton.elim _ _
    exact (blk2 m c t r p hp 0).trans (V_foUser_apply m c p (h0 p))
  have e3 : ∀ u : Fin 1, (iblk m c 3 t : Vec Ideal S2048x1 .f32) (ix2 r u) = ((m ((c : Thread nD τ).loc main_arg9)) : S100000x1.Idx → EReal) (ix2 (rowOf 100000 (by norm_num) (((m ((c : Thread nD τ).loc main_arg1)) : S16384.Idx → BitVec 32) (ix1 p))) u) := fun u => by
    obtain rfl : u = 0 := Subsingleton.elim _ _
    exact (blk3 m c t r p hp 0).trans (V_foItem_apply m c p (h1 p))
  have e4 : (iblk m c 4 t : Vec Ideal S2048 .i32) (ix1 r) = ((m ((c : Thread nD τ).loc main_arg2)) : S16384.Idx → BitVec 32) (ix1 p) :=
    (blk4 m c t r p hp).trans (congrFun (V_main_arg2 m c) _)
  have e5 : (iblk m c 5 t : Vec Ideal S2048 .i32) (ix1 r) = ((m ((c : Thread nD τ).loc main_arg3)) : S16384.Idx → BitVec 32) (ix1 p) :=
    (blk5 m c t r p hp).trans (congrFun (V_main_arg3 m c) _)
  have e6 : (iblk m c 6 t : Vec Ideal S2048 .i32) (ix1 r) = ((m ((c : Thread nD τ).loc main_arg4)) : S16384.Idx → BitVec 32) (ix1 p) :=
    (blk6 m c t r p hp).trans (congrFun (V_main_arg4 m c) _)
  have e7 : ∀ g : Fin 6, (iblk m c 7 t : Vec Ideal S2048x6 .i32) (ix2 r g) = ((m ((c : Thread nD τ).loc main_arg5)) : S16384x6.Idx → BitVec 32) (ix2 p g) :=
    fun g => (blk7 m c t r p hp g).trans (congrFun (V_main_arg5 m c) _)
  have e8 : ∀ g : Fin 6, (iblk m c 8 t : Vec Ideal S2048x6 .f32) (ix2 r g) = ((m ((c : Thread nD τ).loc main_arg6)) : S16384x6.Idx → EReal) (ix2 p g) :=
    fun g => (blk8 m c t r p hp g).trans (congrFun (V_main_arg6 m c) _)
  have e9 : ∀ j : Fin 8, (iblk m c 9 t : Vec Ideal S2048x8 .f32) (ix2 r j) = ((m ((c : Thread nD τ).loc main_arg7)) : S16384x8.Idx → EReal) (ix2 p j) :=
    fun j => (blk9 m c t r p hp j).trans (congrFun (V_main_arg7 m c) _)
  have e10 : ∀ i : S2x32.Idx, (iblk m c 10 t : Vec Ideal S2x32 .f32) i = ((m ((c : Thread nD τ).loc main_arg16)) : S2x32.Idx → EReal) i :=
    fun i => (blk10 m c t i).trans (congrFun (V_main_arg16 m c) _)
  have e11 : ∀ i : S7x32.Idx, (iblk m c 11 t : Vec Ideal S7x32 .f32) i = ((m ((c : Thread nD τ).loc main_arg17)) : S7x32.Idx → EReal) i :=
    fun i => (blk11 m c t i).trans (congrFun (V_main_arg17 m c) _)
  have e12 : ∀ i : S21x32.Idx, (iblk m c 12 t : Vec Ideal S21x32 .f32) i = ((m ((c : Thread nD τ).loc main_arg18)) : S21x32.Idx → EReal) i :=
    fun i => (blk12 m c t i).trans (congrFun (V_main_arg18 m c) _)
  have e13 : ∀ i : S19x32.Idx, (iblk m c 13 t : Vec Ideal S19x32 .f32) i = ((m ((c : Thread nD τ).loc main_arg19)) : S19x32.Idx → EReal) i :=
    fun i => (blk13 m c t i).trans (congrFun (V_main_arg19 m c) _)
  have e14 : ∀ i : S2x1.Idx, (iblk m c 14 t : Vec Ideal S2x1 .f32) i = ((m ((c : Thread nD τ).loc main_arg10)) : S2x1.Idx → EReal) i :=
    fun i => (blk14 m c t i).trans (congrFun (V_main_arg10 m c) _)
  have e15 : ∀ i : S7x1.Idx, (iblk m c 15 t : Vec Ideal S7x1 .f32) i = ((m ((c : Thread nD τ).loc main_arg11)) : S7x1.Idx → EReal) i :=
    fun i => (blk15 m c t i).trans (congrFun (V_main_arg11 m c) _)
  have e16 : ∀ i : S21x1.Idx, (iblk m c 16 t : Vec Ideal S21x1 .f32) i = ((m ((c : Thread nD τ).loc main_arg12)) : S21x1.Idx → EReal) i :=
    fun i => (blk16 m c t i).trans (congrFun (V_main_arg12 m c) _)
  have e17 : ∀ i : S19x1.Idx, (iblk m c 17 t : Vec Ideal S19x1 .f32) i = ((m ((c : Thread nD τ).loc main_arg13)) : S19x1.Idx → EReal) i :=
    fun i => (blk17 m c t i).trans (congrFun (V_main_arg13 m c) _)
  have e18 : ∀ i : S1x8.Idx, (iblk m c 18 t : Vec Ideal S1x8 .f32) i = ((m ((c : Thread nD τ).loc main_arg20)) : S1x8.Idx → EReal) i :=
    fun i => (blk18 m c t i).trans (congrFun (V_main_arg20 m c) _)
  have e20 : ∀ i : S128x200.Idx, (iblk m c 20 t : Vec Ideal S128x200 .f32) i = ((m ((c : Thread nD τ).loc main_arg22)) : S128x200.Idx → EReal) i :=
    fun i => (blk20 m c t i).trans (congrFun (V_main_arg22 m c) _)
  have e22 : ∀ i : S64x128.Idx, (iblk m c 22 t : Vec Ideal S64x128 .f32) i = ((m ((c : Thread nD τ).loc main_arg24)) : S64x128.Idx → EReal) i :=
    fun i => (blk22 m c t i).trans (congrFun (V_main_arg24 m c) _)
  have e24 : ∀ i : S1x64.Idx, (iblk m c 24 t : Vec Ideal S1x64 .f32) i = ((m ((c : Thread nD τ).loc main_arg26)) : S1x64.Idx → EReal) i :=
    fun i => (blk24 m c t i).trans (congrFun (V_main_arg26 m c) _)
  have e19 : (iblk m c 19 t : Vec Ideal S1x1 .f32) (ix2 (0 : Fin 1) (0 : Fin 1)) = ((m ((c : Thread nD τ).loc main_arg21)) : S1.Idx → EReal) (ix1 (0 : Fin 1)) :=
    (blk19 m c t _).trans (V_denseB_apply m c)
  have e21 : ∀ j : Fin 128, (iblk m c 21 t : Vec Ideal S1x128 .f32) (ix2 (0 : Fin 1) j) = ((m ((c : Thread nD τ).loc main_arg23)) : S128.Idx → EReal) (ix1 j) :=
    fun j => (blk21 m c t _).trans (V_b1_apply m c j)
  have e23 : ∀ j : Fin 64, (iblk m c 23 t : Vec Ideal S1x64 .f32) (ix2 (0 : Fin 1) j) = ((m ((c : Thread nD τ).loc main_arg25)) : S64.Idx → EReal) (ix1 j) :=
    fun j => (blk23 m c t _).trans (V_b2_apply m c j)
  have e25 : (iblk m c 25 t : Vec Ideal S1x1 .f32) (ix2 (0 : Fin 1) (0 : Fin 1)) = ((m ((c : Thread nD τ).loc main_arg27)) : S1.Idx → EReal) (ix1 (0 : Fin 1)) :=
    (blk25 m c t _).trans (V_bout_apply m c)
  rw [block_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) r
    (by rw [e4]; exact h2 p) (by rw [e5]; exact h3 p) (by rw [e6]; exact h4 p) (fun g => by rw [e7 g]; exact h5 p g)]
  simp only [e0, e1, e2, e3, e4, e5, e6, e7, e8, e9, e10, e11, e12, e13, e14, e15, e16, e17, e18, e19, e20, e21, e22, e23, e24, e25]
  rfl

/-! ## The output array after the region -/

/-- What point t writes back is block t of the result column. -/
theorem flushed_eq (c : Dev nD) (hr : InRange m c) (t : Fin cfg0.N) :
    (dats m 0 c).flushed 26 t = ((cfg0.win 26).blk t).view.read (Elt Ideal) (outCol m c) := by
  show (cfg0.win 26).cut (grid0.coords t) ((dats m 0 c).after 26 t) = _
  rw [after0_26]
  funext j
  have ht : t.val < 8 := by
    have h := t.isLt
    have hN : cfg0.N = 8 := N_0
    omega
  have hj0 : ((j : S2048x1.Idx) 0).val < 2048 := ((j : S2048x1.Idx) 0).isLt
  have hj1 : ((j : S2048x1.Idx) 1).val < 1 := ((j : S2048x1.Idx) 1).isLt
  have hj : (j : S2048x1.Idx) = ix2 ((j : S2048x1.Idx) 0) (0 : Fin 1) := by
    funext a
    match a with
    | ⟨0, _⟩ => rfl
    | ⟨1, _⟩ => exact Fin.ext (by show ((j : S2048x1.Idx) 1).val = 0; omega)
  have hemb : ((cfg0.win 26).blk t).view.emb j
      = (ix2 (⟨2048 * t.val + ((j : S2048x1.Idx) 0).val, by omega⟩ : Fin 16384) (0 : Fin 1) : S16384x1.Idx) := by
    funext a
    apply Fin.ext
    match a with
    | ⟨0, _⟩ => show win0_26.index t 0 * 2048 + 1 * ((j : S2048x1.Idx) 0).val = 2048 * t.val + ((j : S2048x1.Idx) 0).val; rw [(idx26 t).1]; omega
    | ⟨1, _⟩ => show win0_26.index t 1 * 1 + 1 * ((j : S2048x1.Idx) 1).val = 0; rw [(idx26 t).2]; omega
  have hv := block_value m c hr t ((j : S2048x1.Idx) 0) ⟨2048 * t.val + ((j : S2048x1.Idx) 0).val, by omega⟩ rfl
  show out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) j = outCol m c (((cfg0.win 26).blk t).view.emb j)
  exact (congrArg (out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) hj).trans (hv.trans (congrArg (outCol m c) hemb.symm))

/-- An index of the output array is in point t's block iff its row is among the block's 2048. -/
theorem mem_blk26 (t : Fin cfg0.N) (i : S16384x1.Idx) :
    i ∈ ((cfg0.win 26).blk t).view.set ↔ ∀ a : Fin 2, win0_26.index t a * S2048x1.size a ≤ (i a).val ∧ (i a).val < win0_26.index t a * S2048x1.size a + S2048x1.size a := by
  show i ∈ ((View.whole main_v8).slice (win0_26.rect t)).set ↔ _
  rw [View.set_slice_whole, Rect.mem_set_unit]
  exact Iff.rfl

/-- The eight blocks tile the output array, so it ends at the result column. -/
theorem final (c : Dev nD) (hr : InRange m c) : (dats m 0 c).arrAt 26 cfg0.N = outCol m c :=
  (dats m 0 c).arrAt_eq_of_cover 26 (outCol m c) (fun t _ => flushed_eq m c hr t) fun i => by
    have hi0 : ((i : S16384x1.Idx) 0).val < 16384 := ((i : S16384x1.Idx) 0).isLt
    have hi1 : ((i : S16384x1.Idx) 1).val < 1 := ((i : S16384x1.Idx) 1).isLt
    refine ⟨⟨((i : S16384x1.Idx) 0).val / 2048, by rw [show cfg0.N = 8 from N_0]; omega⟩, flush0_26 _, ?_⟩
    rw [mem_blk26]
    intro a
    match a with
    | ⟨0, _⟩ =>
      show win0_26.index _ 0 * 2048 ≤ ((i : S16384x1.Idx) 0).val ∧ ((i : S16384x1.Idx) 0).val < win0_26.index _ 0 * 2048 + 2048
      rw [(idx26 _).1]
      show ((i : S16384x1.Idx) 0).val / 2048 * 2048 ≤ _ ∧ _ < ((i : S16384x1.Idx) 0).val / 2048 * 2048 + 2048
      omega
    | ⟨1, _⟩ =>
      show win0_26.index _ 1 * 1 ≤ ((i : S16384x1.Idx) 1).val ∧ ((i : S16384x1.Idx) 1).val < win0_26.index _ 1 * 1 + 1
      rw [(idx26 _).2]
      omega

/-! ## The last line of the program, and the run -/

/-- The result vector: the output column read as a vector. -/
theorem tail_value (c : Dev nD) (hr : InRange m c) :
    (Pipeline.afterTail₀ cfgs (dats m) 0 (V0 m) [hostOps1] c main_v9 : S16384.Idx → EReal) = resultOf m c := by
  unfold Pipeline.afterTail₀
  show StableHlo.after hostOps1 _ (Proc.devRef .tc main_v9) = _
  after_results
  funext i
  have hw : (Pipeline.withArrays (cfgs 0).spec c (V0 m c) (fun w => (dats m 0 c).arrAt w (cfgs 0).N)
      (Proc.devRef .tc main_v8) : S16384x1.Idx → EReal) = outCol m c :=
    (Pipeline.withArrays_arr spec0 launch0.win.arr_inj c _ _ 26).trans (final m c hr)
  show shapeCast S16384 (Pipeline.withArrays (cfgs 0).spec c (V0 m c) (fun w => (dats m 0 c).arrAt w (cfgs 0).N)
      (Proc.devRef .tc main_v8) : S16384x1.Idx → EReal) shapeCasts_S16384x1_S16384 i = resultOf m c i
  rw [hw, eq_ix1 i]
  refine (Cert.Gcn.LayoutReads.shapeCast_ab_n_apply (outCol m c) shapeCasts_S16384x1_S16384 (i 0) (i 0) (0 : Fin 1) (by simp)).trans ?_
  rfl

set_option maxHeartbeats 4000000 in
/-- The kernel program's run: every weakly fair execution terminates with the result buffer at Spec's `result` of the
    arguments and the arguments unchanged. (The twenty-eight "unchanged" facts are read off the frame run's post as the
    frame certificate reads them.) -/
theorem run (hr : ∀ c, InRange m c) :
    θ_run defs (onTc (τ := τ) (main (F := Ideal))) ⟨m, fun _ => 0, ρ⟩ (fun r => ∀ c : Dev nD,
      r.2.mem ((c.tc : Thread nD τ).loc main_v9) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).2 main_v9 (Pipeline.mem_restRefs_of main_v9 (by decide) (by decide))).trans (tail_value m c (hr c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 14).trans (((dats m 0 c).arrAt_in 14 rfl _).trans ((A_eq m c 14).trans (V_main_arg10 m c))),
      ((h c).1 15).trans (((dats m 0 c).arrAt_in 15 rfl _).trans ((A_eq m c 15).trans (V_main_arg11 m c))),
      ((h c).1 16).trans (((dats m 0 c).arrAt_in 16 rfl _).trans ((A_eq m c 16).trans (V_main_arg12 m c))),
      ((h c).1 17).trans (((dats m 0 c).arrAt_in 17 rfl _).trans ((A_eq m c 17).trans (V_main_arg13 m c))),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      ((h c).1 10).trans (((dats m 0 c).arrAt_in 10 rfl _).trans ((A_eq m c 10).trans (V_main_arg16 m c))),
      ((h c).1 11).trans (((dats m 0 c).arrAt_in 11 rfl _).trans ((A_eq m c 11).trans (V_main_arg17 m c))),
      ((h c).1 12).trans (((dats m 0 c).arrAt_in 12 rfl _).trans ((A_eq m c 12).trans (V_main_arg18 m c))),
      ((h c).1 13).trans (((dats m 0 c).arrAt_in 13 rfl _).trans ((A_eq m c 13).trans (V_main_arg19 m c))),
      ((h c).1 18).trans (((dats m 0 c).arrAt_in 18 rfl _).trans ((A_eq m c 18).trans (V_main_arg20 m c))),
      (((h c).2 main_arg21 (Pipeline.mem_restRefs_of main_arg21 (by decide) (by decide))).trans (W_main_arg21 m (dats m) c)),
      ((h c).1 20).trans (((dats m 0 c).arrAt_in 20 rfl _).trans ((A_eq m c 20).trans (V_main_arg22 m c))),
      (((h c).2 main_arg23 (Pipeline.mem_restRefs_of main_arg23 (by decide) (by decide))).trans (W_main_arg23 m (dats m) c)),
      ((h c).1 22).trans (((dats m 0 c).arrAt_in 22 rfl _).trans ((A_eq m c 22).trans (V_main_arg24 m c))),
      (((h c).2 main_arg25 (Pipeline.mem_restRefs_of main_arg25 (by decide) (by decide))).trans (W_main_arg25 m (dats m) c)),
      ((h c).1 24).trans (((dats m 0 c).arrAt_in 24 rfl _).trans ((A_eq m c 24).trans (V_main_arg26 m c))),
      (((h c).2 main_arg27 (Pipeline.mem_restRefs_of main_arg27 (by decide) (by decide))).trans (W_main_arg27 m (dats m) c))⟩) (run_main m ρ)

end Cert.Fm.Kernel

end
-- ==== Proof.LibGather3.lean ====
/-
  The row gather whose start indices are an [e1 × e2 × 1] array, read at one element, with the two layout
  operations that go with it.

  The gather has the index vector on axis 2 of the start indices, one component, sent to operand axis 0,
  that axis collapsed, and result axis 2 an offset axis of full width.  Result element (p, q, c) reads its
  one start-index component at (p, q, 0), as a signed integer clamped into the operand; when the integer
  is a row number k < n the clamp does nothing and the element is the operand's (k, c).

  An [e1 × e2] array of index words becomes the [e1 × e2 × 1] array of start indices by a broadcast along a
  new last unit axis: the word at (p, q, 0) is the word at (p, q).  The [e1 × e2 × f] result becomes a matrix
  of e1·e2 rows by a reshape: row p·e2 + q of the matrix is the result's row (p, q).

  Each statement takes the dimension numbers' fields as hypotheses, so it applies to any record with those
  fields.
-/
import Idealize.ShloMosaic.PureOps.Ideal
import Idealize.ShloMosaic.Lib.ValueIdx
import Idealize.ShloMosaic.Lib.Pipeline.Value

noncomputable section

namespace Cert.Gcn.Gather3

open Idealize.ShloMosaic Idealize.ShloMosaic.ValueIdx

/-! ## Axes and coordinates of a rank-3 index -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- A coordinate of a rank-3 index on the axis numbered 0 is its first coordinate. -/
theorem coord3_of_val0 {a b c : ℕ} (j : (⟨3, ![a, b, c]⟩ : Shape).Idx) (X : Fin 3) (hX : X.val = 0) :
    (j X).val = (j 0).val := by
  have : X = 0 := Fin.ext hX
  subst this; rfl

/-- A coordinate of a rank-3 index on the axis numbered 1 is its second coordinate. -/
theorem coord3_of_val1 {a b c : ℕ} (j : (⟨3, ![a, b, c]⟩ : Shape).Idx) (X : Fin 3) (hX : X.val = 1) :
    (j X).val = (j 1).val := by
  have : X = 1 := Fin.ext hX
  subst this; rfl

/-- A coordinate of a rank-3 index on the axis numbered 2 is its third coordinate. -/
theorem coord3_of_val2 {a b c : ℕ} (j : (⟨3, ![a, b, c]⟩ : Shape).Idx) (X : Fin 3) (hX : X.val = 2) :
    (j X).val = (j 2).val := by
  have : X = 2 := Fin.ext hX
  subst this; rfl

/-- The list of the first two of three axes holds axis i at place i. -/
theorem getElem_01 (l : List (Fin 3)) (hl : l = [0, 1]) (i : ℕ) (hi : i < l.length) : (l[i]).val = i := by
  subst hl
  match i, hi with
  | 0, _ => rfl
  | 1, _ => rfl

/-! ## The start-index position -/

/-- Result element (p, q, c) reads its one start-index component at (p, q, 0). -/
theorem gather3_siIdx {s : Shape} {e1 e2 f : ℕ} (d : GatherDims s ⟨3, ![e1, e2, 1]⟩ ⟨3, ![e1, e2, f]⟩)
    (hod : d.offsetDims = [2]) (hivd : d.indexVectorDim = 2) (j : (⟨3, ![e1, e2, f]⟩ : Shape).Idx)
    (c : Fin d.startIndexMap.length) :
    d.siIdx j c = ix3 (n0 := e1) (n1 := e2) (n2 := 1) (j 0) (j 1) 0 := by
  have hbd : (d.batchDims : List (Fin 3)) = [0, 1] := by
    show (List.finRange 3).filter (fun x => decide (x ∉ d.offsetDims)) = _
    rw [hod]; rfl
  have hsk : (d.siKept : List (Fin 3)) = [0, 1] := by
    show (List.finRange 3).filter (fun x => decide (x.val ≠ d.indexVectorDim)) = _
    rw [hivd]; rfl
  funext b
  match b with
  | ⟨0, h0⟩ =>
    unfold GatherDims.siIdx
    rw [dif_neg (by rw [hivd]; simp)]
    unfold GatherDims.siCoord
    apply Fin.ext
    simp only [Fin.val_cast]
    refine coord3_of_val0 j _ ?_
    rw [getElem_01 _ hbd]
    show List.idxOf (⟨0, h0⟩ : Fin 3) (d.siKept : List (Fin 3)) = 0
    rw [hsk]; rfl
  | ⟨1, h1⟩ =>
    unfold GatherDims.siIdx
    rw [dif_neg (by rw [hivd]; simp)]
    unfold GatherDims.siCoord
    apply Fin.ext
    simp only [Fin.val_cast]
    refine coord3_of_val1 j _ ?_
    rw [getElem_01 _ hbd]
    show List.idxOf (⟨1, h1⟩ : Fin 3) (d.siKept : List (Fin 3)) = 1
    rw [hsk]; rfl
  | ⟨2, h2⟩ =>
    apply Fin.ext
    have hlt := (d.siIdx j c ⟨2, h2⟩).isLt
    have h3 : (⟨3, ![e1, e2, 1]⟩ : Shape).size ⟨2, h2⟩ = 1 := rfl
    show (d.siIdx j c ⟨2, h2⟩).val = 0
    omega

/-! ## The gather read at an element -/

/-- [n × f] operand, [e1 × e2 × 1] start indices, [e1 × e2 × f] result, the last result axis an offset axis
    of full width: when the index word at (p, q, 0), read signed, is a row k < n, result element (p, q, c) is
    the operand's element (k, c). -/
theorem gather3_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (j : (⟨3, ![e1, e2, f]⟩ : Shape).Idx)
    (k : ℕ) (hk : k < n) (hidx : (idx (ix3 (j 0) (j 1) (0 : Fin 1))).toInt = (k : Int)) :
    Host.gather d x idx j = x (ix2 ⟨k, hk⟩ ⟨(j 2).val, (j 2).isLt⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 2).val, (j 2).isLt⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather3_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 2).val
    have hall : ∀ x ∈ d.offsetDims, x.val = 2 := by rw [hod]; simp
    rw [coord3_of_val2 j _ (hall _ (List.getElem_mem _))]
    omega

/-- The same, by coordinates. -/
theorem gather3_ix_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (p : Fin e1) (q : Fin e2) (c : Fin f)
    (k : ℕ) (hk : k < n) (hidx : (idx (ix3 p q (0 : Fin 1))).toInt = (k : Int)) :
    Host.gather d x idx (ix3 p q c) = x (ix2 ⟨k, hk⟩ c) :=
  gather3_apply d hod hcoll hob hsim hivd x idx (ix3 p q c) k hk hidx

/-! ## The start indices from a matrix of words, and the result as a matrix of rows -/

variable {α : Type}

/-- A matrix given a new last unit axis by a broadcast reads, at (p, q, 0), the matrix at (p, q). -/
theorem broadcastInDim_ab_ab1_apply {a b : ℕ}
    (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) :=
  broadcastInDim_apply ![0, 1] h x _ _ (fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl)

/-- An [a × b × c] array reshaped to a matrix of m rows reads, at (r, k) with r = p·b + q, the array at
    (p, q, k). -/
theorem shapeCast_abc_mc_apply {a b c m : ℕ} (x : (⟨3, ![a, b, c]⟩ : Shape).Idx → α)
    (h : (⟨3, ![a, b, c]⟩ : Shape).ShapeCasts ⟨2, ![m, c]⟩) (r : Fin m) (k : Fin c) (p : Fin a) (q : Fin b)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

end Cert.Gcn.Gather3

end
-- ==== Proof.RefFields.lean ====
/-
  The reference's six field embeddings of every row. Each of the first five is a row of an embedding table chosen by the
  row's index word (a word that is a row number is neither wrapped nor clamped); the sixth is the masked mean of the
  six genre rows the row's genre words choose. The six are laid side by side along a new middle axis.
-/
import proofs.«427521_j56710748176670_3_alg».proof.Proof.Gen.ReferenceIdeal.Read
import proofs.«427521_j56710748176670_3_alg».proof.Proof.Spec
import proofs.«427521_j56710748176670_3_alg».proof.Proof.LibGatherClamp
import proofs.«427521_j56710748176670_3_alg».proof.Proof.LibGather3
import proofs.«427521_j56710748176670_3_alg».proof.Proof.LibDenseForms
import proofs.«427521_j56710748176670_3_alg».proof.Proof.LibWordArith
import Idealize.ShloMosaic.Lib.IdealHost

noncomputable section

namespace Cert.Fm.Ref

open Idealize.ShloMosaic Idealize.ShloMosaic.ValueIdx Cert.ReferenceIdeal Cert.ReferenceIdeal.Read Cert.Fm

/-! ## Six unit pieces joined along the middle axis -/

/-- Off the middle axis, the indices (b, 0, d) of a piece and (b, k, d) of the joined array have the same coordinates. -/
private theorem off_axis {m n : ℕ} (b : Fin m) (k : Fin 6) (d : Fin n)
    (hr : (⟨3, ![m, 1, n]⟩ : Shape).rank = (⟨3, ![m, 6, n]⟩ : Shape).rank) (b' : Fin (⟨3, ![m, 1, n]⟩ : Shape).rank) (hb' : b'.cast hr ≠ 1) :
    ((ix3 b (0 : Fin 1) d : (⟨3, ![m, 1, n]⟩ : Shape).Idx) b').val = ((ix3 b k d : (⟨3, ![m, 6, n]⟩ : Shape).Idx) (b'.cast hr)).val := by
  match b' with
  | ⟨0, _⟩ => rfl
  | ⟨1, _⟩ => exact absurd (Fin.ext rfl) hb'
  | ⟨2, _⟩ => rfl

/-- Six [m × 1 × n] arrays joined along the middle axis: entry (b, k, d) of the result is entry (b, 0, d) of piece k.
    Every piece has extent one on the joined axis, so k unit pieces lie before piece k and piece k holds exactly
    position k. -/
private theorem concat6_apply {α : Type} {m n : ℕ} (f0 f1 f2 f3 f4 f5 : (⟨3, ![m, 1, n]⟩ : Shape).Idx → α)
    (h : Shape.Concatenates
      (([⟨⟨3, ![m, 1, n]⟩, f0⟩, ⟨⟨3, ![m, 1, n]⟩, f1⟩, ⟨⟨3, ![m, 1, n]⟩, f2⟩,
        ⟨⟨3, ![m, 1, n]⟩, f3⟩, ⟨⟨3, ![m, 1, n]⟩, f4⟩, ⟨⟨3, ![m, 1, n]⟩, f5⟩] :
        List ((s : Shape) × (s.Idx → α))).map (·.1)) ⟨3, ![m, 6, n]⟩ 1)
    (b : Fin m) (k : Fin 6) (d : Fin n) :
    concatenate ⟨3, ![m, 6, n]⟩ 1
        [⟨⟨3, ![m, 1, n]⟩, f0⟩, ⟨⟨3, ![m, 1, n]⟩, f1⟩, ⟨⟨3, ![m, 1, n]⟩, f2⟩,
         ⟨⟨3, ![m, 1, n]⟩, f3⟩, ⟨⟨3, ![m, 1, n]⟩, f4⟩, ⟨⟨3, ![m, 1, n]⟩, f5⟩] h (ix3 b k d)
      = (![f0, f1, f2, f3, f4, f5] k) (ix3 b (0 : Fin 1) d) := by
  match k with
  | ⟨0, hk⟩ =>
    exact concatenate_apply_piece (t := ⟨3, ![m, 6, n]⟩) 1 _ h (ix3 b ⟨0, hk⟩ d) 0 (by simp) ⟨3, ![m, 1, n]⟩ f0 rfl rfl 0 rfl
      (ix3 b (0 : Fin 1) d) (off_axis b ⟨0, hk⟩ d rfl) rfl
  | ⟨1, hk⟩ =>
    exact concatenate_apply_piece (t := ⟨3, ![m, 6, n]⟩) 1 _ h (ix3 b ⟨1, hk⟩ d) 1 (by simp) ⟨3, ![m, 1, n]⟩ f1 rfl rfl 1 rfl
      (ix3 b (0 : Fin 1) d) (off_axis b ⟨1, hk⟩ d rfl) rfl
  | ⟨2, hk⟩ =>
    exact concatenate_apply_piece (t := ⟨3, ![m, 6, n]⟩) 1 _ h (ix3 b ⟨2, hk⟩ d) 2 (by simp) ⟨3, ![m, 1, n]⟩ f2 rfl rfl 2 rfl
      (ix3 b (0 : Fin 1) d) (off_axis b ⟨2, hk⟩ d rfl) rfl
  | ⟨3, hk⟩ =>
    exact concatenate_apply_piece (t := ⟨3, ![m, 6, n]⟩) 1 _ h (ix3 b ⟨3, hk⟩ d) 3 (by simp) ⟨3, ![m, 1, n]⟩ f3 rfl rfl 3 rfl
      (ix3 b (0 : Fin 1) d) (off_axis b ⟨3, hk⟩ d rfl) rfl
  | ⟨4, hk⟩ =>
    exact concatenate_apply_piece (t := ⟨3, ![m, 6, n]⟩) 1 _ h (ix3 b ⟨4, hk⟩ d) 4 (by simp) ⟨3, ![m, 1, n]⟩ f4 rfl rfl 4 rfl
      (ix3 b (0 : Fin 1) d) (off_axis b ⟨4, hk⟩ d rfl) rfl
  | ⟨5, hk⟩ =>
    exact concatenate_apply_piece (t := ⟨3, ![m, 6, n]⟩) 1 _ h (ix3 b ⟨5, hk⟩ d) 5 (by simp) ⟨3, ![m, 1, n]⟩ f5 rfl rfl 5 rfl
      (ix3 b (0 : Fin 1) d) (off_axis b ⟨5, hk⟩ d rfl) rfl

/-! ## Fields 0 … 4: one table row each -/

/-- A row gather by an [e × 1] column of index words reads, for result row p, the table row the word at (p, 0) selects. -/
private theorem gatherRows_apply {n f e : ℕ} (hn : 0 < n) (G : GatherDims ⟨2, ![n, f]⟩ ⟨2, ![e, 1]⟩ ⟨2, ![e, f]⟩)
    (hod : G.offsetDims = [1]) (hcoll : G.collapsedSliceDims = [0]) (hob : G.operandBatchingDims = [])
    (hsim : G.startIndexMap = [0]) (hivd : G.indexVectorDim = 1)
    (T : Mat n f) (col : IVec ⟨2, ![e, 1]⟩ 32) (w : BitVec 32) (p : Fin e) (c : Fin f)
    (hcol : col (ix2 p (0 : Fin 1)) = w) :
    Host.gather G T col (ix2 p c) = T (ix2 (rowOf n hn w) c) := by
  subst hcol
  exact Cert.Gcn.GatherClamp.gather2_clamp_apply hn G hod hcoll hob hsim hivd T col p c

/-- The user index column at (b, 0) is row b's user word: the word is a row number, so it is not negative and
    the wrap-around leaves it alone. -/
private theorem col0 (x0 : Ids 16384) (b : Fin 16384) (hw : (x0 (ix1 b)).toNat < 2 ^ 31) :
    val_main_v64 (F := Ideal) x0 (ix2 b (0 : Fin 1)) = x0 (ix1 b) := by
  have e : idx_main_v64 (ix2 b (0 : Fin 1)) = ix1 b :=
    funext fun a => Fin.ext (by match a with | ⟨0, _⟩ => rfl)
  rw [val_main_v64_apply, e, val_main_v63_apply, val_main_v60_apply, val_main_v62_apply, val_main_v59_apply,
    val_main_c_13_apply]
  exact Cert.Gcn.WordArith.select_slt_zero_small _ hw

/-- Piece 0 at (b, 0, d) is the user table's row named by row b's word, at column d. -/
private theorem field0 (x0 : Ids 16384) (x14 : Mat 1000000 32) (b : Fin 16384) (d : Fin 32)
    (hw : (x0 (ix1 b)).toNat < 2 ^ 31) :
    val_main_v109 (F := Ideal) x0 x14 (ix3 b (0 : Fin 1) d)
      = x14 (ix2 (rowOf 1000000 (by norm_num) (x0 (ix1 b))) d) := by
  have e : idx_main_v109 (ix3 b (0 : Fin 1) d) = ix2 b d :=
    funext fun a => Fin.ext (by match a with | ⟨0, _⟩ => rfl | ⟨1, _⟩ => rfl)
  rw [val_main_v109_apply, e]
  unfold val_main_v65
  exact gatherRows_apply (by norm_num) _ rfl rfl rfl rfl rfl x14 _ _ b d (col0 x0 b hw)

/-- The item index column at (b, 0) is row b's item word: the word is a row number, so it is not negative and
    the wrap-around leaves it alone. -/
private theorem col1 (x1 : Ids 16384) (b : Fin 16384) (hw : (x1 (ix1 b)).toNat < 2 ^ 31) :
    val_main_v71 (F := Ideal) x1 (ix2 b (0 : Fin 1)) = x1 (ix1 b) := by
  have e : idx_main_v71 (ix2 b (0 : Fin 1)) = ix1 b :=
    funext fun a => Fin.ext (by match a with | ⟨0, _⟩ => rfl)
  rw [val_main_v71_apply, e, val_main_v70_apply, val_main_v67_apply, val_main_v69_apply, val_main_v66_apply,
    val_main_c_15_apply]
  exact Cert.Gcn.WordArith.select_slt_zero_small _ hw

/-- Piece 1 at (b, 0, d) is the item table's row named by row b's word, at column d. -/
private theorem field1 (x1 : Ids 16384) (x15 : Mat 100000 32) (b : Fin 16384) (d : Fin 32)
    (hw : (x1 (ix1 b)).toNat < 2 ^ 31) :
    val_main_v110 (F := Ideal) x1 x15 (ix3 b (0 : Fin 1) d)
      = x15 (ix2 (rowOf 100000 (by norm_num) (x1 (ix1 b))) d) := by
  have e : idx_main_v110 (ix3 b (0 : Fin 1) d) = ix2 b d :=
    funext fun a => Fin.ext (by match a with | ⟨0, _⟩ => rfl | ⟨1, _⟩ => rfl)
  rw [val_main_v110_apply, e]
  unfold val_main_v72
  exact gatherRows_apply (by norm_num) _ rfl rfl rfl rfl rfl x15 _ _ b d (col1 x1 b hw)

/-- The gender index column at (b, 0) is row b's gender word: the word is a row number, so it is not negative and
    the wrap-around leaves it alone. -/
private theorem col2 (x2 : Ids 16384) (b : Fin 16384) (hw : (x2 (ix1 b)).toNat < 2 ^ 31) :
    val_main_v78 (F := Ideal) x2 (ix2 b (0 : Fin 1)) = x2 (ix1 b) := by
  have e : idx_main_v78 (ix2 b (0 : Fin 1)) = ix1 b :=
    funext fun a => Fin.ext (by match a with | ⟨0, _⟩ => rfl)
  rw [val_main_v78_apply, e, val_main_v77_apply, val_main_v74_apply, val_main_v76_apply, val_main_v73_apply,
    val_main_c_17_apply]
  exact Cert.Gcn.WordArith.select_slt_zero_small _ hw

/-- Piece 2 at (b, 0, d) is the gender table's row named by row b's word, at column d. -/
private theorem field2 (x2 : Ids 16384) (x16 : Mat 2 32) (b : Fin 16384) (d : Fin 32)
    (hw : (x2 (ix1 b)).toNat < 2 ^ 31) :
    val_main_v111 (F := Ideal) x2 x16 (ix3 b (0 : Fin 1) d)
      = x16 (ix2 (rowOf 2 (by norm_num) (x2 (ix1 b))) d) := by
  have e : idx_main_v111 (ix3 b (0 : Fin 1) d) = ix2 b d :=
    funext fun a => Fin.ext (by match a with | ⟨0, _⟩ => rfl | ⟨1, _⟩ => rfl)
  rw [val_main_v111_apply, e]
  unfold val_main_v79
  exact gatherRows_apply (by norm_num) _ rfl rfl rfl rfl rfl x16 _ _ b d (col2 x2 b hw)

/-- The age index column at (b, 0) is row b's age word: the word is a row number, so it is not negative and
    the wrap-around leaves it alone. -/
private theorem col3 (x3 : Ids 16384) (b : Fin 16384) (hw : (x3 (ix1 b)).toNat < 2 ^ 31) :
    val_main_v85 (F := Ideal) x3 (ix2 b (0 : Fin 1)) = x3 (ix1 b) := by
  have e : idx_main_v85 (ix2 b (0 : Fin 1)) = ix1 b :=
    funext fun a => Fin.ext (by match a with | ⟨0, _⟩ => rfl)
  rw [val_main_v85_apply, e, val_main_v84_apply, val_main_v81_apply, val_main_v83_apply, val_main_v80_apply,
    val_main_c_19_apply]
  exact Cert.Gcn.WordArith.select_slt_zero_small _ hw

/-- Piece 3 at (b, 0, d) is the age table's row named by row b's word, at column d. -/
private theorem field3 (x3 : Ids 16384) (x17 : Mat 7 32) (b : Fin 16384) (d : Fin 32)
    (hw : (x3 (ix1 b)).toNat < 2 ^ 31) :
    val_main_v112 (F := Ideal) x3 x17 (ix3 b (0 : Fin 1) d)
      = x17 (ix2 (rowOf 7 (by norm_num) (x3 (ix1 b))) d) := by
  have e : idx_main_v112 (ix3 b (0 : Fin 1) d) = ix2 b d :=
    funext fun a => Fin.ext (by match a with | ⟨0, _⟩ => rfl | ⟨1, _⟩ => rfl)
  rw [val_main_v112_apply, e]
  unfold val_main_v86
  exact gatherRows_apply (by norm_num) _ rfl rfl rfl rfl rfl x17 _ _ b d (col3 x3 b hw)

/-- The occupation index column at (b, 0) is row b's occupation word: the word is a row number, so it is not negative and
    the wrap-around leaves it alone. -/
private theorem col4 (x4 : Ids 16384) (b : Fin 16384) (hw : (x4 (ix1 b)).toNat < 2 ^ 31) :
    val_main_v92 (F := Ideal) x4 (ix2 b (0 : Fin 1)) = x4 (ix1 b) := by
  have e : idx_main_v92 (ix2 b (0 : Fin 1)) = ix1 b :=
    funext fun a => Fin.ext (by match a with | ⟨0, _⟩ => rfl)
  rw [val_main_v92_apply, e, val_main_v91_apply, val_main_v88_apply, val_main_v90_apply, val_main_v87_apply,
    val_main_c_21_apply]
  exact Cert.Gcn.WordArith.select_slt_zero_small _ hw

/-- Piece 4 at (b, 0, d) is the occupation table's row named by row b's word, at column d. -/
private theorem field4 (x4 : Ids 16384) (x18 : Mat 21 32) (b : Fin 16384) (d : Fin 32)
    (hw : (x4 (ix1 b)).toNat < 2 ^ 31) :
    val_main_v113 (F := Ideal) x4 x18 (ix3 b (0 : Fin 1) d)
      = x18 (ix2 (rowOf 21 (by norm_num) (x4 (ix1 b))) d) := by
  have e : idx_main_v113 (ix3 b (0 : Fin 1) d) = ix2 b d :=
    funext fun a => Fin.ext (by match a with | ⟨0, _⟩ => rfl | ⟨1, _⟩ => rfl)
  rw [val_main_v113_apply, e]
  unfold val_main_v93
  exact gatherRows_apply (by norm_num) _ rfl rfl rfl rfl rfl x18 _ _ b d (col4 x4 b hw)

/-! ## Field 5: the masked mean of the six genre rows -/

/-- The genre index array at (b, g, 0) is row b's g-th genre word (a row number, so the wrap-around leaves it alone). -/
private theorem gcol (x5 : IdMat 16384 6) (b : Fin 16384) (g : Fin 6) (hw : (x5 (ix2 b g)).toNat < 2 ^ 31) :
    val_main_v99 (F := Ideal) x5 (ix3 b g (0 : Fin 1)) = x5 (ix2 b g) := by
  have e : idx_main_v99 (ix3 b g (0 : Fin 1)) = ix2 b g :=
    funext fun a => Fin.ext (by match a with | ⟨0, _⟩ => rfl | ⟨1, _⟩ => rfl)
  rw [val_main_v99_apply, e, val_main_v98_apply, val_main_v95_apply, val_main_v97_apply, val_main_v94_apply,
    val_main_c_23_apply]
  exact Cert.Gcn.WordArith.select_slt_zero_small _ hw

/-- The gathered genre rows: entry (b, g, d) is the genre table's row named by the g-th genre word, at column d. -/
private theorem grow (x5 : IdMat 16384 6) (x19 : Mat 19 32) (b : Fin 16384) (g : Fin 6) (d : Fin 32)
    (hw : (x5 (ix2 b g)).toNat < 19) :
    val_main_v100 (F := Ideal) x5 x19 (ix3 b g d) = x19 (ix2 (rowOf 19 (by norm_num) (x5 (ix2 b g))) d) := by
  unfold val_main_v100
  rw [rowOf_of_lt 19 (by norm_num) (by norm_num) _ hw]
  exact Cert.Gcn.Gather3.gather3_ix_apply _ rfl rfl rfl rfl rfl x19 _ b g d _ hw
    (by rw [gcol x5 b g (by omega)]; exact Cert.Gcn.WordArith.toInt_of_small (by omega))

/-- The mask spread over the 32 columns: entry (b, g, d) is the mask at (b, g). -/
private theorem mask3 (x6 : Mat 16384 6) (b : Fin 16384) (g : Fin 6) (d : Fin 32) :
    val_main_v104 (F := Ideal) x6 (ix3 b g d) = x6 (ix2 b g) := by
  have e1 : idx_main_v104 (ix3 b g d) = ix3 b g (0 : Fin 1) :=
    funext fun a => Fin.ext (by match a with | ⟨0, _⟩ => rfl | ⟨1, _⟩ => rfl | ⟨2, _⟩ => rfl)
  have e2 : idx_main_v101 (ix3 b g (0 : Fin 1)) = ix2 b g :=
    funext fun a => Fin.ext (by match a with | ⟨0, _⟩ => rfl | ⟨1, _⟩ => rfl)
  rw [val_main_v104_apply, e1, val_main_v101_apply, e2]

/-- The numerator: the sum over the six genres of the genre row's entry times the mask. The sum starts from the
    word of zero, which is 0. -/
private theorem numer (x5 : IdMat 16384 6) (x6 : Mat 16384 6) (x19 : Mat 19 32) (b : Fin 16384) (d : Fin 32)
    (h5b : ∀ g : Fin 6, (x5 (ix2 b g)).toNat < 19) :
    val_main_v106 (F := Ideal) x5 x6 x19 (ix2 b d)
      = ∑ g : Fin 6, x19 (ix2 (rowOf 19 (by norm_num) (x5 (ix2 b g))) d) * x6 (ix2 b g) := by
  have e : ∀ g : Fin 6, idx_main_v106 (ix2 b d) g = ix3 b g d := fun g =>
    funext fun a => Fin.ext (by match a with | ⟨0, _⟩ => rfl | ⟨1, _⟩ => rfl | ⟨2, _⟩ => rfl)
  rw [val_main_v106_apply, val_main_cst_27_apply, Ideal.ofBits_def, Ideal.ofBits_zero_f32, zero_add]
  refine Finset.sum_congr rfl fun g _ => ?_
  rw [e g, val_main_v105_apply, grow x5 x19 b g d (h5b g), mask3 x6 b g d]
  rfl

/-- The denominator: the larger of 1 and the sum of the six mask entries. -/
private theorem denom (x6 : Mat 16384 6) (b : Fin 16384) (d : Fin 32) :
    val_main_v107 (F := Ideal) x6 (ix2 b d) = max 1 (∑ g : Fin 6, x6 (ix2 b g)) := by
  have e1 : idx_main_v107 (ix2 b d) = ix2 b (0 : Fin 1) :=
    funext fun a => Fin.ext (by match a with | ⟨0, _⟩ => rfl | ⟨1, _⟩ => rfl)
  have e2 : ∀ g : Fin 6, idx_main_v102 (ix2 b (0 : Fin 1)) g = ix3 b g (0 : Fin 1) := fun g =>
    funext fun a => Fin.ext (by match a with | ⟨0, _⟩ => rfl | ⟨1, _⟩ => rfl | ⟨2, _⟩ => rfl)
  have e3 : ∀ g : Fin 6, idx_main_v101 (ix3 b g (0 : Fin 1)) = ix2 b g := fun g =>
    funext fun a => Fin.ext (by match a with | ⟨0, _⟩ => rfl | ⟨1, _⟩ => rfl)
  rw [val_main_v107_apply, e1, val_main_v103_apply, val_main_call1_v1_apply, val_main_call1_v0_apply,
    val_main_cst_26_apply, val_main_v102_apply, val_main_cst_25_apply]
  simp only [Ideal.maximumf_def, Ideal.ofBits_def, Ideal.ofBits_one_f32, Ideal.ofBits_zero_f32, zero_add]
  refine congrArg (max 1) (Finset.sum_congr rfl fun g _ => ?_)
  rw [e2 g, val_main_v101_apply, e3 g]

/-- Piece 5 at (b, 0, d) is the masked mean of the six genre rows at column d. -/
private theorem field5 (x5 : IdMat 16384 6) (x6 : Mat 16384 6) (x19 : Mat 19 32) (b : Fin 16384) (d : Fin 32)
    (h5b : ∀ g : Fin 6, (x5 (ix2 b g)).toNat < 19) :
    val_main_v114 (F := Ideal) x5 x6 x19 (ix3 b (0 : Fin 1) d)
      = pool (fun g => x19 (ix2 (rowOf 19 (by norm_num) (x5 (ix2 b g))) d)) (fun g => x6 (ix2 b g)) := by
  have e : idx_main_v114 (ix3 b (0 : Fin 1) d) = ix2 b d :=
    funext fun a => Fin.ext (by match a with | ⟨0, _⟩ => rfl | ⟨1, _⟩ => rfl)
  rw [val_main_v114_apply, e, val_main_v108_apply, numer x5 x6 x19 b d h5b, denom x6 b d]
  rfl

/-! ## The six fields side by side -/

/-- Entry (b, k, d) of the stacked embeddings is field k of row b at column d. -/
theorem ref_fields (x0 x1 x2 x3 x4 : Ids 16384) (x5 : IdMat 16384 6) (x6 : Mat 16384 6)
    (x14 : Mat 1000000 32) (x15 : Mat 100000 32) (x16 : Mat 2 32) (x17 : Mat 7 32) (x18 : Mat 21 32) (x19 : Mat 19 32)
    (h0 : ∀ b : Fin 16384, (x0 (ix1 b)).toNat < 1000000) (h1 : ∀ b : Fin 16384, (x1 (ix1 b)).toNat < 100000)
    (h2 : ∀ b : Fin 16384, (x2 (ix1 b)).toNat < 2) (h3 : ∀ b : Fin 16384, (x3 (ix1 b)).toNat < 7)
    (h4 : ∀ b : Fin 16384, (x4 (ix1 b)).toNat < 21) (h5 : ∀ (b : Fin 16384) (g : Fin 6), (x5 (ix2 b g)).toNat < 19)
    (b : Fin 16384) (k : Fin 6) (d : Fin 32) :
    val_main_v115 (F := Ideal) x0 x1 x2 x3 x4 x5 x6 x14 x15 x16 x17 x18 x19 (ix3 b k d)
      = fieldsOf (x0 (ix1 b)) (x1 (ix1 b)) (x2 (ix1 b)) (x3 (ix1 b)) (x4 (ix1 b)) (fun g => x5 (ix2 b g)) (fun g => x6 (ix2 b g)) x14 x15 x16 x17 x18 x19 k d := by
  have l0 : (x0 (ix1 b)).toNat < 2 ^ 31 := lt_trans (h0 b) (by norm_num)
  have l1 : (x1 (ix1 b)).toNat < 2 ^ 31 := lt_trans (h1 b) (by norm_num)
  have l2 : (x2 (ix1 b)).toNat < 2 ^ 31 := lt_trans (h2 b) (by norm_num)
  have l3 : (x3 (ix1 b)).toNat < 2 ^ 31 := lt_trans (h3 b) (by norm_num)
  have l4 : (x4 (ix1 b)).toNat < 2 ^ 31 := lt_trans (h4 b) (by norm_num)
  unfold val_main_v115
  refine (concat6_apply _ _ _ _ _ _ _ b k d).trans ?_
  match k with
  | ⟨0, _⟩ => exact field0 x0 x14 b d l0
  | ⟨1, _⟩ => exact field1 x1 x15 b d l1
  | ⟨2, _⟩ => exact field2 x2 x16 b d l2
  | ⟨3, _⟩ => exact field3 x3 x17 b d l3
  | ⟨4, _⟩ => exact field4 x4 x18 b d l4
  | ⟨5, _⟩ => exact field5 x5 x6 x19 b d (h5 b)

end Cert.Fm.Ref

end
-- ==== Proof.RefFirst.lean ====
/-
  The reference's first-order part of every row: the five looked-up first-order terms and the pooled genre term added
  in order, then the dense features' product with the weight row, then the bias.
-/
import proofs.«427521_j56710748176670_3_alg».proof.Proof.Gen.ReferenceIdeal.Read
import proofs.«427521_j56710748176670_3_alg».proof.Proof.Spec
import proofs.«427521_j56710748176670_3_alg».proof.Proof.LibGatherClamp
import proofs.«427521_j56710748176670_3_alg».proof.Proof.LibGather3
import proofs.«427521_j56710748176670_3_alg».proof.Proof.LibDenseForms
import proofs.«427521_j56710748176670_3_alg».proof.Proof.LibWordArith
import Idealize.ShloMosaic.Lib.IdealHost
import Idealize.ShloMosaic.Lib.StableHlo.Predicate
import Mathlib.Algebra.BigOperators.Fin

noncomputable section

namespace Cert.Fm.Ref

open Idealize.ShloMosaic Idealize.ShloMosaic.ValueIdx Cert.ReferenceIdeal Cert.ReferenceIdeal.Read Cert.Fm

/-! ## The five looked-up terms -/

/-- A one-index gather from a one-column table, where the start index of result row p is the word w: entry (p, 0)
    of the result is the table's entry in the row w selects. -/
private theorem gather_row {n e : ℕ} (hn : 0 < n) (d : GatherDims ⟨2, ![n, 1]⟩ ⟨2, ![e, 1]⟩ ⟨2, ![e, 1]⟩)
    (hod : d.offsetDims = [1]) (hcoll : d.collapsedSliceDims = [0]) (hob : d.operandBatchingDims = [])
    (hsim : d.startIndexMap = [0]) (hivd : d.indexVectorDim = 1)
    (t : Mat n 1) (col : IVec ⟨2, ![e, 1]⟩ 32) (p : Fin e) (w : BitVec 32) (hcol : col (ix2 p (0 : Fin 1)) = w) :
    Host.gather d t col (ix2 p (0 : Fin 1)) = t (ix2 (rowOf n hn w) 0) := by
  subst hcol
  exact Cert.Gcn.GatherClamp.gather2_clamp_apply hn d hod hcoll hob hsim hivd t col p 0

/-- A word below 2³¹ is not negative, so "add the table's height when negative" leaves it as it is. -/
private theorem wrap_id (w c : BitVec 32) {n : ℕ} (hw : w.toNat < n) (hn : n ≤ 2 ^ 31) :
    Scalar.select (IntOp.cmpi .slt w 0#32) (IntOp.addi w c) w = w :=
  Cert.Gcn.WordArith.select_slt_zero_small c (lt_of_lt_of_le hw hn)

/-- The user's first-order term of row b. -/
private theorem first_user (x0 : Ids 16384) (x8 : Mat 1000000 1)
    (h0 : ∀ b : Fin 16384, (x0 (ix1 b)).toNat < 1000000) (b : Fin 16384) :
    val_main_v6 (F := Ideal) x0 x8 (ix2 b (0 : Fin 1))
      = x8 (ix2 (rowOf 1000000 (by norm_num) (x0 (ix1 b))) 0) := by
  refine gather_row (by norm_num) gather_S1000000x1_S16384x1_S16384x1_1_0_n_n_0_1_11 rfl rfl rfl rfl rfl x8 _ b _ ?_
  rw [val_main_v5_apply, val_main_v4_apply, val_main_v1_apply, val_main_v3_apply, val_main_v0_apply,
    val_main_c_apply, val_main_v2_apply, val_main_c_0_apply]
  have e : idx_main_v5 (ix2 b (0 : Fin 1)) = ix1 b :=
    funext fun a => by match a with | ⟨0, _⟩ => rfl
  rw [e]
  exact wrap_id _ _ (h0 b) (by norm_num)

/-- The item's first-order term of row b. -/
private theorem first_item (x1 : Ids 16384) (x9 : Mat 100000 1)
    (h1 : ∀ b : Fin 16384, (x1 (ix1 b)).toNat < 100000) (b : Fin 16384) :
    val_main_v13 (F := Ideal) x1 x9 (ix2 b (0 : Fin 1))
      = x9 (ix2 (rowOf 100000 (by norm_num) (x1 (ix1 b))) 0) := by
  refine gather_row (by norm_num) gather_S100000x1_S16384x1_S16384x1_1_0_n_n_0_1_11 rfl rfl rfl rfl rfl x9 _ b _ ?_
  rw [val_main_v12_apply, val_main_v11_apply, val_main_v8_apply, val_main_v10_apply, val_main_v7_apply,
    val_main_c_1_apply, val_main_v9_apply, val_main_c_2_apply]
  have e : idx_main_v12 (ix2 b (0 : Fin 1)) = ix1 b :=
    funext fun a => by match a with | ⟨0, _⟩ => rfl
  rw [e]
  exact wrap_id _ _ (h1 b) (by norm_num)

/-- The gender's first-order term of row b. -/
private theorem first_gender (x2 : Ids 16384) (x10 : Mat 2 1)
    (h2 : ∀ b : Fin 16384, (x2 (ix1 b)).toNat < 2) (b : Fin 16384) :
    val_main_v21 (F := Ideal) x2 x10 (ix2 b (0 : Fin 1))
      = x10 (ix2 (rowOf 2 (by norm_num) (x2 (ix1 b))) 0) := by
  refine gather_row (by norm_num) gather_S2x1_S16384x1_S16384x1_1_0_n_n_0_1_11 rfl rfl rfl rfl rfl x10 _ b _ ?_
  rw [val_main_v20_apply, val_main_v19_apply, val_main_v16_apply, val_main_v18_apply, val_main_v15_apply,
    val_main_c_3_apply, val_main_v17_apply, val_main_c_4_apply]
  have e : idx_main_v20 (ix2 b (0 : Fin 1)) = ix1 b :=
    funext fun a => by match a with | ⟨0, _⟩ => rfl
  rw [e]
  exact wrap_id _ _ (h2 b) (by norm_num)

/-- The age's first-order term of row b. -/
private theorem first_age (x3 : Ids 16384) (x11 : Mat 7 1)
    (h3 : ∀ b : Fin 16384, (x3 (ix1 b)).toNat < 7) (b : Fin 16384) :
    val_main_v29 (F := Ideal) x3 x11 (ix2 b (0 : Fin 1))
      = x11 (ix2 (rowOf 7 (by norm_num) (x3 (ix1 b))) 0) := by
  refine gather_row (by norm_num) gather_S7x1_S16384x1_S16384x1_1_0_n_n_0_1_11 rfl rfl rfl rfl rfl x11 _ b _ ?_
  rw [val_main_v28_apply, val_main_v27_apply, val_main_v24_apply, val_main_v26_apply, val_main_v23_apply,
    val_main_c_5_apply, val_main_v25_apply, val_main_c_6_apply]
  have e : idx_main_v28 (ix2 b (0 : Fin 1)) = ix1 b :=
    funext fun a => by match a with | ⟨0, _⟩ => rfl
  rw [e]
  exact wrap_id _ _ (h3 b) (by norm_num)

/-- The occupation's first-order term of row b. -/
private theorem first_occ (x4 : Ids 16384) (x12 : Mat 21 1)
    (h4 : ∀ b : Fin 16384, (x4 (ix1 b)).toNat < 21) (b : Fin 16384) :
    val_main_v37 (F := Ideal) x4 x12 (ix2 b (0 : Fin 1))
      = x12 (ix2 (rowOf 21 (by norm_num) (x4 (ix1 b))) 0) := by
  refine gather_row (by norm_num) gather_S21x1_S16384x1_S16384x1_1_0_n_n_0_1_11 rfl rfl rfl rfl rfl x12 _ b _ ?_
  rw [val_main_v36_apply, val_main_v35_apply, val_main_v32_apply, val_main_v34_apply, val_main_v31_apply,
    val_main_c_7_apply, val_main_v33_apply, val_main_c_8_apply]
  have e : idx_main_v36 (ix2 b (0 : Fin 1)) = ix1 b :=
    funext fun a => by match a with | ⟨0, _⟩ => rfl
  rw [e]
  exact wrap_id _ _ (h4 b) (by norm_num)

/-! ## The pooled genre term -/

/-- The mask as a [16384, 6, 1] array reads the mask at (b, g). -/
private theorem pool_mask (x6 : Mat 16384 6) (b : Fin 16384) (g : Fin 6) :
    val_main_v46 (F := Ideal) x6 (ix3 b g (0 : Fin 1)) = x6 (ix2 b g) := by
  rw [val_main_v46_apply]
  exact congrArg x6 (funext fun a => by match a with | ⟨0, _⟩ => rfl | ⟨1, _⟩ => rfl)

/-- The genre index words as a [16384, 6, 1] array: a word that is a row number is left by the wrap. -/
private theorem pool_word (x5 : IdMat 16384 6) (h5 : ∀ (b : Fin 16384) (g : Fin 6), (x5 (ix2 b g)).toNat < 19)
    (b : Fin 16384) (g : Fin 6) :
    val_main_v44 (F := Ideal) x5 (ix3 b g (0 : Fin 1)) = x5 (ix2 b g) := by
  rw [val_main_v44_apply, val_main_v43_apply, val_main_v40_apply, val_main_v42_apply,
    val_main_v39_apply, val_main_c_9_apply, val_main_v41_apply, val_main_c_10_apply]
  have e : idx_main_v44 (ix3 b g (0 : Fin 1)) = ix2 b g :=
    funext fun a => by match a with | ⟨0, _⟩ => rfl | ⟨1, _⟩ => rfl
  rw [e]
  exact wrap_id _ _ (h5 b g) (by norm_num)

/-- The genre gather at (b, g, 0) reads the genre table's row chosen by the word at (b, g). -/
private theorem pool_gather (x5 : IdMat 16384 6) (x13 : Mat 19 1)
    (h5 : ∀ (b : Fin 16384) (g : Fin 6), (x5 (ix2 b g)).toNat < 19) (b : Fin 16384) (g : Fin 6) :
    val_main_v45 (F := Ideal) x5 x13 (ix3 b g (0 : Fin 1))
      = x13 (ix2 (rowOf 19 (by norm_num) (x5 (ix2 b g))) 0) := by
  have hidx : (val_main_v44 (F := Ideal) x5 (ix3 b g (0 : Fin 1))).toInt = (((x5 (ix2 b g)).toNat : ℕ) : Int) := by
    rw [pool_word x5 h5 b g]
    exact StableHlo.Predicate.toInt_eq_toNat_of_lt (lt_trans (h5 b g) (by norm_num))
  unfold val_main_v45
  rw [Cert.Gcn.Gather3.gather3_ix_apply gather_S19x1_S16384x6x1_S16384x6x1_2_0_n_n_0_2_11 rfl rfl rfl rfl rfl
    x13 _ b g (0 : Fin 1) (x5 (ix2 b g)).toNat (h5 b g) hidx,
    rowOf_of_lt 19 (by norm_num) (by norm_num) _ (h5 b g)]

/-- The pooled genre term of row b: the masked sum of the six looked-up terms over the larger of 1 and the
    mask's sum. -/
private theorem first_pool (x5 : IdMat 16384 6) (x6 : Mat 16384 6) (x13 : Mat 19 1)
    (h5 : ∀ (b : Fin 16384) (g : Fin 6), (x5 (ix2 b g)).toNat < 19) (b : Fin 16384) :
    val_main_v51 (F := Ideal) x5 x6 x13 (ix2 b (0 : Fin 1))
      = pool (fun g => x13 (ix2 (rowOf 19 (by norm_num) (x5 (ix2 b g))) 0)) (fun g => x6 (ix2 b g)) := by
  have hnum : val_main_v50 (F := Ideal) x5 x6 x13 (ix2 b (0 : Fin 1))
      = ∑ g : Fin 6, x13 (ix2 (rowOf 19 (by norm_num) (x5 (ix2 b g))) 0) * x6 (ix2 b g) := by
    rw [val_main_v50_apply, val_main_cst_12_apply, Ideal.ofBits_def, Ideal.ofBits_zero_f32, zero_add]
    refine Finset.sum_congr rfl fun g _ => ?_
    have e : idx_main_v50 (ix2 b (0 : Fin 1)) g = ix3 b g (0 : Fin 1) :=
      funext fun a => by match a with | ⟨0, _⟩ => rfl | ⟨1, _⟩ => rfl | ⟨2, _⟩ => rfl
    rw [e, val_main_v49_apply, Ideal.mulf_def, pool_gather x5 x13 h5 b g, pool_mask x6 b g]
  have hden : val_main_v48 (F := Ideal) x6 (ix2 b (0 : Fin 1)) = max 1 (∑ g : Fin 6, x6 (ix2 b g)) := by
    rw [val_main_v48_apply, Ideal.maximumf_def, val_main_call0_v1_apply, val_main_call0_v0_apply,
      val_main_cst_11_apply, Ideal.ofBits_def, Ideal.ofBits_one_f32, val_main_v47_apply, val_main_cst_apply,
      Ideal.ofBits_def, Ideal.ofBits_zero_f32, zero_add]
    refine congrArg (max 1) (Finset.sum_congr rfl fun g _ => ?_)
    have e : idx_main_v47 (ix2 b (0 : Fin 1)) g = ix3 b g (0 : Fin 1) :=
      funext fun a => by match a with | ⟨0, _⟩ => rfl | ⟨1, _⟩ => rfl | ⟨2, _⟩ => rfl
    rw [e, pool_mask x6 b g]
  rw [val_main_v51_apply, Ideal.hostDivf_def, hnum, hden]
  rfl

/-! ## The dense term and the bias -/

/-- The dense term of row b: the row's eight dense features against the weight row. -/
private theorem first_dense (x7 : Mat 16384 8) (x20 : Mat 1 8) (b : Fin 16384) :
    val_main_v54 (F := Ideal) x7 x20 (ix2 b (0 : Fin 1))
      = ∑ j : Fin 8, x7 (ix2 b j) * x20 (ix2 (0 : Fin 1) j) := by
  rw [val_main_v54_apply]
  refine Finset.sum_congr rfl fun j _ => ?_
  have el : lidx_main_v54 (ix2 b (0 : Fin 1)) j = ix2 b j :=
    funext fun a => by match a with | ⟨0, _⟩ => rfl | ⟨1, _⟩ => rfl
  have er : idx_main_v53 (ridx_main_v54 (ix2 b (0 : Fin 1)) j) = ix2 (0 : Fin 1) j :=
    funext fun a => by match a with | ⟨0, _⟩ => rfl | ⟨1, _⟩ => rfl
  rw [val_main_v53_apply, el, er]

/-- The bias, broadcast to every row. -/
private theorem first_bias (x21 : Col 1) (b : Fin 16384) :
    val_main_v57 (F := Ideal) x21 (ix2 b (0 : Fin 1)) = x21 (ix1 (0 : Fin 1)) := by
  rw [val_main_v57_apply, val_main_v56_apply]
  exact congrArg x21 (funext fun a => by match a with | ⟨0, _⟩ => rfl)

/-! ## The first-order sum -/

/-- Entry (b, 0) of the first-order sum. -/
theorem ref_first (x0 x1 x2 x3 x4 : Ids 16384) (x5 : IdMat 16384 6) (x6 : Mat 16384 6) (x7 : Mat 16384 8)
    (x8 : Mat 1000000 1) (x9 : Mat 100000 1) (x10 : Mat 2 1) (x11 : Mat 7 1) (x12 : Mat 21 1) (x13 : Mat 19 1) (x20 : Mat 1 8) (x21 : Col 1)
    (h0 : ∀ b : Fin 16384, (x0 (ix1 b)).toNat < 1000000) (h1 : ∀ b : Fin 16384, (x1 (ix1 b)).toNat < 100000)
    (h2 : ∀ b : Fin 16384, (x2 (ix1 b)).toNat < 2) (h3 : ∀ b : Fin 16384, (x3 (ix1 b)).toNat < 7)
    (h4 : ∀ b : Fin 16384, (x4 (ix1 b)).toNat < 21) (h5 : ∀ (b : Fin 16384) (g : Fin 6), (x5 (ix2 b g)).toNat < 19)
    (b : Fin 16384) :
    val_main_v58 (F := Ideal) x0 x1 x2 x3 x4 x5 x6 x7 x8 x9 x10 x11 x12 x13 x20 x21 (ix2 b (0 : Fin 1))
      = firstOrder (fun k => fieldsOf (x0 (ix1 b)) (x1 (ix1 b)) (x2 (ix1 b)) (x3 (ix1 b)) (x4 (ix1 b)) (fun g => x5 (ix2 b g)) (fun g => x6 (ix2 b g)) x8 x9 x10 x11 x12 x13 k 0)
          (fun j => x7 (ix2 b j)) (fun j => x20 (ix2 (0 : Fin 1) j)) (x21 (ix1 (0 : Fin 1))) := by
  -- the reference adds the six terms in order, then the dense term, then the bias
  rw [val_main_v58_apply, val_main_v55_apply, val_main_v52_apply, val_main_v38_apply, val_main_v30_apply,
    val_main_v22_apply, val_main_v14_apply]
  simp only [Ideal.addf_def]
  rw [first_user x0 x8 h0 b, first_item x1 x9 h1 b, first_gender x2 x10 h2 b, first_age x3 x11 h3 b,
    first_occ x4 x12 h4 b, first_pool x5 x6 x13 h5 b, first_dense x7 x20 b, first_bias x21 b]
  -- the specification adds the six terms, and to them the dense term plus the bias
  unfold firstOrder
  rw [Fin.sum_univ_six]
  exact add_assoc _ _ _

end Cert.Fm.Ref

end
-- ==== Proof.RefDeep.lean ====
/-
  The reference's three-layer network on every row. Its input row is the stacked embeddings flattened (entry 32·k + d is
  field k at column d) followed by the dense features; each layer is the product with the transposed weights plus the
  bias, the first two followed by the positive part.
-/
import proofs.«427521_j56710748176670_3_alg».proof.Proof.Gen.ReferenceIdeal.Read
import proofs.«427521_j56710748176670_3_alg».proof.Proof.Spec
import proofs.«427521_j56710748176670_3_alg».proof.Proof.LibLayoutReads
import proofs.«427521_j56710748176670_3_alg».proof.Proof.LibDenseForms
import Idealize.ShloMosaic.Lib.Pipeline.Value
import Idealize.ShloMosaic.PureOps.Ideal.Laws

noncomputable section

namespace Cert.Fm.Ref

open Idealize.ShloMosaic Idealize.ShloMosaic.ValueIdx Cert.ReferenceIdeal Cert.ReferenceIdeal.Read Cert.Fm

/-! ## Two matrices of one height laid side by side -/

section JoinCols
variable {α : Type} {m n1 n2 n : Nat} (y1 : (⟨2, ![m, n1]⟩ : Shape).Idx → α) (y2 : (⟨2, ![m, n2]⟩ : Shape).Idx → α)
  (h : Shape.Concatenates [(⟨2, ![m, n1]⟩ : Shape), ⟨2, ![m, n2]⟩] ⟨2, ![m, n]⟩ 1)

/-- A column below the left width: the left matrix's column. -/
private theorem joinCols_left_apply (r : Fin m) (c : Fin n) (i : Fin n1) (hc : c.val = i.val) :
    concatenate ⟨2, ![m, n]⟩ 1 [⟨⟨2, ![m, n1]⟩, y1⟩, ⟨⟨2, ![m, n2]⟩, y2⟩] h (ix2 r c) = y1 (ix2 r i) :=
  concatenate_pair_apply_left (1 : Fin 2) y1 y2 h (ix2 r c) rfl (ix2 r i) (fun a => by
    match a with
    | ⟨0, _⟩ => rfl
    | ⟨1, _⟩ => exact hc.symm)

/-- A column from the left width on: the right matrix's column, the left width less. -/
private theorem joinCols_right_apply (r : Fin m) (c : Fin n) (i : Fin n2) (hc : c.val = n1 + i.val) :
    concatenate ⟨2, ![m, n]⟩ 1 [⟨⟨2, ![m, n1]⟩, y1⟩, ⟨⟨2, ![m, n2]⟩, y2⟩] h (ix2 r c) = y2 (ix2 r i) :=
  concatenate_pair_apply_right (1 : Fin 2) y1 y2 h (ix2 r c) rfl rfl (ix2 r i) (fun a ha => by
    match a, ha with
    | ⟨0, _⟩, _ => rfl
    | ⟨1, _⟩, ha => exact absurd rfl ha)
    (by show i.val + n1 = c.val; omega)

end JoinCols

/-! ## The network's input row -/

/-- Entry (b, k) of the joined input matrix is the row's input: for k below 192 the flattened embeddings read field
    k / 32 at column k % 32 (since 192·b + k = (6·b + k / 32)·32 + k % 32), and from 192 on the dense feature k − 192. -/
private theorem input_row (x0 x1 x2 x3 x4 : Ids 16384) (x5 : IdMat 16384 6) (x6 : Mat 16384 6) (x7 : Mat 16384 8)
    (x14 : Mat 1000000 32) (x15 : Mat 100000 32) (x16 : Mat 2 32) (x17 : Mat 7 32) (x18 : Mat 21 32) (x19 : Mat 19 32)
    (X : Fin 16384 → Fin 6 → Fin 32 → EReal)
    (hX : ∀ (b : Fin 16384) (k : Fin 6) (d : Fin 32), val_main_v115 (F := Ideal) x0 x1 x2 x3 x4 x5 x6 x14 x15 x16 x17 x18 x19 (ix3 b k d) = X b k d)
    (b : Fin 16384) (k : Fin 200) :
    val_main_v126 (F := Ideal) x0 x1 x2 x3 x4 x5 x6 x7 x14 x15 x16 x17 x18 x19 (ix2 b k) = deepIn (X b) (fun j => x7 (ix2 b j)) k := by
  have hb : b.val < 16384 := b.isLt
  have hk : k.val < 200 := k.isLt
  by_cases h : k.val < 192
  · have e : idx_main_v125 (ix2 b (⟨k.val, h⟩ : Fin 192))
        = ix3 b (⟨k.val / 32, by omega⟩ : Fin 6) (⟨k.val % 32, Nat.mod_lt _ (by norm_num)⟩ : Fin 32) := by
      funext a
      match a with
      | ⟨0, _⟩ => exact Fin.ext (by show (b.val * 192 + k.val) / 192 = b.val; omega)
      | ⟨1, _⟩ => exact Fin.ext (by show (b.val * 192 + k.val) / 32 % 6 = k.val / 32; omega)
      | ⟨2, _⟩ => exact Fin.ext (by show (b.val * 192 + k.val) % 32 = k.val % 32; omega)
    calc val_main_v126 (F := Ideal) x0 x1 x2 x3 x4 x5 x6 x7 x14 x15 x16 x17 x18 x19 (ix2 b k)
        = val_main_v125 (F := Ideal) x0 x1 x2 x3 x4 x5 x6 x14 x15 x16 x17 x18 x19 (ix2 b (⟨k.val, h⟩ : Fin 192)) :=
          joinCols_left_apply _ x7 _ b k ⟨k.val, h⟩ rfl
      _ = X b ⟨k.val / 32, by omega⟩ ⟨k.val % 32, Nat.mod_lt _ (by norm_num)⟩ := by
          rw [val_main_v125_apply, e]
          exact hX b _ _
      _ = deepIn (X b) (fun j => x7 (ix2 b j)) k := by
          unfold deepIn
          rw [dif_pos h]
  · unfold deepIn
    rw [dif_neg h]
    exact joinCols_right_apply _ x7 _ b k ⟨k.val - 192, by omega⟩ (by show k.val = 192 + (k.val - 192); omega)

/-! ## The three layers, each from the layer below -/

/-- The first hidden layer at (b, j): the input row against row j of the weights, plus the bias, positive part. -/
private theorem layer1 (x0 x1 x2 x3 x4 : Ids 16384) (x5 : IdMat 16384 6) (x6 : Mat 16384 6) (x7 : Mat 16384 8)
    (x14 : Mat 1000000 32) (x15 : Mat 100000 32) (x16 : Mat 2 32) (x17 : Mat 7 32) (x18 : Mat 21 32) (x19 : Mat 19 32)
    (x22 : Mat 128 200) (x23 : Col 128) (b : Fin 16384) (Z : Fin 200 → EReal)
    (hZ : ∀ k : Fin 200, val_main_v126 (F := Ideal) x0 x1 x2 x3 x4 x5 x6 x7 x14 x15 x16 x17 x18 x19 (ix2 b k) = Z k) (j : Fin 128) :
    val_main_v132 (F := Ideal) x0 x1 x2 x3 x4 x5 x6 x7 x14 x15 x16 x17 x18 x19 x22 x23 (ix2 b j)
      = hidden1 Z (fun j k => x22 (ix2 j k)) (fun j => x23 (ix1 j)) j := by
  have el : ∀ k : Fin 200, lidx_main_v128 (ix2 b j) k = ix2 b k := fun k => funext fun a => by
    match a with
    | ⟨0, _⟩ => rfl
    | ⟨1, _⟩ => rfl
  have er : ∀ k : Fin 200, idx_main_v127 (ridx_main_v128 (ix2 b j) k) = ix2 j k := fun k => funext fun a => by
    match a with
    | ⟨0, _⟩ => rfl
    | ⟨1, _⟩ => rfl
  have eb : idx_main_v129 (idx_main_v130 (ix2 b j)) = ix1 j := funext fun a => by
    match a with
    | ⟨0, _⟩ => rfl
  have hs : (∑ k : Fin 200, val_main_v126 (F := Ideal) x0 x1 x2 x3 x4 x5 x6 x7 x14 x15 x16 x17 x18 x19 (lidx_main_v128 (ix2 b j) k)
        * val_main_v127 (F := Ideal) x22 (ridx_main_v128 (ix2 b j) k))
      = ∑ k : Fin 200, Z k * x22 (ix2 j k) :=
    Finset.sum_congr rfl fun k _ => by rw [el k, hZ k, val_main_v127_apply, er k]
  rw [val_main_v132_apply, val_main_v131_apply, val_main_v128_apply, val_main_v130_apply, val_main_v129_apply,
    val_main_call2_v0_apply, val_main_call2_cst_apply, eb]
  simp only [Ideal.maximumf_def, Ideal.addf_def, Ideal.ofBits_def, Ideal.ofBits_zero_f32]
  exact congrArg (fun s : EReal => max (s + x23 (ix1 j)) 0) hs

/-- The second hidden layer at (b, j), from the first. -/
private theorem layer2 (x0 x1 x2 x3 x4 : Ids 16384) (x5 : IdMat 16384 6) (x6 : Mat 16384 6) (x7 : Mat 16384 8)
    (x14 : Mat 1000000 32) (x15 : Mat 100000 32) (x16 : Mat 2 32) (x17 : Mat 7 32) (x18 : Mat 21 32) (x19 : Mat 19 32)
    (x22 : Mat 128 200) (x23 : Col 128) (x24 : Mat 64 128) (x25 : Col 64) (b : Fin 16384) (H : Fin 128 → EReal)
    (hH : ∀ k : Fin 128, val_main_v132 (F := Ideal) x0 x1 x2 x3 x4 x5 x6 x7 x14 x15 x16 x17 x18 x19 x22 x23 (ix2 b k) = H k) (j : Fin 64) :
    val_main_v138 (F := Ideal) x0 x1 x2 x3 x4 x5 x6 x7 x14 x15 x16 x17 x18 x19 x22 x23 x24 x25 (ix2 b j)
      = hidden2 H (fun j k => x24 (ix2 j k)) (fun j => x25 (ix1 j)) j := by
  have el : ∀ k : Fin 128, lidx_main_v134 (ix2 b j) k = ix2 b k := fun k => funext fun a => by
    match a with
    | ⟨0, _⟩ => rfl
    | ⟨1, _⟩ => rfl
  have er : ∀ k : Fin 128, idx_main_v133 (ridx_main_v134 (ix2 b j) k) = ix2 j k := fun k => funext fun a => by
    match a with
    | ⟨0, _⟩ => rfl
    | ⟨1, _⟩ => rfl
  have eb : idx_main_v135 (idx_main_v136 (ix2 b j)) = ix1 j := funext fun a => by
    match a with
    | ⟨0, _⟩ => rfl
  have hs : (∑ k : Fin 128, val_main_v132 (F := Ideal) x0 x1 x2 x3 x4 x5 x6 x7 x14 x15 x16 x17 x18 x19 x22 x23 (lidx_main_v134 (ix2 b j) k)
        * val_main_v133 (F := Ideal) x24 (ridx_main_v134 (ix2 b j) k))
      = ∑ k : Fin 128, H k * x24 (ix2 j k) :=
    Finset.sum_congr rfl fun k _ => by rw [el k, hH k, val_main_v133_apply, er k]
  rw [val_main_v138_apply, val_main_v137_apply, val_main_v134_apply, val_main_v136_apply, val_main_v135_apply,
    val_main_call3_v0_apply, val_main_call3_cst_apply, eb]
  simp only [Ideal.maximumf_def, Ideal.addf_def, Ideal.ofBits_def, Ideal.ofBits_zero_f32]
  exact congrArg (fun s : EReal => max (s + x25 (ix1 j)) 0) hs

/-- The output layer at (b, 0), from the second hidden layer. -/
private theorem layer3 (x0 x1 x2 x3 x4 : Ids 16384) (x5 : IdMat 16384 6) (x6 : Mat 16384 6) (x7 : Mat 16384 8)
    (x14 : Mat 1000000 32) (x15 : Mat 100000 32) (x16 : Mat 2 32) (x17 : Mat 7 32) (x18 : Mat 21 32) (x19 : Mat 19 32)
    (x22 : Mat 128 200) (x23 : Col 128) (x24 : Mat 64 128) (x25 : Col 64) (x26 : Mat 1 64) (x27 : Col 1)
    (b : Fin 16384) (H : Fin 64 → EReal)
    (hH : ∀ k : Fin 64, val_main_v138 (F := Ideal) x0 x1 x2 x3 x4 x5 x6 x7 x14 x15 x16 x17 x18 x19 x22 x23 x24 x25 (ix2 b k) = H k) :
    val_main_v143 (F := Ideal) x0 x1 x2 x3 x4 x5 x6 x7 x14 x15 x16 x17 x18 x19 x22 x23 x24 x25 x26 x27 (ix2 b (0 : Fin 1))
      = (∑ j : Fin 64, H j * x26 (ix2 (0 : Fin 1) j)) + x27 (ix1 (0 : Fin 1)) := by
  have el : ∀ k : Fin 64, lidx_main_v140 (ix2 b (0 : Fin 1)) k = ix2 b k := fun k => funext fun a => by
    match a with
    | ⟨0, _⟩ => rfl
    | ⟨1, _⟩ => rfl
  have er : ∀ k : Fin 64, idx_main_v139 (ridx_main_v140 (ix2 b (0 : Fin 1)) k) = ix2 (0 : Fin 1) k := fun k => funext fun a => by
    match a with
    | ⟨0, _⟩ => rfl
    | ⟨1, _⟩ => rfl
  have eb : idx_main_v141 (idx_main_v142 (ix2 b (0 : Fin 1))) = ix1 (0 : Fin 1) := funext fun a => by
    match a with
    | ⟨0, _⟩ => rfl
  have hs : (∑ k : Fin 64, val_main_v138 (F := Ideal) x0 x1 x2 x3 x4 x5 x6 x7 x14 x15 x16 x17 x18 x19 x22 x23 x24 x25 (lidx_main_v140 (ix2 b (0 : Fin 1)) k)
        * val_main_v139 (F := Ideal) x26 (ridx_main_v140 (ix2 b (0 : Fin 1)) k))
      = ∑ k : Fin 64, H k * x26 (ix2 (0 : Fin 1) k) :=
    Finset.sum_congr rfl fun k _ => by rw [el k, hH k, val_main_v139_apply, er k]
  rw [val_main_v143_apply, val_main_v140_apply, val_main_v142_apply, val_main_v141_apply, eb]
  simp only [Ideal.addf_def]
  exact congrArg (fun s : EReal => s + x27 (ix1 (0 : Fin 1))) hs

/-- Entry (b, 0) of the network's output, from the stacked embeddings X. -/
theorem ref_deep (x0 x1 x2 x3 x4 : Ids 16384) (x5 : IdMat 16384 6) (x6 : Mat 16384 6) (x7 : Mat 16384 8)
    (x14 : Mat 1000000 32) (x15 : Mat 100000 32) (x16 : Mat 2 32) (x17 : Mat 7 32) (x18 : Mat 21 32) (x19 : Mat 19 32)
    (x22 : Mat 128 200) (x23 : Col 128) (x24 : Mat 64 128) (x25 : Col 64) (x26 : Mat 1 64) (x27 : Col 1)
    (X : Fin 16384 → Fin 6 → Fin 32 → EReal)
    (hX : ∀ (b : Fin 16384) (k : Fin 6) (d : Fin 32), val_main_v115 (F := Ideal) x0 x1 x2 x3 x4 x5 x6 x14 x15 x16 x17 x18 x19 (ix3 b k d) = X b k d)
    (b : Fin 16384) :
    val_main_v143 (F := Ideal) x0 x1 x2 x3 x4 x5 x6 x7 x14 x15 x16 x17 x18 x19 x22 x23 x24 x25 x26 x27 (ix2 b (0 : Fin 1))
      = mlp (deepIn (X b) (fun j => x7 (ix2 b j))) (fun j k => x22 (ix2 j k)) (fun j => x23 (ix1 j))
          (fun j k => x24 (ix2 j k)) (fun j => x25 (ix1 j)) (fun j => x26 (ix2 (0 : Fin 1) j)) (x27 (ix1 (0 : Fin 1))) := by
  have hz := input_row x0 x1 x2 x3 x4 x5 x6 x7 x14 x15 x16 x17 x18 x19 X hX b
  have h1 := layer1 x0 x1 x2 x3 x4 x5 x6 x7 x14 x15 x16 x17 x18 x19 x22 x23 b _ hz
  have h2 := layer2 x0 x1 x2 x3 x4 x5 x6 x7 x14 x15 x16 x17 x18 x19 x22 x23 x24 x25 b _ h1
  exact layer3 x0 x1 x2 x3 x4 x5 x6 x7 x14 x15 x16 x17 x18 x19 x22 x23 x24 x25 x26 x27 b _ h2

end Cert.Fm.Ref

end
-- ==== Proof.RefResult.lean ====
/-
  The reference's pairwise-interaction term of every row, and its result: the first-order part, the pairwise term and the
  network's output added in that order, the column of sums read as a vector.
-/
import proofs.«427521_j56710748176670_3_alg».proof.Proof.Gen.ReferenceIdeal.Read
import proofs.«427521_j56710748176670_3_alg».proof.Proof.Spec
import proofs.«427521_j56710748176670_3_alg».proof.Proof.LibLayoutReads
import proofs.«427521_j56710748176670_3_alg».proof.Proof.LibDenseForms
import proofs.«427521_j56710748176670_3_alg».proof.Proof.RefFields
import proofs.«427521_j56710748176670_3_alg».proof.Proof.RefFirst
import proofs.«427521_j56710748176670_3_alg».proof.Proof.RefDeep

noncomputable section

namespace Cert.Fm.Ref

open Idealize.ShloMosaic Idealize.ShloMosaic.ValueIdx Cert.ReferenceIdeal Cert.ReferenceIdeal.Read Cert.Fm

/-! ## The composed index functions at explicit coordinates -/

/-- Summing the stacked embeddings over the field axis, term k of entry (b, d) is entry (b, k, d). -/
private theorem idx116 (b : Fin 16384) (d : Fin 32) (k : Fin 6) : idx_main_v116 (ix2 b d) k = ix3 b k d := by
  funext a; match a with | ⟨0, _⟩ => rfl | ⟨1, _⟩ => rfl | ⟨2, _⟩ => rfl

/-- The same for the sum of the squares. -/
private theorem idx119 (b : Fin 16384) (d : Fin 32) (k : Fin 6) : idx_main_v119 (ix2 b d) k = ix3 b k d := by
  funext a; match a with | ⟨0, _⟩ => rfl | ⟨1, _⟩ => rfl | ⟨2, _⟩ => rfl

/-- Summing a row over its columns, term d of entry b is entry (b, d). -/
private theorem idx121 (b : Fin 16384) (d : Fin 32) : idx_main_v121 (ix1 b) d = ix2 b d := by
  funext a; match a with | ⟨0, _⟩ => rfl | ⟨1, _⟩ => rfl

/-- The column made of a vector reads the vector at the row number. -/
private theorem idx122 (b : Fin 16384) : idx_main_v122 (ix2 b (0 : Fin 1)) = ix1 b := by
  funext a; match a with | ⟨0, _⟩ => rfl

/-- The vector made of a one-column matrix reads the matrix at (row, 0). -/
private theorem idx146 (b : Fin 16384) : idx_main_v146 (ix1 b) = ix2 b (0 : Fin 1) := by
  funext a; match a with | ⟨0, _⟩ => exact Fin.ext (Nat.div_one b.val) | ⟨1, _⟩ => rfl

/-! ## The pairwise term, stage by stage -/

section Second

variable (x0 x1 x2 x3 x4 : Ids 16384) (x5 : IdMat 16384 6) (x6 : Mat 16384 6)
  (x14 : Mat 1000000 32) (x15 : Mat 100000 32) (x16 : Mat 2 32) (x17 : Mat 7 32) (x18 : Mat 21 32) (x19 : Mat 19 32)
  (X : Fin 16384 → Fin 6 → Fin 32 → EReal)
  (hX : ∀ (b : Fin 16384) (k : Fin 6) (d : Fin 32), val_main_v115 (F := Ideal) x0 x1 x2 x3 x4 x5 x6 x14 x15 x16 x17 x18 x19 (ix3 b k d) = X b k d)
include hX

/-- The sum over the fields, from zero: Σₖ X b k d. -/
private theorem fieldSum (b : Fin 16384) (d : Fin 32) :
    val_main_v116 (F := Ideal) x0 x1 x2 x3 x4 x5 x6 x14 x15 x16 x17 x18 x19 (ix2 b d) = ∑ k, X b k d := by
  rw [val_main_v116_apply, val_main_cst_28_apply, Ideal.ofBits_def, Ideal.ofBits_zero_f32, zero_add]
  exact Finset.sum_congr rfl fun k _ => by rw [idx116, hX]

/-- The sum over the fields of the squares, from zero: Σₖ (X b k d)². -/
private theorem squareSum (b : Fin 16384) (d : Fin 32) :
    val_main_v119 (F := Ideal) x0 x1 x2 x3 x4 x5 x6 x14 x15 x16 x17 x18 x19 (ix2 b d) = ∑ k, X b k d * X b k d := by
  rw [val_main_v119_apply, val_main_cst_29_apply, Ideal.ofBits_def, Ideal.ofBits_zero_f32, zero_add]
  exact Finset.sum_congr rfl fun k _ => by rw [idx119, val_main_v118_apply, Ideal.mulf_def, hX]

/-- The square of the sum less the sum of the squares, added over the columns, from zero. -/
private theorem rowSum (b : Fin 16384) :
    val_main_v121 (F := Ideal) x0 x1 x2 x3 x4 x5 x6 x14 x15 x16 x17 x18 x19 (ix1 b)
      = ∑ d, ((∑ k, X b k d) * (∑ k, X b k d) - ∑ k, X b k d * X b k d) := by
  rw [val_main_v121_apply, val_main_cst_30_apply, Ideal.ofBits_def, Ideal.ofBits_zero_f32, zero_add]
  exact Finset.sum_congr rfl fun d _ => by
    rw [idx121, val_main_v120_apply, val_main_v117_apply, Ideal.subf_def, Ideal.mulf_def,
      fieldSum x0 x1 x2 x3 x4 x5 x6 x14 x15 x16 x17 x18 x19 X hX, squareSum x0 x1 x2 x3 x4 x5 x6 x14 x15 x16 x17 x18 x19 X hX]

end Second

/-- Entry (b, 0) of the pairwise-interaction term, from the stacked embeddings X. -/
theorem ref_second (x0 x1 x2 x3 x4 : Ids 16384) (x5 : IdMat 16384 6) (x6 : Mat 16384 6)
    (x14 : Mat 1000000 32) (x15 : Mat 100000 32) (x16 : Mat 2 32) (x17 : Mat 7 32) (x18 : Mat 21 32) (x19 : Mat 19 32)
    (X : Fin 16384 → Fin 6 → Fin 32 → EReal)
    (hX : ∀ (b : Fin 16384) (k : Fin 6) (d : Fin 32), val_main_v115 (F := Ideal) x0 x1 x2 x3 x4 x5 x6 x14 x15 x16 x17 x18 x19 (ix3 b k d) = X b k d)
    (b : Fin 16384) :
    val_main_v124 (F := Ideal) x0 x1 x2 x3 x4 x5 x6 x14 x15 x16 x17 x18 x19 (ix2 b (0 : Fin 1)) = pairwise (X b) := by
  rw [val_main_v124_apply, val_main_v123_apply, val_main_cst_31_apply, val_main_v122_apply, idx122,
    Ideal.mulf_def, Ideal.ofBits_def, rowSum x0 x1 x2 x3 x4 x5 x6 x14 x15 x16 x17 x18 x19 X hX b]
  rfl

/-- The reference's result is Spec's `result` of the arguments, when every index word is a row number. -/
theorem ref_result (x0 x1 x2 x3 x4 : Ids 16384) (x5 : IdMat 16384 6) (x6 : Mat 16384 6) (x7 : Mat 16384 8)
    (x8 : Mat 1000000 1) (x9 : Mat 100000 1) (x10 : Mat 2 1) (x11 : Mat 7 1) (x12 : Mat 21 1) (x13 : Mat 19 1)
    (x14 : Mat 1000000 32) (x15 : Mat 100000 32) (x16 : Mat 2 32) (x17 : Mat 7 32) (x18 : Mat 21 32) (x19 : Mat 19 32)
    (x20 : Mat 1 8) (x21 : Col 1) (x22 : Mat 128 200) (x23 : Col 128) (x24 : Mat 64 128) (x25 : Col 64) (x26 : Mat 1 64) (x27 : Col 1)
    (h0 : ∀ b : Fin 16384, (x0 (ix1 b)).toNat < 1000000) (h1 : ∀ b : Fin 16384, (x1 (ix1 b)).toNat < 100000)
    (h2 : ∀ b : Fin 16384, (x2 (ix1 b)).toNat < 2) (h3 : ∀ b : Fin 16384, (x3 (ix1 b)).toNat < 7)
    (h4 : ∀ b : Fin 16384, (x4 (ix1 b)).toNat < 21) (h5 : ∀ (b : Fin 16384) (g : Fin 6), (x5 (ix2 b g)).toNat < 19) :
    val_main_v146 (F := Ideal) x0 x1 x2 x3 x4 x5 x6 x7 x8 x9 x10 x11 x12 x13 x14 x15 x16 x17 x18 x19 x20 x21 x22 x23 x24 x25 x26 x27
      = result x0 x1 x2 x3 x4 x5 x6 x7 x8 x9 x10 x11 x12 x13 x14 x15 x16 x17 x18 x19 x20 x21 x22 x23 x24 x25 x26 x27 := by
  funext i
  obtain ⟨b, rfl⟩ : ∃ b : Fin 16384, i = ix1 b := ⟨i 0, eq_ix1 i⟩
  -- the stacked embeddings are the six fields of every row
  have hF := ref_fields x0 x1 x2 x3 x4 x5 x6 x14 x15 x16 x17 x18 x19 h0 h1 h2 h3 h4 h5
  have e1 := ref_first x0 x1 x2 x3 x4 x5 x6 x7 x8 x9 x10 x11 x12 x13 x20 x21 h0 h1 h2 h3 h4 h5 b
  have e2 := ref_second x0 x1 x2 x3 x4 x5 x6 x14 x15 x16 x17 x18 x19
    (fun b k d => fieldsOf (x0 (ix1 b)) (x1 (ix1 b)) (x2 (ix1 b)) (x3 (ix1 b)) (x4 (ix1 b)) (fun g => x5 (ix2 b g)) (fun g => x6 (ix2 b g)) x14 x15 x16 x17 x18 x19 k d) hF b
  have e3 := ref_deep x0 x1 x2 x3 x4 x5 x6 x7 x14 x15 x16 x17 x18 x19 x22 x23 x24 x25 x26 x27
    (fun b k d => fieldsOf (x0 (ix1 b)) (x1 (ix1 b)) (x2 (ix1 b)) (x3 (ix1 b)) (x4 (ix1 b)) (fun g => x5 (ix2 b g)) (fun g => x6 (ix2 b g)) x14 x15 x16 x17 x18 x19 k d) hF b
  -- the reshape reads entry (b, 0) of (first + second) + deep
  rw [val_main_v146_apply, idx146, val_main_v145_apply, val_main_v144_apply, Ideal.addf_def, Ideal.addf_def, e1, e2, e3]
  rfl

end Cert.Fm.Ref

end
-- ==== Proof.lean ====
/-
  The certificate of one recommendation-model kernel against its reference: five lookups of embedding rows, a masked
  mean over six genre slots, a first-order sum, the pairwise-interaction term ½ · Σ_d ((Σₖ xₖ)² − Σₖ xₖ²) and a
  three-layer network, added into one score per example.

  The kernel looks the small tables up by multiplying an indicator row with the table, and the two large tables by a
  lookup that fills rows of out-of-range words; the reference reads the row nearest to the word. The two agree when
  every index word is a row number of its table, which the precondition says; under it both programs compute Spec's
  `result`: the kernel block by block (KBlock, KArrays), the reference stage by stage (RefFields … RefResult). Sums
  are sums of extended reals, where the order of the terms does not matter, and a change of float format is the identity.
-/
import proofs.«427521_j56710748176670_3_alg».proof.Defs
import proofs.«427521_j56710748176670_3_alg».proof.Proof.Gen.Kernel
import proofs.«427521_j56710748176670_3_alg».proof.Proof.Gen.KernelIdeal
import proofs.«427521_j56710748176670_3_alg».proof.Proof.Gen.ReferenceIdeal
import proofs.«427521_j56710748176670_3_alg».proof.Proof.Gen.Pre_finite_inputs
import proofs.«427521_j56710748176670_3_alg».proof.Proof.FrameKernel
import proofs.«427521_j56710748176670_3_alg».proof.Proof.FrameKernelIdeal
import proofs.«427521_j56710748176670_3_alg».proof.Proof.Gen.ReferenceIdeal.Run
import proofs.«427521_j56710748176670_3_alg».proof.Proof.Gen.ReferenceIdeal.Read
import proofs.«427521_j56710748176670_3_alg».proof.Proof.PreRead
import proofs.«427521_j56710748176670_3_alg».proof.Proof.KArrays
import proofs.«427521_j56710748176670_3_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at Spec's `result` of the arguments: the kernel by its run read block by block, the reference by
    its run read stage by stage, both under the index ranges the precondition gives. -/
theorem algebraic : Cert.algebraic_KernelIdeal_ReferenceIdeal := by
  intro m ρ m' ρ' hpre hagree
  have hr : ∀ c, Cert.Fm.Kernel.InRange m c := fun c => Cert.Fm.PreRead.ranges_of_pre _ _ _ _ _ _ _ _ _ _ _ _ _ _ _ _ _ _ _ _ _ _ _ _ _ _ _ _ (hpre c)
  refine ⟨fun c => Cert.Fm.Kernel.resultOf m c, Cert.Fm.Kernel.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v146_eq]
  obtain ⟨a0, a1, a2, a3, a4, a5, a6, a7, a8, a9, a10, a11, a12, a13, a14, a15, a16, a17, a18, a19, a20, a21, a22, a23, a24, a25, a26, a27⟩ := hagree c
  rw [a0, a1, a2, a3, a4, a5, a6, a7, a8, a9, a10, a11, a12, a13, a14, a15, a16, a17, a18, a19, a20, a21, a22, a23, a24, a25,
    a26, a27]
  obtain ⟨h0, h1, h2, h3, h4, h5⟩ := hr c
  exact Cert.Fm.Ref.ref_result _ _ _ _ _ _ _ _ _ _ _ _ _ _ _ _ _ _ _ _ _ _ _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
